-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S22x512 : Shape := ⟨2, ![22, 512]⟩
abbrev S512x2048 : Shape := ⟨2, ![512, 2048]⟩
abbrev S2048 : Shape := ⟨1, ![2048]⟩
abbrev S2048x22 : Shape := ⟨2, ![2048, 22]⟩
abbrev S22 : Shape := ⟨1, ![22]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S22x512 : S_.BroadcastsInDim S22x512 (![] : Fin 0 → Fin S22x512.rank)
  reducesTo_S22x512_S_d0_1 : S22x512.ReducesTo [0, 1] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S2048x22 : S_.BroadcastsInDim S2048x22 (![] : Fin 0 → Fin S2048x22.rank)
  reducesTo_S2048x22_S_d0_1 : S2048x22.ReducesTo [0, 1] S_
  bcast_S_S22 : S_.BroadcastsInDim S22 (![] : Fin 0 → Fin S22.rank)
  reducesTo_S22_S_d0 : S22.ReducesTo [0] S_

variable [Facts]

def fn_part1 {F : FTy → Type} [FloatOps F] (main_arg0 : IVec S32x512 32) (main_arg5 : FVec F S2048x22 .f32) (main_arg6 : FVec F S22 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x22 .f32 := Host.absf main_arg5
  let main_cst_6 : FVec F S_ .f32 := constant S_ .f32 0x7F800000#32
  let main_v20 : FVec F S2048x22 .f32 := broadcastInDim S2048x22 ![] bcast_S_S2048x22 main_cst_6
  let main_v21 : IVec S2048x22 1 := cmpf .olt main_v19 main_v20
  let main_c_7 : IVec S_ 1 := constantI S_ 1 1#1
  let main_v22 : IVec S_ 1 := (fun x v => Host.reduce IntOp.andi x v reducesTo_S2048x22_S_d0_1 h_S_) main_v21 main_c_7
  let main_v23 : IVec S_ 1 := andi main_v18 main_v22
  let main_v24 : FVec F S22 .f32 := Host.absf main_arg6
  let main_cst_8 : FVec F S_ .f32 := constant S_ .f32 0x7F800000#32
  let main_v25 : FVec F S22 .f32 := broadcastInDim S22 ![] bcast_S_S22 main_cst_8
  let main_v26 : IVec S22 1 := cmpf .olt main_v24 main_v25
  let main_c_9 : IVec S_ 1 := constantI S_ 1 1#1
  let main_v27 : IVec S_ 1 := (fun x v => Host.reduce IntOp.andi x v reducesTo_S22_S_d0 h_S_) main_v26 main_c_9
  let main_v28 : IVec S_ 1 := andi main_v23 main_v27
  let main_c_10 : IVec S_ 32 := constantI S_ 32 0#32
  let main_v29 : IVec S32x512 32 := broadcastInDim S32x512 ![] bcast_S_S32x512 main_c_10
  let main_v30 : IVec S32x512 1 := cmpi .sge main_arg0 main_v29
  let main_c_11 : IVec S_ 1 := constantI S_ 1 1#1
  let main_v31 : IVec S_ 1 := (fun x v => Host.reduce IntOp.andi x v reducesTo_S32x512_S_d0_1 h_S_) main_v30 main_c_11
  let main_v32 : IVec S_ 1 := andi main_v28 main_v31
  main_v32

def fn {F : FTy → Type} [FloatOps F] (main_arg0 : IVec S32x512 32) (main_arg1 : FVec F S32x512 .f32) (main_arg2 : FVec F S22x512 .f32) (main_arg3 : FVec F S512x2048 .f32) (main_arg4 : FVec F S2048 .f32) (main_arg5 : FVec F S2048x22 .f32) (main_arg6 : FVec F S22 .f32) : IVec S_ 1 :=
  let main_v0 : FVec F S32x512 .f32 := Host.absf main_arg1
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S22x512 .f32 := Host.absf main_arg2
  let main_cst_0 : FVec F S_ .f32 := constant S_ .f32 0x7F800000#32
  let main_v5 : FVec F S22x512 .f32 := broadcastInDim S22x512 ![] bcast_S_S22x512 main_cst_0
  let main_v6 : IVec S22x512 1 := cmpf .olt main_v4 main_v5
  let main_c_1 : IVec S_ 1 := constantI S_ 1 1#1
  let main_v7 : IVec S_ 1 := (fun x v => Host.reduce IntOp.andi x v reducesTo_S22x512_S_d0_1 h_S_) main_v6 main_c_1
  let main_v8 : IVec S_ 1 := andi main_v3 main_v7
  let main_v9 : FVec F S512x2048 .f32 := Host.absf main_arg3
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S2048 .f32 := Host.absf main_arg4
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg0 main_arg5 main_arg6 main_v13 main_v16
-- ==== Kernel.lean ====
abbrev S32x512 : Shape := ⟨2, ![32, 512]⟩
abbrev S22x512 : Shape := ⟨2, ![22, 512]⟩
abbrev S512x2048 : Shape := ⟨2, ![512, 2048]⟩
abbrev S2048 : Shape := ⟨1, ![2048]⟩
abbrev S2048x22 : Shape := ⟨2, ![2048, 22]⟩
abbrev S22 : Shape := ⟨1, ![22]⟩
abbrev S32x511 : Shape := ⟨2, ![32, 511]⟩
abbrev S_ : Shape := ⟨0, ![]⟩
abbrev S32x511x1 : Shape := ⟨3, ![32, 511, 1]⟩
abbrev S32 : Shape := ⟨1, ![32]⟩
abbrev S32x1 : Shape := ⟨2, ![32, 1]⟩
abbrev S1x22 : Shape := ⟨2, ![1, 22]⟩
abbrev S32x22 : Shape := ⟨2, ![32, 22]⟩
abbrev S32x128 : Shape := ⟨2, ![32, 128]⟩
abbrev S16x2x512 : Shape := ⟨3, ![16, 2, 512]⟩
abbrev S16x2x128 : Shape := ⟨3, ![16, 2, 128]⟩
abbrev S2048x128 : Shape := ⟨2, ![2048, 128]⟩
abbrev S128 : Shape := ⟨1, ![128]⟩
abbrev S16x1024x128 : Shape := ⟨3, ![16, 1024, 128]⟩
abbrev S1x2x512 : Shape := ⟨3, ![1, 2, 512]⟩
abbrev S1x2x128 : Shape := ⟨3, ![1, 2, 128]⟩
abbrev S1x1024x128 : Shape := ⟨3, ![1, 1024, 128]⟩
abbrev S2x512 : Shape := ⟨2, ![2, 512]⟩
abbrev S512x22 : Shape := ⟨2, ![512, 22]⟩
abbrev S1x512 : Shape := ⟨2, ![1, 512]⟩
abbrev S512 : Shape := ⟨1, ![512]⟩
abbrev S512x1 : Shape := ⟨2, ![512, 1]⟩
abbrev S512x512 : Shape := ⟨2, ![512, 512]⟩
abbrev S1x1x512 : Shape := ⟨3, ![1, 1, 512]⟩
abbrev S1024x512 : Shape := ⟨2, ![1024, 512]⟩
abbrev S1024x128 : Shape := ⟨2, ![1024, 128]⟩
abbrev S512x128 : Shape := ⟨2, ![512, 128]⟩
abbrev S1x128 : Shape := ⟨2, ![1, 128]⟩
abbrev S1x1x128 : Shape := ⟨3, ![1, 1, 128]⟩
abbrev S1x512x128 : Shape := ⟨3, ![1, 512, 128]⟩
abbrev S32x512x128 : Shape := ⟨3, ![32, 512, 128]⟩
abbrev S32x512x22 : Shape := ⟨3, ![32, 512, 22]⟩

abbrev nBuf : Space → Nat
  | .hbm => 54
  | .vmem => 13
  | .smem => 0
  | _ => 0

abbrev bufTy : (tb : Table) → Fin (tcTables nBuf tb) → BufTy
  | .hbm, ⟨0, _⟩ => ⟨S32x512, .i32⟩
  | .hbm, ⟨1, _⟩ => ⟨S32x512, .f32⟩
  | .hbm, ⟨2, _⟩ => ⟨S22x512, .f32⟩
  | .hbm, ⟨3, _⟩ => ⟨S512x2048, .f32⟩
  | .hbm, ⟨4, _⟩ => ⟨S2048, .f32⟩
  | .hbm, ⟨5, _⟩ => ⟨S2048x22, .f32⟩
  | .hbm, ⟨6, _⟩ => ⟨S22, .f32⟩
  | .hbm, ⟨7, _⟩ => ⟨S22, .f32⟩
  | .hbm, ⟨8, _⟩ => ⟨S22, .f32⟩
  | .hbm, ⟨9, _⟩ => ⟨S22, .f32⟩
  | .hbm, ⟨10, _⟩ => ⟨S32x511, .i32⟩
  | .hbm, ⟨11, _⟩ => ⟨S_, .i32⟩
  | .hbm, ⟨12, _⟩ => ⟨S32x511, .i32⟩
  | .hbm, ⟨13, _⟩ => ⟨S32x511, .i1⟩
  | .hbm, ⟨14, _⟩ => ⟨S_, .i32⟩
  | .hbm, ⟨15, _⟩ => ⟨S32x511, .i32⟩
  | .hbm, ⟨16, _⟩ => ⟨S32x511, .i32⟩
  | .hbm, ⟨17, _⟩ => ⟨S32x511, .i32⟩
  | .hbm, ⟨18, _⟩ => ⟨S32x511x1, .i32⟩
  | .hbm, ⟨19, _⟩ => ⟨S32x511, .f32⟩
  | .hbm, ⟨20, _⟩ => ⟨S_, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S32x1, .f32⟩
  | .hbm, ⟨26, _⟩ => ⟨S1x22, .f32⟩
  | .hbm, ⟨27, _⟩ => ⟨S32x22, .f32⟩
  | .hbm, ⟨28, _⟩ => ⟨S32x22, .f32⟩
  | .hbm, ⟨29, _⟩ => ⟨S32x22, .f32⟩
  | .hbm, ⟨30, _⟩ => ⟨S32x1, .f32⟩
  | .hbm, ⟨31, _⟩ => ⟨S1x22, .f32⟩
  | .hbm, ⟨32, _⟩ => ⟨S32x22, .f32⟩
  | .hbm, ⟨33, _⟩ => ⟨S32x22, .f32⟩
  | .hbm, ⟨34, _⟩ => ⟨S32x22, .f32⟩
  | .hbm, ⟨35, _⟩ => ⟨S32x22, .f32⟩
  | .hbm, ⟨36, _⟩ => ⟨S_, .i32⟩
  | .hbm, ⟨37, _⟩ => ⟨S_, .f32⟩
  | .hbm, ⟨38, _⟩ => ⟨S32x128, .f32⟩
  | .hbm, ⟨39, _⟩ => ⟨S16x2x512, .i32⟩
  | .hbm, ⟨40, _⟩ => ⟨S16x2x512, .f32⟩
  | .hbm, ⟨41, _⟩ => ⟨S16x2x128, .f32⟩
  | .hbm, ⟨42, _⟩ => ⟨S22x512, .bf16⟩
  | .hbm, ⟨43, _⟩ => ⟨S512x2048, .bf16⟩
  | .hbm, ⟨44, _⟩ => ⟨S_, .i32⟩
  | .hbm, ⟨45, _⟩ => ⟨S_, .f32⟩
  | .hbm, ⟨46, _⟩ => ⟨S2048x128, .f32⟩
  | .hbm, ⟨47, _⟩ => ⟨S2048x128, .bf16⟩
  | .hbm, ⟨48, _⟩ => ⟨S_, .i32⟩
  | .hbm, ⟨49, _⟩ => ⟨S_, .f32⟩
  | .hbm, ⟨50, _⟩ => ⟨S128, .f32⟩
  | .hbm, ⟨51, _⟩ => ⟨S16x1024x128, .f32⟩
  | .hbm, ⟨52, _⟩ => ⟨S32x512x128, .f32⟩
  | .hbm, ⟨53, _⟩ => ⟨S32x512x22, .f32⟩
  | .local _ .vmem, ⟨0, _⟩ => ⟨S1x2x512, .i32⟩
  | .local _ .vmem, ⟨1, _⟩ => ⟨S1x2x512, .i32⟩
  | .local _ .vmem, ⟨2, _⟩ => ⟨S1x2x512, .f32⟩
  | .local _ .vmem, ⟨3, _⟩ => ⟨S1x2x512, .f32⟩
  | .local _ .vmem, ⟨4, _⟩ => ⟨S1x2x128, .f32⟩
  | .local _ .vmem, ⟨5, _⟩ => ⟨S1x2x128, .f32⟩
  | .local _ .vmem, ⟨6, _⟩ => ⟨S22x512, .bf16⟩
  | .local _ .vmem, ⟨7, _⟩ => ⟨S512x2048, .bf16⟩
  | .local _ .vmem, ⟨8, _⟩ => ⟨S2048, .f32⟩
  | .local _ .vmem, ⟨9, _⟩ => ⟨S2048x128, .bf16⟩
  | .local _ .vmem, ⟨10, _⟩ => ⟨S128, .f32⟩
  | .local _ .vmem, ⟨11, _⟩ => ⟨S1x1024x128, .f32⟩
  | .local _ .vmem, ⟨12, _⟩ => ⟨S1x1024x128, .f32⟩
  | _, _ => ⟨S32x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_call0_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_call1_v0 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_call2_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def k0_mult1 : BitVec 32 :=
  let c0_i32_13 : BitVec 32 := 0#32
  let c512_i32 : BitVec 32 := 512#32
  let v42 : BitVec 32 := Scalar.muli c0_i32_13 c512_i32
  v42
def k0_off1 (c0_i32_13 : BitVec 32) : Fin 2 → Nat :=
  let c0_14 : Index := 0#32
  let c512_i32 : BitVec 32 := 512#32
  let v42 : BitVec 32 := Scalar.muli c0_i32_13 c512_i32
  let v43 : BitVec 32 := v42
  let v44 : Index := Scalar.indexCast v43
  ![0, v44.toNat]
def k0_off2 (c0_i32_13 : BitVec 32) : Fin 1 → Nat :=
  let c512_i32 : BitVec 32 := 512#32
  let v42 : BitVec 32 := Scalar.muli c0_i32_13 c512_i32
  let v43 : BitVec 32 := v42
  let v47 : Index := Scalar.indexCast v43
  ![v47.toNat]
def k0_off3 (c0_i32_13 : BitVec 32) : Fin 2 → Nat :=
  let c512_i32 : BitVec 32 := 512#32
  let v42 : BitVec 32 := Scalar.muli c0_i32_13 c512_i32
  let v43 : BitVec 32 := v42
  let v55 : Index := Scalar.indexCast v43
  let c0_17 : Index := 0#32
  ![v55.toNat, 0]
def k0_mult2 : BitVec 32 :=
  let c1_i32 : BitVec 32 := 1#32
  let c512_i32_19 : BitVec 32 := 512#32
  let v61 : BitVec 32 := Scalar.muli c1_i32 c512_i32_19
  v61
def k0_mult3 : BitVec 32 :=
  let c2_i32 : BitVec 32 := 2#32
  let c512_i32_25 : BitVec 32 := 512#32
  let v80 : BitVec 32 := Scalar.muli c2_i32 c512_i32_25
  v80
def k0_mult4 : BitVec 32 :=
  let c3_i32 : BitVec 32 := 3#32
  let c512_i32_31 : BitVec 32 := 512#32
  let v99 : BitVec 32 := Scalar.muli c3_i32 c512_i32_31
  v99
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S22x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S32x512_S32x511_0_0 : S32x512.Slices ![0, 0] S32x511
  bcast_S_S32x511 : S_.BroadcastsInDim S32x511 (![] : Fin 0 → Fin S32x511.rank)
  bcast_S32x511_S32x511x1_0_1 : S32x511.BroadcastsInDim S32x511x1 (![0, 1] : Fin 2 → Fin S32x511x1.rank)
  reducesTo_S32x511_S32_d1 : S32x511.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S22_S1x22_1 : S22.BroadcastsInDim S1x22 (![1] : Fin 1 → Fin S1x22.rank)
  bcast_S32x1_S32x22_0_1 : S32x1.BroadcastsInDim S32x22 (![0, 1] : Fin 2 → Fin S32x22.rank)
  bcast_S1x22_S32x22_0_1 : S1x22.BroadcastsInDim S32x22 (![0, 1] : Fin 2 → Fin S32x22.rank)
  pads_S32x22_S32x128_000_01060 : S32x22.Pads (![0, 0] : Fin 2 → Nat) ![0, 106] ![0, 0] S32x128
  shapeCasts_S32x512_S16x2x512 : S32x512.ShapeCasts S16x2x512
  shapeCasts_S32x128_S16x2x128 : S32x128.ShapeCasts S16x2x128
  bitsLt_bf16_f32 : FTy.bits .bf16 < FTy.bits .f32
  pads_S2048x22_S2048x128_000_01060 : S2048x22.Pads (![0, 0] : Fin 2 → Nat) ![0, 106] ![0, 0] S2048x128
  pads_S22_S128_01060 : S22.Pads (![0] : Fin 1 → Nat) ![106] ![0] S128
  inb_S1x2x512_S1x2x512_0_0_0 : ∀ a, (![0, 0, 0] : Fin 3 → Nat) a + S1x2x512.size a ≤ S1x2x512.size a
  h_S1x2x512 : 0 < S1x2x512.numel
  shapeCasts_S1x2x512_S2x512 : S1x2x512.ShapeCasts S2x512
  iota_S512x22_d1_w32 : S512x22.Iotas .tc 32 [1]
  slices_S2x512_o0_0_S1x512 : S2x512.Slices ![0, 0] S1x512
  shapeCasts_S1x512_S512 : S1x512.ShapeCasts S512
  shapeCasts_S512_S512x1 : S512.ShapeCasts S512x1
  broadcasts_S512x1_S512x22 : S512x1.Broadcasts S512x22
  natLt_1_32 : 1 < 32
  inb_S22x512_S22x512_0_0 : ∀ a, (![0, 0] : Fin 2 → Nat) a + S22x512.size a ≤ S22x512.size a
  h_S22x512 : 0 < S22x512.numel
  shapeCasts_S22x512_S22x512 : S22x512.ShapeCasts S22x512
  inb_S1x2x512_S1x1x512_0_0_0 : ∀ a, (![0, 0, 0] : Fin 3 → Nat) a + S1x1x512.size a ≤ S1x2x512.size a
  h_S1x1x512 : 0 < S1x1x512.numel
  shapeCasts_S1x1x512_S512 : S1x1x512.ShapeCasts S512
  shapeCasts_S512_S1x512 : S512.ShapeCasts S1x512
  broadcasts_S1x512_S512x512 : S1x512.Broadcasts S512x512
  slices_S2x512_o1_0_S1x512 : S2x512.Slices ![1, 0] S1x512
  inb_S1x2x512_S1x1x512_0_1_0 : ∀ a, (![0, 1, 0] : Fin 3 → Nat) a + S1x1x512.size a ≤ S1x2x512.size a
  concatenates_S512x512_S512x512_S1024x512_d0 : Shape.Concatenates [S512x512, S512x512] S1024x512 0
  h_S512x512 : 0 < S512x512.numel
  shapeCasts_S512x512_S512x512 : S512x512.ShapeCasts S512x512
  h_S512 : 0 < S512.numel
  broadcasts_S1x512_S1024x512 : S1x512.Broadcasts S1024x512
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S1024x128 : S1x128.Broadcasts S1024x128
  inb_S1x2x128_S1x1x128_0_0_0 : ∀ a, (![0, 0, 0] : Fin 3 → Nat) a + S1x1x128.size a ≤ S1x2x128.size a
  h_S1x1x128 : 0 < S1x1x128.numel
  shapeCasts_S1x1x128_S128 : S1x1x128.ShapeCasts S128
  slices_S1024x128_o0_0_S512x128 : S1024x128.Slices ![0, 0] S512x128
  broadcasts_S1x128_S512x128 : S1x128.Broadcasts S512x128
  inb_S1x1024x128_S1x512x128_0_0_0 : ∀ a, (![0, 0, 0] : Fin 3 → Nat) a + S1x512x128.size a ≤ S1x1024x128.size a
  h_S1x512x128 : 0 < S1x512x128.numel
  shapeCasts_S1x512x128_S512x128 : S1x512x128.ShapeCasts S512x128
  shapeCasts_S512x128_S1x512x128 : S512x128.ShapeCasts S1x512x128
  inb_S1x2x128_S1x1x128_0_1_0 : ∀ a, (![0, 1, 0] : Fin 3 → Nat) a + S1x1x128.size a ≤ S1x2x128.size a
  slices_S1024x128_o512_0_S512x128 : S1024x128.Slices ![512, 0] S512x128
  inb_S1x1024x128_S1x512x128_0_512_0 : ∀ a, (![0, 512, 0] : Fin 3 → Nat) a + S1x512x128.size a ≤ S1x1024x128.size a
  shapeCasts_S16x1024x128_S32x512x128 : S16x1024x128.ShapeCasts S32x512x128
  slices_S32x512x128_S32x512x22_0_0_0 : S32x512x128.Slices ![0, 0, 0] S32x512x22
  gather_S22_S32x511x1_S32x511_n_0_n_n_0_2_1_wf : GatherDims.WF S22 S32x511x1 S32x511 [] [0] [] [0] [] 2 ![1]
  dot_S512x22_S22x512_S512x512_1_0_0_1_n_n_wf : DotDims.WF S512x22 S22x512 S512x512 [1] [0] [0] [1] [] []
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  hrank0 : 0 < grid0.rank
  k0_mult1_dvd : 512 ∣ k0_mult1.toNat
  k0_off1_inb : ∀ (r : Fin 4), ∀ a, (k0_off1 (BitVec.ofNat 32 r.val)) a + S512x512.size a ≤ S512x2048.size a
  k0_off2_inb : ∀ (r : Fin 4), ∀ a, (k0_off2 (BitVec.ofNat 32 r.val)) a + S512.size a ≤ S2048.size a
  k0_off3_inb : ∀ (r : Fin 4), ∀ a, (k0_off3 (BitVec.ofNat 32 r.val)) a + S512x128.size a ≤ S2048x128.size a
  k0_mult2_dvd : 512 ∣ k0_mult2.toNat
  k0_mult3_dvd : 512 ∣ k0_mult3.toNat
  k0_mult4_dvd : 512 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x512.size a ≤ S16x2x512.size a
  hwx0_0 : ∀ i : grid0.Coords, EltTy.bits .i32 = 32 ∨ (Rect.block (s := S16x2x512) S1x2x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x512.size a ≤ S16x2x512.size a
  hwx0_1 : ∀ i : grid0.Coords, EltTy.bits .f32 = 32 ∨ (Rect.block (s := S16x2x512) S1x2x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x128.size a ≤ S16x2x128.size a
  hwx0_2 : ∀ i : grid0.Coords, EltTy.bits .f32 = 32 ∨ (Rect.block (s := S16x2x128) S1x2x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S22x512.size a ≤ S22x512.size a
  hwx0_3 : ∀ i : grid0.Coords, EltTy.bits .bf16 = 32 ∨ (Rect.block (s := S22x512) S22x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S2048.size a
  hwx0_5 : ∀ i : grid0.Coords, EltTy.bits .f32 = 32 ∨ (Rect.block (s := S2048) S2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S2048x128.size a
  hwx0_6 : ∀ i : grid0.Coords, EltTy.bits .bf16 = 32 ∨ (Rect.block (s := S2048x128) S2048x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x128.size a ≤ S16x1024x128.size a
  hwx0_8 : ∀ i : grid0.Coords, EltTy.bits .f32 = 32 ∨ (Rect.block (s := S16x1024x128) S1x1024x128.size (cc0_transform_8 i) (hinb0_8 i)).WholeWords (EltTy.packing .f32)

variable [Facts₀]

def gather_S22_S32x511x1_S32x511_n_0_n_n_0_2_1 : GatherDims S22 S32x511x1 S32x511 where
  offsetDims := []
  collapsedSliceDims := [0]
  operandBatchingDims := []
  startIndicesBatchingDims := []
  startIndexMap := [0]
  indexVectorDim := 2
  sliceSizes := ![1]
  wf := gather_S22_S32x511x1_S32x511_n_0_n_n_0_2_1_wf
def dot_S512x22_S22x512_S512x512_1_0_0_1_n_n : DotDims S512x22 S22x512 S512x512 where
  lhsContracting := [1]
  rhsContracting := [0]
  lhsNonContracting := [0]
  rhsNonContracting := [1]
  lhsBatch := []
  rhsBatch := []
  wf := dot_S512x22_S22x512_S512x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v23) S1x2x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1x2x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x2x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S22x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S2048x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S1x1024x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x512 : Shape := ⟨2, ![32, 512]⟩
abbrev S22x512 : Shape := ⟨2, ![22, 512]⟩
abbrev S512x2048 : Shape := ⟨2, ![512, 2048]⟩
abbrev S2048 : Shape := ⟨1, ![2048]⟩
abbrev S2048x22 : Shape := ⟨2, ![2048, 22]⟩
abbrev S22 : Shape := ⟨1, ![22]⟩
abbrev S_ : Shape := ⟨0, ![]⟩
abbrev S32x512x1 : Shape := ⟨3, ![32, 512, 1]⟩
abbrev S32x512x512 : Shape := ⟨3, ![32, 512, 512]⟩
abbrev S32x1x512 : Shape := ⟨3, ![32, 1, 512]⟩
abbrev S32x512x2048 : Shape := ⟨3, ![32, 512, 2048]⟩
abbrev S1x1x2048 : Shape := ⟨3, ![1, 1, 2048]⟩
abbrev S32x512x22 : Shape := ⟨3, ![32, 512, 22]⟩
abbrev S1x1x22 : Shape := ⟨3, ![1, 1, 22]⟩
abbrev S32x511 : Shape := ⟨2, ![32, 511]⟩
abbrev S32x511x1 : Shape := ⟨3, ![32, 511, 1]⟩
abbrev S32 : Shape := ⟨1, ![32]⟩
abbrev S32x1 : Shape := ⟨2, ![32, 1]⟩
abbrev S1x22 : Shape := ⟨2, ![1, 22]⟩
abbrev S32x22 : Shape := ⟨2, ![32, 22]⟩
abbrev S32x1x22 : Shape := ⟨3, ![32, 1, 22]⟩

abbrev nBuf : Space → Nat
  | .hbm => 65
  | .vmem => 0
  | .smem => 0
  | _ => 0

abbrev bufTy : (tb : Table) → Fin (tcTables nBuf tb) → BufTy
  | .hbm, ⟨0, _⟩ => ⟨S32x512, .i32⟩
  | .hbm, ⟨1, _⟩ => ⟨S32x512, .f32⟩
  | .hbm, ⟨2, _⟩ => ⟨S22x512, .f32⟩
  | .hbm, ⟨3, _⟩ => ⟨S512x2048, .f32⟩
  | .hbm, ⟨4, _⟩ => ⟨S2048, .f32⟩
  | .hbm, ⟨5, _⟩ => ⟨S2048x22, .f32⟩
  | .hbm, ⟨6, _⟩ => ⟨S22, .f32⟩
  | .hbm, ⟨7, _⟩ => ⟨S22, .f32⟩
  | .hbm, ⟨8, _⟩ => ⟨S22, .f32⟩
  | .hbm, ⟨9, _⟩ => ⟨S22, .f32⟩
  | .hbm, ⟨10, _⟩ => ⟨S_, .i32⟩
  | .hbm, ⟨11, _⟩ => ⟨S32x512, .i32⟩
  | .hbm, ⟨12, _⟩ => ⟨S32x512, .i1⟩
  | .hbm, ⟨13, _⟩ => ⟨S_, .i32⟩
  | .hbm, ⟨14, _⟩ => ⟨S32x512, .i32⟩
  | .hbm, ⟨15, _⟩ => ⟨S32x512, .i32⟩
  | .hbm, ⟨16, _⟩ => ⟨S32x512, .i32⟩
  | .hbm, ⟨17, _⟩ => ⟨S32x512x1, .i32⟩
  | .hbm, ⟨18, _⟩ => ⟨S32x512x512, .f32⟩
  | .hbm, ⟨19, _⟩ => ⟨S32x1x512, .f32⟩
  | .hbm, ⟨20, _⟩ => ⟨S32x512x512, .f32⟩
  | .hbm, ⟨21, _⟩ => ⟨S32x512x512, .f32⟩
  | .hbm, ⟨22, _⟩ => ⟨S32x512x2048, .f32⟩
  | .hbm, ⟨23, _⟩ => ⟨S1x1x2048, .f32⟩
  | .hbm, ⟨24, _⟩ => ⟨S32x512x2048, .f32⟩
  | .hbm, ⟨25, _⟩ => ⟨S32x512x2048, .f32⟩
  | .hbm, ⟨26, _⟩ => ⟨S_, .f32⟩
  | .hbm, ⟨27, _⟩ => ⟨S32x512x2048, .f32⟩
  | .hbm, ⟨28, _⟩ => ⟨S32x512x2048, .f32⟩
  | .hbm, ⟨29, _⟩ => ⟨S32x512x22, .f32⟩
  | .hbm, ⟨30, _⟩ => ⟨S1x1x22, .f32⟩
  | .hbm, ⟨31, _⟩ => ⟨S32x512x22, .f32⟩
  | .hbm, ⟨32, _⟩ => ⟨S32x512x22, .f32⟩
  | .hbm, ⟨33, _⟩ => ⟨S32x511, .i32⟩
  | .hbm, ⟨34, _⟩ => ⟨S_, .i32⟩
  | .hbm, ⟨35, _⟩ => ⟨S32x511, .i32⟩
  | .hbm, ⟨36, _⟩ => ⟨S32x511, .i1⟩
  | .hbm, ⟨37, _⟩ => ⟨S_, .i32⟩
  | .hbm, ⟨38, _⟩ => ⟨S32x511, .i32⟩
  | .hbm, ⟨39, _⟩ => ⟨S32x511, .i32⟩
  | .hbm, ⟨40, _⟩ => ⟨S32x511, .i32⟩
  | .hbm, ⟨41, _⟩ => ⟨S32x511x1, .i32⟩
  | .hbm, ⟨42, _⟩ => ⟨S32x511, .f32⟩
  | .hbm, ⟨43, _⟩ => ⟨S_, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S32x1, .f32⟩
  | .hbm, ⟨49, _⟩ => ⟨S1x22, .f32⟩
  | .hbm, ⟨50, _⟩ => ⟨S32x22, .f32⟩
  | .hbm, ⟨51, _⟩ => ⟨S32x22, .f32⟩
  | .hbm, ⟨52, _⟩ => ⟨S32x22, .f32⟩
  | .hbm, ⟨53, _⟩ => ⟨S32x1, .f32⟩
  | .hbm, ⟨54, _⟩ => ⟨S1x22, .f32⟩
  | .hbm, ⟨55, _⟩ => ⟨S32x22, .f32⟩
  | .hbm, ⟨56, _⟩ => ⟨S32x22, .f32⟩
  | .hbm, ⟨57, _⟩ => ⟨S32x22, .f32⟩
  | .hbm, ⟨58, _⟩ => ⟨S32x22, .f32⟩
  | .hbm, ⟨59, _⟩ => ⟨S32x1x22, .f32⟩
  | .hbm, ⟨60, _⟩ => ⟨S_, .f32⟩
  | .hbm, ⟨61, _⟩ => ⟨S32x1x22, .f32⟩
  | .hbm, ⟨62, _⟩ => ⟨S32x1x22, .f32⟩
  | .hbm, ⟨63, _⟩ => ⟨S32x512x22, .f32⟩
  | .hbm, ⟨64, _⟩ => ⟨S32x512x22, .f32⟩
  | _, _ => ⟨S32x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_2 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512_S32x1x512_0_2 : S32x512.BroadcastsInDim S32x1x512 (![0, 2] : Fin 2 → Fin S32x1x512.rank)
  bcast_S32x1x512_S32x512x512_0_1_2 : S32x1x512.BroadcastsInDim S32x512x512 (![0, 1, 2] : Fin 3 → Fin S32x512x512.rank)
  bcast_S2048_S1x1x2048_2 : S2048.BroadcastsInDim S1x1x2048 (![2] : Fin 1 → Fin S1x1x2048.rank)
  bcast_S1x1x2048_S32x512x2048_0_1_2 : S1x1x2048.BroadcastsInDim S32x512x2048 (![0, 1, 2] : Fin 3 → Fin S32x512x2048.rank)
  bcast_S_S32x512x2048 : S_.BroadcastsInDim S32x512x2048 (![] : Fin 0 → Fin S32x512x2048.rank)
  bcast_S22_S1x1x22_2 : S22.BroadcastsInDim S1x1x22 (![2] : Fin 1 → Fin S1x1x22.rank)
  bcast_S1x1x22_S32x512x22_0_1_2 : S1x1x22.BroadcastsInDim S32x512x22 (![0, 1, 2] : Fin 3 → Fin S32x512x22.rank)
  slices_S32x512_S32x511_0_0 : S32x512.Slices ![0, 0] S32x511
  bcast_S_S32x511 : S_.BroadcastsInDim S32x511 (![] : Fin 0 → Fin S32x511.rank)
  bcast_S32x511_S32x511x1_0_1 : S32x511.BroadcastsInDim S32x511x1 (![0, 1] : Fin 2 → Fin S32x511x1.rank)
  reducesTo_S32x511_S32_d1 : S32x511.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S22_S1x22_1 : S22.BroadcastsInDim S1x22 (![1] : Fin 1 → Fin S1x22.rank)
  bcast_S32x1_S32x22_0_1 : S32x1.BroadcastsInDim S32x22 (![0, 1] : Fin 2 → Fin S32x22.rank)
  bcast_S1x22_S32x22_0_1 : S1x22.BroadcastsInDim S32x22 (![0, 1] : Fin 2 → Fin S32x22.rank)
  bcast_S32x22_S32x1x22_0_2 : S32x22.BroadcastsInDim S32x1x22 (![0, 2] : Fin 2 → Fin S32x1x22.rank)
  bcast_S_S32x1x22 : S_.BroadcastsInDim S32x1x22 (![] : Fin 0 → Fin S32x1x22.rank)
  bcast_S32x1x22_S32x512x22_0_1_2 : S32x1x22.BroadcastsInDim S32x512x22 (![0, 1, 2] : Fin 3 → Fin S32x512x22.rank)
  gather_S22x512_S32x512x1_S32x512x512_2_0_n_n_0_2_1512_wf : GatherDims.WF S22x512 S32x512x1 S32x512x512 [2] [0] [] [0] [] 2 ![1, 512]
  dot_S32x512x512_S512x2048_S32x512x2048_2_0_01_1_n_n_wf : DotDims.WF S32x512x512 S512x2048 S32x512x2048 [2] [0] [0, 1] [1] [] []
  dot_S32x512x2048_S2048x22_S32x512x22_2_0_01_1_n_n_wf : DotDims.WF S32x512x2048 S2048x22 S32x512x22 [2] [0] [0, 1] [1] [] []
  gather_S22_S32x511x1_S32x511_n_0_n_n_0_2_1_wf : GatherDims.WF S22 S32x511x1 S32x511 [] [0] [] [0] [] 2 ![1]

variable [Facts₀]

def gather_S22x512_S32x512x1_S32x512x512_2_0_n_n_0_2_1512 : GatherDims S22x512 S32x512x1 S32x512x512 where
  offsetDims := [2]
  collapsedSliceDims := [0]
  operandBatchingDims := []
  startIndicesBatchingDims := []
  startIndexMap := [0]
  indexVectorDim := 2
  sliceSizes := ![1, 512]
  wf := gather_S22x512_S32x512x1_S32x512x512_2_0_n_n_0_2_1512_wf
def dot_S32x512x512_S512x2048_S32x512x2048_2_0_01_1_n_n : DotDims S32x512x512 S512x2048 S32x512x2048 where
  lhsContracting := [2]
  rhsContracting := [0]
  lhsNonContracting := [0, 1]
  rhsNonContracting := [1]
  lhsBatch := []
  rhsBatch := []
  wf := dot_S32x512x512_S512x2048_S32x512x2048_2_0_01_1_n_n_wf
def dot_S32x512x2048_S2048x22_S32x512x22_2_0_01_1_n_n : DotDims S32x512x2048 S2048x22 S32x512x22 where
  lhsContracting := [2]
  rhsContracting := [0]
  lhsNonContracting := [0, 1]
  rhsNonContracting := [1]
  lhsBatch := []
  rhsBatch := []
  wf := dot_S32x512x2048_S2048x22_S32x512x22_2_0_01_1_n_n_wf
def gather_S22_S32x511x1_S32x511_n_0_n_n_0_2_1 : GatherDims S22 S32x511x1 S32x511 where
  offsetDims := []
  collapsedSliceDims := [0]
  operandBatchingDims := []
  startIndicesBatchingDims := []
  startIndexMap := [0]
  indexVectorDim := 2
  sliceSizes := ![1]
  wf := gather_S22_S32x511x1_S32x511_n_0_n_n_0_2_1_wf

class Facts : Prop extends Facts₀ where

variable [Facts]
-- ==== Proof.Decoder.lean ====
/-
  The decoder both programs compute, as plain functions of coordinates over the extended reals.

  A token id selects a row of the embedding table; the latent vector of the sequence is added to it
  (`feat`); one hidden unit is the positive part of an affine form of those 512 features (`hidden`);
  one logit is an affine form of the 2048 hidden units (`logit`); and the result subtracts half of the
  sequence's grammar mask (`out`).  The functions are generic in the number of sequences `B`, of
  positions `S` and of logits `V`, so that the same text describes one grid point's block
  (2 sequences, 128 padded logits) and the whole arrays (32 sequences, 22 logits).

  The two programs differ only in how they add the 2048 products of the second layer up: the kernel in
  four runs of 512 starting from zero, the reference in one sum.  Addition of extended reals is
  commutative and associative, so the two agree without any finiteness assumption (`logit_chunks`).
-/
import Idealize.ShloMosaic.PureOps.Ideal.Laws
import Idealize.ShloMosaic.Lib.ValueIdx

noncomputable section

open scoped BigOperators

namespace Cert.Decoder

open Idealize.ShloMosaic Idealize.ShloMosaic.ValueIdx

/-- The f32 word `+0.0` both programs compare a hidden unit with, read as an extended real. -/
abbrev zero : EReal := Ideal.ofBits .f32 0x00000000#32
/-- The f32 word `0.5`, the constraint strength, read as an extended real. -/
abbrev half : EReal := Ideal.ofBits .f32 0x3F000000#32

/-- The embedding row a token id selects: the id read as a signed integer and clamped into `[0, 21]`. -/
def row (t : BitVec 32) : Fin 22 := ⟨min t.toInt.toNat 21, by omega⟩

/-- jnp's reading of an index into a table of 22 rows: an id below zero counts from the end of the table. -/
def wrap (t : BitVec 32) : BitVec 32 := Scalar.select (IntOp.cmpi .slt t 0#32) (IntOp.addi t 22#32) t

section Generic

variable {B S V : Nat}
variable (sel : Fin B → Fin S → Fin 22) (z : Fin B → Fin 512 → EReal) (emb : Fin 22 → Fin 512 → EReal)
  (W1 : Fin 512 → Fin 2048 → EReal) (b1 : Fin 2048 → EReal) (W2 : Fin 2048 → Fin V → EReal) (b2 : Fin V → EReal)
  (mask : Fin B → Fin V → EReal)

/-- Feature `d` at position `s` of sequence `b`: the selected embedding row plus the sequence's latent vector. -/
def feat (b : Fin B) (s : Fin S) (d : Fin 512) : EReal := emb (sel b s) d + z b d

/-- Hidden unit `f`: the positive part of the first layer's affine form. -/
def hidden (b : Fin B) (s : Fin S) (f : Fin 2048) : EReal :=
  max ((∑ d : Fin 512, feat sel z emb b s d * W1 d f) + b1 f) zero

/-- Logit `v`: the second layer's affine form of the hidden units. -/
def logit (b : Fin B) (s : Fin S) (v : Fin V) : EReal :=
  (∑ f : Fin 2048, hidden sel z emb W1 b1 b s f * W2 f v) + b2 v

/-- The result: the logit less half the sequence's mask entry. -/
def out (b : Fin B) (s : Fin S) (v : Fin V) : EReal :=
  logit sel z emb W1 b1 W2 b2 b s v - half * mask b v

end Generic

/-- `out` depends on its arguments only through the entries it reads: the selected row, the sequence's
    latent vector, column `v` of the second layer, entry `v` of its bias and one mask entry. -/
theorem out_congr {B S V B' S' V' : Nat}
    {sel : Fin B → Fin S → Fin 22} {z : Fin B → Fin 512 → EReal} {emb : Fin 22 → Fin 512 → EReal}
    {W1 : Fin 512 → Fin 2048 → EReal} {b1 : Fin 2048 → EReal} {W2 : Fin 2048 → Fin V → EReal} {b2 : Fin V → EReal}
    {mask : Fin B → Fin V → EReal}
    {sel' : Fin B' → Fin S' → Fin 22} {z' : Fin B' → Fin 512 → EReal} {emb' : Fin 22 → Fin 512 → EReal}
    {W1' : Fin 512 → Fin 2048 → EReal} {b1' : Fin 2048 → EReal} {W2' : Fin 2048 → Fin V' → EReal} {b2' : Fin V' → EReal}
    {mask' : Fin B' → Fin V' → EReal}
    {b : Fin B} {s : Fin S} {v : Fin V} {b' : Fin B'} {s' : Fin S'} {v' : Fin V'}
    (hsel : sel b s = sel' b' s') (hz : ∀ d, z b d = z' b' d) (hemb : ∀ q d, emb q d = emb' q d)
    (hW1 : ∀ d f, W1 d f = W1' d f) (hb1 : ∀ f, b1 f = b1' f) (hW2 : ∀ f, W2 f v = W2' f v') (hb2 : b2 v = b2' v')
    (hm : mask b v = mask' b' v') :
    out sel z emb W1 b1 W2 b2 mask b s v = out sel' z' emb' W1' b1' W2' b2' mask' b' s' v' := by
  simp only [out, logit, hidden, feat, hsel, hz, hemb, hW1, hb1, hW2, hb2, hm]

/-- The result array [32, 512, 22] as one function of the argument arrays, index by index: `sel` is the embedding
    row each position selects, `mask` the grammar mask [32, 22]. -/
def result (sel : (⟨2, ![32, 512]⟩ : Shape).Idx → Fin 22) (z : (⟨2, ![32, 512]⟩ : Shape).Idx → EReal)
    (emb : (⟨2, ![22, 512]⟩ : Shape).Idx → EReal) (W1 : (⟨2, ![512, 2048]⟩ : Shape).Idx → EReal)
    (b1 : (⟨1, ![2048]⟩ : Shape).Idx → EReal) (W2 : (⟨2, ![2048, 22]⟩ : Shape).Idx → EReal)
    (b2 : (⟨1, ![22]⟩ : Shape).Idx → EReal) (mask : (⟨2, ![32, 22]⟩ : Shape).Idx → EReal) :
    (⟨3, ![32, 512, 22]⟩ : Shape).Idx → EReal :=
  fun j => out (fun b s => sel (ix2 b s)) (fun b d => z (ix2 b d)) (fun q d => emb (ix2 q d)) (fun d f => W1 (ix2 d f))
    (fun f => b1 (ix1 f)) (fun f v => W2 (ix2 f v)) (fun v => b2 (ix1 v)) (fun b v => mask (ix2 b v)) (j 0) (j 1) (j 2)

/-- One grid point's output block [1, 1024, 128] as one function of the point's input blocks: rows `512 g + s` are
    sequence `g` of the point's two, position `s`; the 128 columns are the 22 logits and the padding. -/
def block (tok : (⟨3, ![1, 2, 512]⟩ : Shape).Idx → BitVec 32) (z : (⟨3, ![1, 2, 512]⟩ : Shape).Idx → EReal)
    (mask : (⟨3, ![1, 2, 128]⟩ : Shape).Idx → EReal) (emb : (⟨2, ![22, 512]⟩ : Shape).Idx → EReal)
    (W1 : (⟨2, ![512, 2048]⟩ : Shape).Idx → EReal) (b1 : (⟨1, ![2048]⟩ : Shape).Idx → EReal)
    (W2 : (⟨2, ![2048, 128]⟩ : Shape).Idx → EReal) (b2 : (⟨1, ![128]⟩ : Shape).Idx → EReal) :
    (⟨3, ![1, 1024, 128]⟩ : Shape).Idx → EReal :=
  fun j => out (fun (g : Fin 2) (s : Fin 512) => row (tok (ix3 (0 : Fin 1) g s))) (fun g d => z (ix3 (0 : Fin 1) g d))
    (fun q d => emb (ix2 q d)) (fun d f => W1 (ix2 d f)) (fun f => b1 (ix1 f)) (fun f v => W2 (ix2 f v))
    (fun v => b2 (ix1 v)) (fun g v => mask (ix3 (0 : Fin 1) g v))
    (⟨(j 1).val / 512, by have := (j 1).isLt; change (j 1).val < 1024 at this; omega⟩ : Fin 2)
    (⟨(j 1).val % 512, Nat.mod_lt _ (by decide)⟩ : Fin 512) (j 2)

/-- Hidden unit `512 c + k`: unit `k` of the `c`-th run of 512. -/
def chunk (c : Fin 4) (k : Fin 512) : Fin 2048 := ⟨512 * c.val + k.val, by omega⟩

/-- A sum over the 2048 hidden units is the sum of its four runs of 512, added up in order from zero. -/
theorem sum_chunks (g : Fin 2048 → EReal) :
    ((((0 + ∑ k : Fin 512, g (chunk 0 k)) + ∑ k : Fin 512, g (chunk 1 k)) + ∑ k : Fin 512, g (chunk 2 k))
      + ∑ k : Fin 512, g (chunk 3 k)) = ∑ f : Fin 2048, g f := by
  rw [← Equiv.sum_comp (finProdFinEquiv : (Fin 4 × Fin 512) ≃ Fin 2048) g, Fintype.sum_prod_type, Fin.sum_univ_four, zero_add]
  have h : ∀ (c : Fin 4) (k : Fin 512), (finProdFinEquiv : (Fin 4 × Fin 512) ≃ Fin 2048) (c, k) = chunk c k :=
    fun c k => Fin.ext (by rw [finProdFinEquiv_apply_val]; show k.val + 512 * c.val = 512 * c.val + k.val; omega)
  simp only [h]

/-- The kernel's order of adding a logit up: four runs of 512 products from zero, then the bias. -/
theorem logit_chunks {B S V : Nat} (sel : Fin B → Fin S → Fin 22) (z : Fin B → Fin 512 → EReal)
    (emb : Fin 22 → Fin 512 → EReal) (W1 : Fin 512 → Fin 2048 → EReal) (b1 : Fin 2048 → EReal)
    (W2 : Fin 2048 → Fin V → EReal) (b2 : Fin V → EReal) (b : Fin B) (s : Fin S) (v : Fin V) :
    ((((0 + ∑ k : Fin 512, hidden sel z emb W1 b1 b s (chunk 0 k) * W2 (chunk 0 k) v)
        + ∑ k : Fin 512, hidden sel z emb W1 b1 b s (chunk 1 k) * W2 (chunk 1 k) v)
        + ∑ k : Fin 512, hidden sel z emb W1 b1 b s (chunk 2 k) * W2 (chunk 2 k) v)
        + ∑ k : Fin 512, hidden sel z emb W1 b1 b s (chunk 3 k) * W2 (chunk 3 k) v) + b2 v
      = logit sel z emb W1 b1 W2 b2 b s v := by
  unfold logit
  rw [sum_chunks fun f => hidden sel z emb W1 b1 b s f * W2 f v]

/-- A table read through a one-hot row: of the products of the indicator of `r` with the table's entries only
    the one at `r` is left (`0 · x = 0` and `1 · x = x` for every extended real, the infinities included). -/
theorem sum_onehot {n : Nat} (r : Fin n) (e : Fin n → EReal) :
    ∑ q : Fin n, (if r = q then (1 : EReal) else 0) * e q = e r := by
  rw [Finset.sum_eq_single r]
  · rw [if_pos rfl, one_mul]
  · intro q _ hq; rw [if_neg (Ne.symm hq), zero_mul]
  · intro h; exact absurd (Finset.mem_univ r) h

end Cert.Decoder

end
-- ==== Proof.KernelBody.lean ====
/-
  What one grid point of the kernel leaves in its output block, read at the ideal instance: the block
  [1, 1024, 128] is the decoder's `out` of the point's input blocks (`Cert.Decoder.block`).
-/
import proofs.«416070_j3427383902410_3_alg».proof.Proof.Gen.KernelIdeal.Frame
import proofs.«416070_j3427383902410_3_alg».proof.Proof.Decoder
import Idealize.ShloMosaic.Lib.Pipeline.Value
import Idealize.ShloMosaic.Lib.ValueLayout
import Idealize.ShloMosaic.Lib.Tactic
import Idealize.ShloMosaic.Lib.KernelVsHost
import Idealize.ShloMosaic.Lib.StackMember

set_option maxRecDepth 16384

noncomputable section

open Idealize.ShloMosaic Idealize.ShloMosaic.TcCoe Idealize.SL.Sem Idealize.ShloMosaic.ValueIdx
open scoped BigOperators

namespace Cert.KernelIdeal.Body

open Cert.KernelIdeal Cert.KernelIdeal.Gen

/-! ### Words: the clamp of a token id and its one-hot row -/

/-- Clamping a 32-bit token id, read signed, into `[0, 21]` by a signed maximum with 0 and a signed minimum with 21
    gives the word of the embedding row the id selects, for every word (a negative id clamps to 0). -/
theorem clamp_eq (t : BitVec 32) :
    IntOp.minsi 21#32 (IntOp.maxsi 0#32 t) = BitVec.ofNat 32 (Cert.Decoder.row t).val := by
  have e0 : (0#32 : BitVec 32).toInt = 0 := by decide
  have e21 : (21#32 : BitVec 32).toInt = 21 := by decide
  have hlt := t.isLt
  have h : t.toInt = (t.toNat : Int) ∨ (t.toInt = (t.toNat : Int) - 4294967296 ∧ 2147483648 ≤ t.toNat) := by
    rw [BitVec.toInt_eq_toNat_cond]; split <;> omega
  unfold Cert.Decoder.row
  by_cases h0 : t.toInt < 0
  · have hm : IntOp.maxsi 0#32 t = 0#32 := by
      unfold IntOp.maxsi; rw [if_pos (by simp only [BitVec.slt, e0]; exact decide_eq_true h0)]
    have hn : IntOp.minsi 21#32 0#32 = 0#32 := by decide
    rw [hm, hn]
    apply BitVec.eq_of_toNat_eq
    simp only [BitVec.toNat_ofNat]
    have : t.toInt.toNat = 0 := by omega
    rw [this]; rfl
  · have hm : IntOp.maxsi 0#32 t = t := by
      unfold IntOp.maxsi; rw [if_neg (by simp only [BitVec.slt, e0]; simpa using h0)]
    rw [hm]
    by_cases h1 : 21 < t.toInt
    · have hn : IntOp.minsi 21#32 t = 21#32 := by
        unfold IntOp.minsi; rw [if_pos (by simp only [BitVec.slt, e21]; exact decide_eq_true h1)]
      rw [hn]
      apply BitVec.eq_of_toNat_eq
      simp only [BitVec.toNat_ofNat]
      have : min t.toInt.toNat 21 = 21 := by omega
      rw [this]
    · have hn : IntOp.minsi 21#32 t = t := by
        unfold IntOp.minsi; rw [if_neg (by simp only [BitVec.slt, e21]; simpa using h1)]
      rw [hn]
      apply BitVec.eq_of_toNat_eq
      simp only [BitVec.toNat_ofNat]
      have : min t.toInt.toNat 21 = t.toNat := by omega
      rw [this]; omega

/-- The indicator the kernel multiplies the embedding table by: "the clamped id equals `q`", widened to a word
    and converted to a number, is 1 where the id selects row `q` and 0 elsewhere. -/
theorem onehot_eq (t : BitVec 32) (q : Fin 22) :
    FloatOps.sitofp (F := Ideal) .f32
        ((IntOp.cmpi .eq (IntOp.minsi 21#32 (IntOp.maxsi 0#32 t)) (BitVec.ofNat 32 q.val)).setWidth 32)
      = if Cert.Decoder.row t = q then (1 : EReal) else 0 := by
  rw [clamp_eq]
  have hr := (Cert.Decoder.row t).isLt
  have hq := q.isLt
  by_cases h : Cert.Decoder.row t = q
  · rw [if_pos h, h]
    have : IntOp.cmpi .eq (BitVec.ofNat 32 q.val) (BitVec.ofNat 32 q.val) = 1#1 := by
      unfold IntOp.cmpi; simp
    rw [this]
    show (((BitVec.setWidth 32 1#1).toInt : ℝ) : EReal) = 1
    have : (BitVec.setWidth 32 1#1).toInt = 1 := by decide
    rw [this]; simp
  · rw [if_neg h]
    have hne : (BitVec.ofNat 32 (Cert.Decoder.row t).val == BitVec.ofNat 32 q.val) = false := by
      rw [beq_eq_false_iff_ne]
      intro he
      have := congrArg BitVec.toNat he
      simp only [BitVec.toNat_ofNat] at this
      exact h (Fin.ext (by omega))
    have : IntOp.cmpi .eq (BitVec.ofNat 32 (Cert.Decoder.row t).val) (BitVec.ofNat 32 q.val) = 0#1 := by
      unfold IntOp.cmpi; simp only [hne]; rfl
    rw [this]
    show (((BitVec.setWidth 32 0#1).toInt : ℝ) : EReal) = 0
    have : (BitVec.setWidth 32 0#1).toInt = 0 := by decide
    rw [this]; simp

/-! ### A matrix product into the zero splat, at an index -/

/-- A product of an M×K by a K×N matrix accumulated into the zero splat, read at (a, b): the sum over the
    contracted coordinate of the products of the entries. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  rw [matmul_zero_eq_dotGeneral]
  exact StackMember.dotGeneral_plain_apply prec A B a b

/-- The embedding product's dimension numbers are the plain ones. -/
theorem mm_emb_apply (A : FVec Ideal S512x22 .bf16) (B : FVec Ideal S22x512 .bf16) (a : Fin 512) (b : Fin 512) :
    matmul dot_S512x22_S22x512_S512x512_1_0_0_1_n_n none A B (constant (F := Ideal) S512x512 .f32 0x00000000#32) (ix2 a b)
      = ∑ c : Fin 22, A (ix2 a c) * B (ix2 c b) :=
  matmul_plain_zero_apply none A B a b

/-- So are the first layer's … -/
theorem mm_w1_apply (A : FVec Ideal S1024x512 .bf16) (B : FVec Ideal S512x512 .bf16) (a : Fin 1024) (b : Fin 512) :
    matmul dot_S1024x512_S512x512_S1024x512_1_0_0_1_n_n none A B (constant (F := Ideal) S1024x512 .f32 0x00000000#32) (ix2 a b)
      = ∑ c : Fin 512, A (ix2 a c) * B (ix2 c b) :=
  matmul_plain_zero_apply none A B a b

/-- … and the second layer's. -/
theorem mm_w2_apply (A : FVec Ideal S1024x512 .bf16) (B : FVec Ideal S512x128 .bf16) (a : Fin 1024) (b : Fin 128) :
    matmul dot_S1024x512_S512x128_S1024x128_1_0_0_1_n_n none A B (constant (F := Ideal) S1024x128 .f32 0x00000000#32) (ix2 a b)
      = ∑ c : Fin 512, A (ix2 a c) * B (ix2 c b) :=
  matmul_plain_zero_apply none A B a b

/-! ### Three small layout readings -/

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ### The features: a one-hot row times the embedding table, plus the latent vector -/

/-- The indicator rows of one of the block's two sequences (the slice of the clamped ids at `off`): row `s` is the
    indicator of the embedding row position `s` selects. -/
def onehotRows (off : Fin 2 → Nat) (hs : S2x512.Slices off S1x512) (v0 : Vec Ideal S1x2x512 .i32) : FVec Ideal S512x22 .bf16 :=
  truncf .bf16 (sitofp .f32 (extui 32 (cmpi .eq
    (broadcastTo S512x22 (shapeCast S512x1 (shapeCast S512 (extractStridedSlice S1x512 off
      (minsi (broadcast S2x512 21#32) (maxsi (broadcast S2x512 0#32) (shapeCast S2x512 v0 shapeCasts_S1x2x512_S2x512))) hs)
      shapeCasts_S1x512_S512) shapeCasts_S512_S512x1) broadcasts_S512x1_S512x22)
    (iota .tc S512x22 32 [1] iota_S512x22_d1_w32)) natLt_1_32)) bitsLt_bf16_f32

theorem onehotRows_apply (g : Fin 2) (hs : S2x512.Slices ![g.val, 0] S1x512) (v0 : Vec Ideal S1x2x512 .i32)
    (s : Fin 512) (q : Fin 22) :
    onehotRows ![g.val, 0] hs v0 (ix2 s q)
      = if Cert.Decoder.row (v0 (ix3 (0 : Fin 1) g s)) = q then (1 : EReal) else 0 := by
  have hB : broadcastTo S512x22 (shapeCast S512x1 (shapeCast S512 (extractStridedSlice S1x512 ![g.val, 0]
      (minsi (broadcast S2x512 21#32) (maxsi (broadcast S2x512 0#32) (shapeCast S2x512 v0 shapeCasts_S1x2x512_S2x512))) hs)
      shapeCasts_S1x512_S512) shapeCasts_S512_S512x1) broadcasts_S512x1_S512x22 (ix2 s q)
      = IntOp.minsi 21#32 (IntOp.maxsi 0#32 (v0 (ix3 (0 : Fin 1) g s))) := by
    refine (broadcastTo_a1_ab_apply _ _ s q).trans ?_
    refine (shapeCast_a_a1_apply _ _ s (0 : Fin 1)).trans ?_
    refine (shapeCast_1a_a_apply _ _ s).trans ?_
    refine (slice2_axis0_apply g.val _ hs (0 : Fin 1) s g (by simp)).trans ?_
    show IntOp.minsi 21#32 (IntOp.maxsi 0#32 (shapeCast S2x512 v0 shapeCasts_S1x2x512_S2x512 (ix2 g s))) = _
    rw [shapeCast_1ab_ab_apply v0 _ g s]
  have hI : iota .tc S512x22 32 [1] iota_S512x22_d1_w32 (ix2 s q) = BitVec.ofNat 32 q.val :=
    iota_single_apply .tc S512x22 32 1 iota_S512x22_d1_w32 (ix2 s q)
  show FloatOps.sitofp (F := Ideal) .f32 ((IntOp.cmpi .eq (broadcastTo S512x22 _ _ (ix2 s q))
    (iota .tc S512x22 32 [1] _ (ix2 s q))).setWidth 32) = _
  rw [hI, hB]
  exact onehot_eq _ q

/-- One sequence's 512 × 512 features as the kernel forms them. -/
def featHalf (off : Fin 2 → Nat) (hs : S2x512.Slices off S1x512) (v0 : Vec Ideal S1x2x512 .i32)
    (e : Vec Ideal S22x512 .bf16) (zr : Vec Ideal S1x1x512 .f32) : FVec Ideal S512x512 .f32 :=
  addf (matmul dot_S512x22_S22x512_S512x512_1_0_0_1_n_n none (onehotRows off hs v0)
      (shapeCast S22x512 e shapeCasts_S22x512_S22x512 : FVec Ideal S22x512 .bf16) (constant S512x512 .f32 0x00000000#32))
    (broadcastTo S512x512 (shapeCast S1x512 (shapeCast S512 zr shapeCasts_S1x1x512_S512 : FVec Ideal S512 .f32) shapeCasts_S512_S1x512)
      broadcasts_S1x512_S512x512)

theorem featHalf_apply (g : Fin 2) (hs : S2x512.Slices ![g.val, 0] S1x512) (v0 : Vec Ideal S1x2x512 .i32)
    (e : Vec Ideal S22x512 .bf16) (zr : Vec Ideal S1x1x512 .f32) (s d : Fin 512) :
    featHalf ![g.val, 0] hs v0 e zr (ix2 s d)
      = e (ix2 (Cert.Decoder.row (v0 (ix3 (0 : Fin 1) g s))) d) + zr (ix3 (0 : Fin 1) (0 : Fin 1) d) := by
  have hM : matmul dot_S512x22_S22x512_S512x512_1_0_0_1_n_n none (onehotRows ![g.val, 0] hs v0)
      (shapeCast S22x512 e shapeCasts_S22x512_S22x512 : FVec Ideal S22x512 .bf16) (constant (F := Ideal) S512x512 .f32 0x00000000#32) (ix2 s d)
      = e (ix2 (Cert.Decoder.row (v0 (ix3 (0 : Fin 1) g s))) d) := by
    rw [mm_emb_apply, shapeCast_self]
    rw [Finset.sum_congr rfl fun q _ => by rw [onehotRows_apply g hs v0 s q]]
    exact Cert.Decoder.sum_onehot (Cert.Decoder.row (v0 (ix3 (0 : Fin 1) g s))) fun q => e (ix2 q d)
  have hZ : broadcastTo S512x512 (shapeCast S1x512 (shapeCast S512 zr shapeCasts_S1x1x512_S512 : FVec Ideal S512 .f32) shapeCasts_S512_S1x512)
      broadcasts_S1x512_S512x512 (ix2 s d) = zr (ix3 (0 : Fin 1) (0 : Fin 1) d) := by
    refine (broadcastTo_1b_ab_apply _ _ s d).trans ?_
    refine (shapeCast_a_1a_apply _ _ (0 : Fin 1) d).trans ?_
    exact shapeCast_11a_a_apply zr _ d
  show matmul dot_S512x22_S22x512_S512x512_1_0_0_1_n_n none (onehotRows ![g.val, 0] hs v0)
      (shapeCast S22x512 e shapeCasts_S22x512_S22x512 : FVec Ideal S22x512 .bf16) (constant (F := Ideal) S512x512 .f32 0x00000000#32) (ix2 s d)
    + broadcastTo S512x512 (shapeCast S1x512 (shapeCast S512 zr shapeCasts_S1x1x512_S512 : FVec Ideal S512 .f32) shapeCasts_S512_S1x512)
      broadcasts_S1x512_S512x512 (ix2 s d) = _
  rw [hM, hZ]

/-- The kernel's 1024 × 512 features are the two sequences' features, one above the other. -/
theorem pay3_eq (v0 : Vec Ideal S1x2x512 .i32) (e0 : Vec Ideal S22x512 .bf16) (z0 : Vec Ideal S1x1x512 .f32)
    (e1 : Vec Ideal S22x512 .bf16) (z1 : Vec Ideal S1x1x512 .f32) :
    k0_pay3 (F := Ideal) v0 e0 z0 e1 z1
      = concatenate S1024x512 0 [⟨S512x512, featHalf ![0, 0] slices_S2x512_o0_0_S1x512 v0 e0 z0⟩,
          ⟨S512x512, featHalf ![1, 0] slices_S2x512_o1_0_S1x512 v0 e1 z1⟩] concatenates_S512x512_S512x512_S1024x512_d0 := rfl

/-- Row `s` of the features is position `s` of the block's first sequence … -/
theorem pay3_upper (v0 : Vec Ideal S1x2x512 .i32) (e0 : Vec Ideal S22x512 .bf16) (z0 : Vec Ideal S1x1x512 .f32)
    (e1 : Vec Ideal S22x512 .bf16) (z1 : Vec Ideal S1x1x512 .f32) (r : Fin 1024) (s d : Fin 512) (hr : r.val = s.val) :
    k0_pay3 (F := Ideal) v0 e0 z0 e1 z1 (ix2 r d)
      = e0 (ix2 (Cert.Decoder.row (v0 (ix3 (0 : Fin 1) (0 : Fin 2) s))) d) + z0 (ix3 (0 : Fin 1) (0 : Fin 1) d) := by
  rw [pay3_eq]
  refine (concatenate_pair_apply_left (t := S1024x512) (s₁ := S512x512) (s₂ := S512x512) (0 : Fin 2) _ _ concatenates_S512x512_S512x512_S1024x512_d0 (ix2 r d) rfl (ix2 s d)
    (fun b => match b with | ⟨0, _⟩ => hr.symm | ⟨1, _⟩ => rfl)).trans ?_
  exact featHalf_apply (0 : Fin 2) slices_S2x512_o0_0_S1x512 v0 e0 z0 s d

/-- … and row `512 + s` is position `s` of its second. -/
theorem pay3_lower (v0 : Vec Ideal S1x2x512 .i32) (e0 : Vec Ideal S22x512 .bf16) (z0 : Vec Ideal S1x1x512 .f32)
    (e1 : Vec Ideal S22x512 .bf16) (z1 : Vec Ideal S1x1x512 .f32) (r : Fin 1024) (s d : Fin 512) (hr : r.val = 512 + s.val) :
    k0_pay3 (F := Ideal) v0 e0 z0 e1 z1 (ix2 r d)
      = e1 (ix2 (Cert.Decoder.row (v0 (ix3 (0 : Fin 1) (1 : Fin 2) s))) d) + z1 (ix3 (0 : Fin 1) (0 : Fin 1) d) := by
  rw [pay3_eq]
  refine (concatenate_pair_apply_right (t := S1024x512) (s₁ := S512x512) (s₂ := S512x512) (0 : Fin 2) _ _ concatenates_S512x512_S512x512_S1024x512_d0 (ix2 r d) rfl rfl (ix2 s d)
    (fun b hb => match b, hb with | ⟨0, _⟩, hb => absurd rfl hb | ⟨1, _⟩, _ => rfl)
    (by show s.val + 512 = r.val; omega)).trans ?_
  exact featHalf_apply (1 : Fin 2) slices_S2x512_o1_0_S1x512 v0 e1 z1 s d

/-! ### One run of 512 hidden units, and one step of the accumulation -/

/-- One run of 512 hidden units for all 1024 rows: the positive part of the features times a 512-column block of the
    first layer plus that block's bias. -/
def hidRun (X : FVec Ideal S1024x512 .bf16) (W : Vec Ideal S512x512 .bf16) (b : Vec Ideal S512 .f32) : FVec Ideal S1024x512 .bf16 :=
  truncf .bf16 (maximumf
    (addf (matmul dot_S1024x512_S512x512_S1024x512_1_0_0_1_n_n none X
        (shapeCast S512x512 W shapeCasts_S512x512_S512x512 : FVec Ideal S512x512 .bf16) (constant S1024x512 .f32 0x00000000#32))
      (broadcastTo S1024x512 (shapeCast S1x512 b shapeCasts_S512_S1x512 : FVec Ideal S1x512 .f32) broadcasts_S1x512_S1024x512))
    (broadcast S1024x512 (Scalar.ofBits .f32 0x00000000#32))) bitsLt_bf16_f32

theorem hidRun_apply (X : FVec Ideal S1024x512 .bf16) (W : Vec Ideal S512x512 .bf16) (b : Vec Ideal S512 .f32)
    (r : Fin 1024) (k : Fin 512) :
    hidRun X W b (ix2 r k) = max ((∑ d : Fin 512, X (ix2 r d) * W (ix2 d k)) + b (ix1 k)) Cert.Decoder.zero := by
  have hM : matmul dot_S1024x512_S512x512_S1024x512_1_0_0_1_n_n none X
      (shapeCast S512x512 W shapeCasts_S512x512_S512x512 : FVec Ideal S512x512 .bf16)
      (constant (F := Ideal) S1024x512 .f32 0x00000000#32) (ix2 r k) = ∑ d : Fin 512, X (ix2 r d) * W (ix2 d k) := by
    rw [mm_w1_apply, shapeCast_self]
  have hB : broadcastTo S1024x512 (shapeCast S1x512 b shapeCasts_S512_S1x512 : FVec Ideal S1x512 .f32)
      broadcasts_S1x512_S1024x512 (ix2 r k) = b (ix1 k) := by
    refine (broadcastTo_1b_ab_apply _ _ r k).trans ?_
    exact shapeCast_a_1a_apply b _ (0 : Fin 1) k
  show max (matmul dot_S1024x512_S512x512_S1024x512_1_0_0_1_n_n none X
      (shapeCast S512x512 W shapeCasts_S512x512_S512x512 : FVec Ideal S512x512 .bf16)
      (constant (F := Ideal) S1024x512 .f32 0x00000000#32) (ix2 r k)
    + broadcastTo S1024x512 (shapeCast S1x512 b shapeCasts_S512_S1x512 : FVec Ideal S1x512 .f32)
      broadcasts_S1x512_S1024x512 (ix2 r k)) (Ideal.ofBits .f32 0x00000000#32) = _
  rw [hM, hB]

/-- One step of the accumulation: a run's hidden units times the matching 512 rows of the second layer, added on. -/
def accStep (A : FVec Ideal S1024x128 .f32) (H : FVec Ideal S1024x512 .bf16) (W : Vec Ideal S512x128 .bf16) : FVec Ideal S1024x128 .f32 :=
  addf A (matmul dot_S1024x512_S512x128_S1024x128_1_0_0_1_n_n none H
    (shapeCast S512x128 W shapeCasts_S512x128_S512x128 : FVec Ideal S512x128 .bf16) (constant S1024x128 .f32 0x00000000#32))

theorem accStep_apply (A : FVec Ideal S1024x128 .f32) (H : FVec Ideal S1024x512 .bf16) (W : Vec Ideal S512x128 .bf16)
    (r : Fin 1024) (v : Fin 128) :
    accStep A H W (ix2 r v) = A (ix2 r v) + ∑ k : Fin 512, H (ix2 r k) * W (ix2 k v) := by
  show A (ix2 r v) + matmul dot_S1024x512_S512x128_S1024x128_1_0_0_1_n_n none H
    (shapeCast S512x128 W shapeCasts_S512x128_S512x128 : FVec Ideal S512x128 .bf16)
    (constant (F := Ideal) S1024x128 .f32 0x00000000#32) (ix2 r v) = _
  rw [mm_w2_apply, shapeCast_self]

/-- The first two runs, accumulated from the splat of the starting value. -/
theorem pay4_eq (X : FVec Ideal S1024x512 .bf16) (c0 : Ideal .f32) (W1a : Vec Ideal S512x512 .bf16) (b1a : Vec Ideal S512 .f32)
    (W2a : Vec Ideal S512x128 .bf16) (W1b : Vec Ideal S512x512 .bf16) (b1b : Vec Ideal S512 .f32) (W2b : Vec Ideal S512x128 .bf16) :
    k0_pay4 (F := Ideal) X c0 W1a b1a W2a W1b b1b W2b
      = accStep (accStep (broadcast S1024x128 c0) (hidRun X W1a b1a) W2a) (hidRun X W1b b1b) W2b := rfl

/-- The last two runs, then the second layer's bias on every row. -/
theorem pay5_eq (X : FVec Ideal S1024x512 .bf16) (A : FVec Ideal S1024x128 .f32) (W1c : Vec Ideal S512x512 .bf16) (b1c : Vec Ideal S512 .f32)
    (W2c : Vec Ideal S512x128 .bf16) (W1d : Vec Ideal S512x512 .bf16) (b1d : Vec Ideal S512 .f32) (W2d : Vec Ideal S512x128 .bf16)
    (b2v : Vec Ideal S128 .f32) :
    k0_pay5 (F := Ideal) X A W1c b1c W2c W1d b1d W2d b2v
      = addf (accStep (accStep A (hidRun X W1c b1c) W2c) (hidRun X W1d b1d) W2d)
          (broadcastTo S1024x128 (shapeCast S1x128 (shapeCast S128 b2v shapeCasts_S128_S128 : FVec Ideal S128 .f32) shapeCasts_S128_S1x128)
            broadcasts_S1x128_S1024x128) := rfl

/-! ### A row of logits -/

section Logits

variable {sel : Fin 2 → Fin 512 → Fin 22} {z : Fin 2 → Fin 512 → EReal} {emb : Fin 22 → Fin 512 → EReal}
  {W1 : Fin 512 → Fin 2048 → EReal} {b1 : Fin 2048 → EReal} {W2 : Fin 2048 → Fin 128 → EReal} {b2 : Fin 128 → EReal}

/-- One run's contribution to a logit, when the row holds the decoder's features and the run's blocks are the
    `c`-th blocks of the two layers. -/
theorem run_eq (c : Fin 4) (X : FVec Ideal S1024x512 .bf16) (W1c : Vec Ideal S512x512 .bf16) (b1c : Vec Ideal S512 .f32)
    (W2c : Vec Ideal S512x128 .bf16) (g : Fin 2) (s : Fin 512) (r : Fin 1024) (v : Fin 128)
    (hX : ∀ d, X (ix2 r d) = Cert.Decoder.feat sel z emb g s d)
    (hW1 : ∀ d k, W1c (ix2 d k) = W1 d (Cert.Decoder.chunk c k)) (hb1 : ∀ k, b1c (ix1 k) = b1 (Cert.Decoder.chunk c k))
    (hW2 : ∀ k, W2c (ix2 k v) = W2 (Cert.Decoder.chunk c k) v) :
    ∑ k : Fin 512, hidRun X W1c b1c (ix2 r k) * W2c (ix2 k v)
      = ∑ k : Fin 512, Cert.Decoder.hidden sel z emb W1 b1 g s (Cert.Decoder.chunk c k) * W2 (Cert.Decoder.chunk c k) v := by
  refine Finset.sum_congr rfl fun k _ => ?_
  rw [hidRun_apply, hW2 k]
  unfold Cert.Decoder.hidden
  simp only [hX, hW1, hb1]

/-- Row `r` of the accumulated value is the decoder's logits of position `s` of sequence `g`, when row `r` of the
    features is that position's and the loaded blocks are the layers' blocks. -/
theorem logits_row (X : FVec Ideal S1024x512 .bf16) (c0 : Ideal .f32)
    (W1a W1b W1c W1d : Vec Ideal S512x512 .bf16) (b1a b1b b1c b1d : Vec Ideal S512 .f32)
    (W2a W2b W2c W2d : Vec Ideal S512x128 .bf16) (b2v : Vec Ideal S128 .f32)
    (g : Fin 2) (s : Fin 512) (r : Fin 1024) (v : Fin 128)
    (hX : ∀ d, X (ix2 r d) = Cert.Decoder.feat sel z emb g s d) (hc0 : c0 = 0)
    (hW1a : ∀ d k, W1a (ix2 d k) = W1 d (Cert.Decoder.chunk 0 k)) (hb1a : ∀ k, b1a (ix1 k) = b1 (Cert.Decoder.chunk 0 k))
    (hW2a : ∀ k, W2a (ix2 k v) = W2 (Cert.Decoder.chunk 0 k) v)
    (hW1b : ∀ d k, W1b (ix2 d k) = W1 d (Cert.Decoder.chunk 1 k)) (hb1b : ∀ k, b1b (ix1 k) = b1 (Cert.Decoder.chunk 1 k))
    (hW2b : ∀ k, W2b (ix2 k v) = W2 (Cert.Decoder.chunk 1 k) v)
    (hW1c : ∀ d k, W1c (ix2 d k) = W1 d (Cert.Decoder.chunk 2 k)) (hb1c : ∀ k, b1c (ix1 k) = b1 (Cert.Decoder.chunk 2 k))
    (hW2c : ∀ k, W2c (ix2 k v) = W2 (Cert.Decoder.chunk 2 k) v)
    (hW1d : ∀ d k, W1d (ix2 d k) = W1 d (Cert.Decoder.chunk 3 k)) (hb1d : ∀ k, b1d (ix1 k) = b1 (Cert.Decoder.chunk 3 k))
    (hW2d : ∀ k, W2d (ix2 k v) = W2 (Cert.Decoder.chunk 3 k) v)
    (hb2 : b2v (ix1 v) = b2 v) :
    k0_pay5 (F := Ideal) X (k0_pay4 X c0 W1a b1a W2a W1b b1b W2b) W1c b1c W2c W1d b1d W2d b2v (ix2 r v)
      = Cert.Decoder.logit sel z emb W1 b1 W2 b2 g s v := by
  have hB : broadcastTo S1024x128 (shapeCast S1x128 (shapeCast S128 b2v shapeCasts_S128_S128 : FVec Ideal S128 .f32) shapeCasts_S128_S1x128)
      broadcasts_S1x128_S1024x128 (ix2 r v) = b2 v := by
    refine (broadcastTo_1b_ab_apply _ _ r v).trans ?_
    refine (shapeCast_a_1a_apply _ _ (0 : Fin 1) v).trans ?_
    rw [shapeCast_self]; exact hb2
  rw [pay5_eq, addf_apply, hB, accStep_apply, accStep_apply, pay4_eq, accStep_apply, accStep_apply, broadcast_apply, hc0,
    run_eq 0 X W1a b1a W2a g s r v hX hW1a hb1a hW2a, run_eq 1 X W1b b1b W2b g s r v hX hW1b hb1b hW2b,
    run_eq 2 X W1c b1c W2c g s r v hX hW1c hb1c hW2c, run_eq 3 X W1d b1d W2d g s r v hX hW1d hb1d hW2d]
  exact Cert.Decoder.logit_chunks sel z emb W1 b1 W2 b2 g s v

end Logits

/-! ### The two stored blocks at an index -/

theorem pay7_apply (m : Vec Ideal S1x1x128 .f32) (u : Fin 1) (v : Fin 128) :
    k0_pay7 (F := Ideal) m (ix2 u v) = m (ix3 (0 : Fin 1) (0 : Fin 1) v) := by
  show shapeCast S1x128 (shapeCast S128 m shapeCasts_S1x1x128_S128 : FVec Ideal S128 .f32) shapeCasts_S128_S1x128 (ix2 u v) = _
  refine (shapeCast_a_1a_apply _ _ u v).trans ?_
  exact shapeCast_11a_a_apply m _ v

theorem pay6_apply (X : FVec Ideal S1024x512 .bf16) (A : FVec Ideal S1024x128 .f32) (W1c : Vec Ideal S512x512 .bf16) (b1c : Vec Ideal S512 .f32)
    (W2c : Vec Ideal S512x128 .bf16) (W1d : Vec Ideal S512x512 .bf16) (b1d : Vec Ideal S512 .f32) (W2d : Vec Ideal S512x128 .bf16)
    (b2v : Vec Ideal S128 .f32) (s : Fin 512) (v : Fin 128) (r : Fin 1024) (hr : r.val = s.val) :
    k0_pay6 (F := Ideal) X A W1c b1c W2c W1d b1d W2d b2v (ix2 s v) = k0_pay5 (F := Ideal) X A W1c b1c W2c W1d b1d W2d b2v (ix2 r v) := by
  show extractStridedSlice S512x128 ![0, 0] (k0_pay5 (F := Ideal) X A W1c b1c W2c W1d b1d W2d b2v) slices_S1024x128_o0_0_S512x128 (ix2 s v) = _
  exact slice2_axis0_apply 0 _ _ s v r (by omega)

/-- The upper block: the accumulated rows less the constant times the first sequence's mask row. -/
theorem pay1_apply (A : FVec Ideal S512x128 .f32) (M : FVec Ideal S1x128 .f32) (ch : Ideal .f32) (u : Fin 1) (s : Fin 512) (v : Fin 128) :
    k0_pay1 (F := Ideal) A M ch (ix3 u s v) = A (ix2 s v) - ch * M (ix2 (0 : Fin 1) v) := by
  show shapeCast S1x512x128 (subf A (broadcastTo S512x128 (mulf (broadcast S1x128 ch) M) broadcasts_S1x128_S512x128))
    shapeCasts_S512x128_S1x512x128 (ix3 u s v) = _
  refine (shapeCast_ab_1ab_apply _ _ u s v).trans ?_
  show A (ix2 s v) - broadcastTo S512x128 (mulf (broadcast S1x128 ch) M) broadcasts_S1x128_S512x128 (ix2 s v) = _
  rw [broadcastTo_1b_ab_apply]
  rfl

/-- The lower block: rows 512 and on of the accumulated value less half the second sequence's mask row. -/
theorem pay2_apply (A : FVec Ideal S1024x128 .f32) (m : Vec Ideal S1x1x128 .f32) (u : Fin 1) (s : Fin 512) (v : Fin 128)
    (r : Fin 1024) (hr : r.val = 512 + s.val) :
    k0_pay2 (F := Ideal) A m (ix3 u s v) = A (ix2 r v) - Cert.Decoder.half * m (ix3 (0 : Fin 1) (0 : Fin 1) v) := by
  show shapeCast S1x512x128 (subf (extractStridedSlice S512x128 ![512, 0] A slices_S1024x128_o512_0_S512x128)
    (broadcastTo S512x128 (mulf (broadcast S1x128 (Scalar.ofBits (F := Ideal) .f32 0x3F000000#32))
      (shapeCast S1x128 (shapeCast S128 m shapeCasts_S1x1x128_S128 : FVec Ideal S128 .f32) shapeCasts_S128_S1x128))
      broadcasts_S1x128_S512x128)) shapeCasts_S512x128_S1x512x128 (ix3 u s v) = _
  refine (shapeCast_ab_1ab_apply _ _ u s v).trans ?_
  show extractStridedSlice S512x128 ![512, 0] A slices_S1024x128_o512_0_S512x128 (ix2 s v)
    - broadcastTo S512x128 (mulf (broadcast S1x128 (Scalar.ofBits (F := Ideal) .f32 0x3F000000#32))
      (shapeCast S1x128 (shapeCast S128 m shapeCasts_S1x1x128_S128 : FVec Ideal S128 .f32) shapeCasts_S128_S1x128))
      broadcasts_S1x128_S512x128 (ix2 s v) = _
  rw [slice2_axis0_apply 512 A _ s v r hr, broadcastTo_1b_ab_apply]
  show A (ix2 r v) - Cert.Decoder.half
    * shapeCast S1x128 (shapeCast S128 m shapeCasts_S1x1x128_S128 : FVec Ideal S128 .f32) shapeCasts_S128_S1x128 (ix2 (0 : Fin 1) v) = _
  rw [shapeCast_a_1a_apply, shapeCast_11a_a_apply]

/-! ### The decoder's block, row by row -/

/-- Row `512 g + s` of the decoder's block is position `s` of sequence `g`. -/
theorem block_row (x0 : Vec Ideal S1x2x512 .i32) (x1 : Vec Ideal S1x2x512 .f32) (x2 : Vec Ideal S1x2x128 .f32)
    (x3 : Vec Ideal S22x512 .bf16) (x4 : Vec Ideal S512x2048 .bf16) (x5 : Vec Ideal S2048 .f32) (x6 : Vec Ideal S2048x128 .bf16)
    (x7 : Vec Ideal S128 .f32) (g : Fin 2) (s : Fin 512) (r : Fin 1024) (hr : r.val = 512 * g.val + s.val) (v : Fin 128) :
    Cert.Decoder.block x0 x1 x2 x3 x4 x5 x6 x7 (ix3 (0 : Fin 1) r v)
      = Cert.Decoder.out (fun (g : Fin 2) (s : Fin 512) => Cert.Decoder.row (x0 (ix3 (0 : Fin 1) g s)))
          (fun g d => x1 (ix3 (0 : Fin 1) g d)) (fun q d => x3 (ix2 q d)) (fun d f => x4 (ix2 d f)) (fun f => x5 (ix1 f))
          (fun f v => x6 (ix2 f v)) (fun v => x7 (ix1 v)) (fun g v => x2 (ix3 (0 : Fin 1) g v)) g s v := by
  obtain ⟨gv, hgv⟩ := g
  obtain ⟨sv, hsv⟩ := s
  have hr' : r.val = 512 * gv + sv := hr
  have h1 : r.val / 512 = gv := by omega
  have h2 : r.val % 512 = sv := by omega
  clear hr
  subst h1
  subst h2
  rfl

/-! ### A load through a rectangle, at an index -/

/-- A load through a rectangle reads the contents at the index whose coordinates are the rectangle's offsets plus the strides
    times the local coordinates. -/
theorem ld_apply {S : Shape} {Val : EltTy → Type} {e : EltTy} (X : S.Idx → Val e) (r : Rect S) (y : r.shape.Idx) (k : S.Idx)
    (hk : ∀ a, (k a).val = r.off a + r.stride a * (y a).val) : View.ld X r y = X k :=
  congrArg X (funext fun a => Fin.ext (hk a).symm)

/-! ### The two stored blocks are blocks of the decoder's block -/

section Pieces

variable (x0 : Vec Ideal S1x2x512 .i32) (x1 : Vec Ideal S1x2x512 .f32) (x2 : Vec Ideal S1x2x128 .f32)
  (x3 : Vec Ideal S22x512 .bf16) (x4 : Vec Ideal S512x2048 .bf16) (x5 : Vec Ideal S2048 .f32) (x6 : Vec Ideal S2048x128 .bf16)
  (x7 : Vec Ideal S128 .f32)
  (tok : Vec Ideal S1x2x512 .i32) (e0 : Vec Ideal S22x512 .bf16) (z0 : Vec Ideal S1x1x512 .f32)
  (e1 : Vec Ideal S22x512 .bf16) (z1 : Vec Ideal S1x1x512 .f32) (c0 : Ideal .f32)
  (W1a : Vec Ideal S512x512 .bf16) (b1a : Vec Ideal S512 .f32) (W2a : Vec Ideal S512x128 .bf16)
  (W1b : Vec Ideal S512x512 .bf16) (b1b : Vec Ideal S512 .f32) (W2b : Vec Ideal S512x128 .bf16)
  (W1c : Vec Ideal S512x512 .bf16) (b1c : Vec Ideal S512 .f32) (W2c : Vec Ideal S512x128 .bf16)
  (W1d : Vec Ideal S512x512 .bf16) (b1d : Vec Ideal S512 .f32) (W2d : Vec Ideal S512x128 .bf16)
  (b2v : Vec Ideal S128 .f32)
  (htok : ∀ (g : Fin 2) (s : Fin 512), tok (ix3 (0 : Fin 1) g s) = x0 (ix3 (0 : Fin 1) g s))
  (he0 : ∀ (q : Fin 22) (d : Fin 512), e0 (ix2 q d) = x3 (ix2 q d))
  (he1 : ∀ (q : Fin 22) (d : Fin 512), e1 (ix2 q d) = x3 (ix2 q d))
  (hz0 : ∀ d : Fin 512, z0 (ix3 (0 : Fin 1) (0 : Fin 1) d) = x1 (ix3 (0 : Fin 1) (0 : Fin 2) d))
  (hz1 : ∀ d : Fin 512, z1 (ix3 (0 : Fin 1) (0 : Fin 1) d) = x1 (ix3 (0 : Fin 1) (1 : Fin 2) d))
  (hc0 : c0 = 0)
  (hW1a : ∀ (d k : Fin 512), W1a (ix2 d k) = x4 (ix2 d (Cert.Decoder.chunk 0 k)))
  (hb1a : ∀ k : Fin 512, b1a (ix1 k) = x5 (ix1 (Cert.Decoder.chunk 0 k)))
  (hW2a : ∀ (k : Fin 512) (v : Fin 128), W2a (ix2 k v) = x6 (ix2 (Cert.Decoder.chunk 0 k) v))
  (hW1b : ∀ (d k : Fin 512), W1b (ix2 d k) = x4 (ix2 d (Cert.Decoder.chunk 1 k)))
  (hb1b : ∀ k : Fin 512, b1b (ix1 k) = x5 (ix1 (Cert.Decoder.chunk 1 k)))
  (hW2b : ∀ (k : Fin 512) (v : Fin 128), W2b (ix2 k v) = x6 (ix2 (Cert.Decoder.chunk 1 k) v))
  (hW1c : ∀ (d k : Fin 512), W1c (ix2 d k) = x4 (ix2 d (Cert.Decoder.chunk 2 k)))
  (hb1c : ∀ k : Fin 512, b1c (ix1 k) = x5 (ix1 (Cert.Decoder.chunk 2 k)))
  (hW2c : ∀ (k : Fin 512) (v : Fin 128), W2c (ix2 k v) = x6 (ix2 (Cert.Decoder.chunk 2 k) v))
  (hW1d : ∀ (d k : Fin 512), W1d (ix2 d k) = x4 (ix2 d (Cert.Decoder.chunk 3 k)))
  (hb1d : ∀ k : Fin 512, b1d (ix1 k) = x5 (ix1 (Cert.Decoder.chunk 3 k)))
  (hW2d : ∀ (k : Fin 512) (v : Fin 128), W2d (ix2 k v) = x6 (ix2 (Cert.Decoder.chunk 3 k) v))
  (hb2 : ∀ v : Fin 128, b2v (ix1 v) = x7 (ix1 v))

include htok he0 hz0 in
/-- Rows 0 to 511 of the features are the first sequence's. -/
theorem feat_upper (s : Fin 512) (r : Fin 1024) (hr : r.val = s.val) (d : Fin 512) :
    k0_pay3 (F := Ideal) tok e0 z0 e1 z1 (ix2 r d)
      = Cert.Decoder.feat (fun (g : Fin 2) (s : Fin 512) => Cert.Decoder.row (x0 (ix3 (0 : Fin 1) g s)))
          (fun g d => x1 (ix3 (0 : Fin 1) g d)) (fun q d => x3 (ix2 q d)) (0 : Fin 2) s d := by
  rw [pay3_upper tok e0 z0 e1 z1 r s d hr, htok, he0, hz0]
  rfl

include htok he1 hz1 in
/-- Rows 512 to 1023 are the second sequence's. -/
theorem feat_lower (s : Fin 512) (r : Fin 1024) (hr : r.val = 512 + s.val) (d : Fin 512) :
    k0_pay3 (F := Ideal) tok e0 z0 e1 z1 (ix2 r d)
      = Cert.Decoder.feat (fun (g : Fin 2) (s : Fin 512) => Cert.Decoder.row (x0 (ix3 (0 : Fin 1) g s)))
          (fun g d => x1 (ix3 (0 : Fin 1) g d)) (fun q d => x3 (ix2 q d)) (1 : Fin 2) s d := by
  rw [pay3_lower tok e0 z0 e1 z1 r s d hr, htok, he1, hz1]
  rfl

include hc0 hW1a hb1a hW2a hW1b hb1b hW2b hW1c hb1c hW2c hW1d hb1d hW2d hb2 in
/-- Row `r` of the accumulated value, once row `r` of the features is known to be a position's features. -/
theorem logits_at (g : Fin 2) (s : Fin 512) (r : Fin 1024) (v : Fin 128)
    (hX : ∀ d, k0_pay3 (F := Ideal) tok e0 z0 e1 z1 (ix2 r d)
      = Cert.Decoder.feat (fun (g : Fin 2) (s : Fin 512) => Cert.Decoder.row (x0 (ix3 (0 : Fin 1) g s)))
          (fun g d => x1 (ix3 (0 : Fin 1) g d)) (fun q d => x3 (ix2 q d)) g s d) :
    k0_pay5 (F := Ideal) (k0_pay3 tok e0 z0 e1 z1) (k0_pay4 (k0_pay3 tok e0 z0 e1 z1) c0 W1a b1a W2a W1b b1b W2b)
        W1c b1c W2c W1d b1d W2d b2v (ix2 r v)
      = Cert.Decoder.logit (fun (g : Fin 2) (s : Fin 512) => Cert.Decoder.row (x0 (ix3 (0 : Fin 1) g s)))
          (fun g d => x1 (ix3 (0 : Fin 1) g d)) (fun q d => x3 (ix2 q d)) (fun d f => x4 (ix2 d f)) (fun f => x5 (ix1 f))
          (fun f v => x6 (ix2 f v)) (fun v => x7 (ix1 v)) g s v :=
  logits_row (k0_pay3 tok e0 z0 e1 z1) c0 W1a W1b W1c W1d b1a b1b b1c b1d W2a W2b W2c W2d b2v g s r v hX hc0
    hW1a hb1a (fun k => hW2a k v) hW1b hb1b (fun k => hW2b k v) hW1c hb1c (fun k => hW2c k v) hW1d hb1d (fun k => hW2d k v) (hb2 v)

include htok he0 hz0 hc0 hW1a hb1a hW2a hW1b hb1b hW2b hW1c hb1c hW2c hW1d hb1d hW2d hb2 in
/-- The block stored at rows 0 to 511 is those rows of the decoder's block. -/
theorem piece_upper (m0 : Vec Ideal S1x1x128 .f32) (ch : Ideal .f32) (hch : ch = Cert.Decoder.half)
    (hm0 : ∀ v : Fin 128, m0 (ix3 (0 : Fin 1) (0 : Fin 1) v) = x2 (ix3 (0 : Fin 1) (0 : Fin 2) v))
    (u : Fin 1) (s : Fin 512) (v : Fin 128) (r : Fin 1024) (hr : r.val = s.val) :
    k0_pay1 (F := Ideal)
        (k0_pay6 (k0_pay3 tok e0 z0 e1 z1) (k0_pay4 (k0_pay3 tok e0 z0 e1 z1) c0 W1a b1a W2a W1b b1b W2b)
          W1c b1c W2c W1d b1d W2d b2v) (k0_pay7 m0) ch (ix3 u s v)
      = Cert.Decoder.block x0 x1 x2 x3 x4 x5 x6 x7 (ix3 (0 : Fin 1) r v) := by
  rw [pay1_apply, pay6_apply _ _ _ _ _ _ _ _ _ s v r hr, pay7_apply, hm0 v, hch,
    logits_at x0 x1 x3 x4 x5 x6 x7 tok e0 z0 e1 z1 c0 W1a b1a W2a W1b b1b W2b W1c b1c W2c W1d b1d W2d b2v
      hc0 hW1a hb1a hW2a hW1b hb1b hW2b hW1c hb1c hW2c hW1d hb1d hW2d hb2 (0 : Fin 2) s r v
      (feat_upper x0 x1 x3 tok e0 z0 e1 z1 htok he0 hz0 s r hr),
    block_row x0 x1 x2 x3 x4 x5 x6 x7 (0 : Fin 2) s r (by show r.val = 512 * 0 + s.val; omega) v]
  rfl

include htok he1 hz1 hc0 hW1a hb1a hW2a hW1b hb1b hW2b hW1c hb1c hW2c hW1d hb1d hW2d hb2 in
/-- The block stored at rows 512 to 1023 is those rows of the decoder's block. -/
theorem piece_lower (m1 : Vec Ideal S1x1x128 .f32)
    (hm1 : ∀ v : Fin 128, m1 (ix3 (0 : Fin 1) (0 : Fin 1) v) = x2 (ix3 (0 : Fin 1) (1 : Fin 2) v))
    (u : Fin 1) (s : Fin 512) (v : Fin 128) (r : Fin 1024) (hr : r.val = 512 + s.val) :
    k0_pay2 (F := Ideal)
        (k0_pay5 (k0_pay3 tok e0 z0 e1 z1) (k0_pay4 (k0_pay3 tok e0 z0 e1 z1) c0 W1a b1a W2a W1b b1b W2b)
          W1c b1c W2c W1d b1d W2d b2v) m1 (ix3 u s v)
      = Cert.Decoder.block x0 x1 x2 x3 x4 x5 x6 x7 (ix3 (0 : Fin 1) r v) := by
  rw [pay2_apply _ _ u s v r hr, hm1 v,
    logits_at x0 x1 x3 x4 x5 x6 x7 tok e0 z0 e1 z1 c0 W1a b1a W2a W1b b1b W2b W1c b1c W2c W1d b1d W2d b2v
      hc0 hW1a hb1a hW2a hW1b hb1b hW2b hW1c hb1c hW2c hW1d hb1d hW2d hb2 (1 : Fin 2) s r v
      (feat_lower x0 x1 x3 tok e0 z0 e1 z1 htok he1 hz1 s r hr),
    block_row x0 x1 x2 x3 x4 x5 x6 x7 (1 : Fin 2) s r (by show r.val = 512 * 1 + s.val; omega) v]
  rfl

end Pieces

/-! ### Loads through unit-stride rectangles, by coordinates -/

section Loads
variable {Val : EltTy → Type} {e : EltTy}

theorem ld_ix1 {n m : Nat} (X : (⟨1, ![n]⟩ : Shape).Idx → Val e) (o : Nat) (inb) (a : Fin m) (a' : Fin n)
    (ha : a'.val = o + a.val) :
    View.ld X (Rect.unit (s := ⟨1, ![n]⟩) ![o] ![m] inb) (ix1 a) = X (ix1 a') :=
  ld_apply X _ _ _ fun ax => by
    match ax with
    | ⟨0, _⟩ => show a'.val = o + 1 * a.val; omega

theorem ld_ix2 {n0 n1 m0 m1 : Nat} (X : (⟨2, ![n0, n1]⟩ : Shape).Idx → Val e) (o0 o1 : Nat) (inb) (a : Fin m0) (b : Fin m1)
    (a' : Fin n0) (b' : Fin n1) (ha : a'.val = o0 + a.val) (hb : b'.val = o1 + b.val) :
    View.ld X (Rect.unit (s := ⟨2, ![n0, n1]⟩) ![o0, o1] ![m0, m1] inb) (ix2 a b) = X (ix2 a' b') :=
  ld_apply X _ _ _ fun ax => by
    match ax with
    | ⟨0, _⟩ => show a'.val = o0 + 1 * a.val; omega
    | ⟨1, _⟩ => show b'.val = o1 + 1 * b.val; omega

theorem ld_ix3 {n0 n1 n2 m0 m1 m2 : Nat} (X : (⟨3, ![n0, n1, n2]⟩ : Shape).Idx → Val e) (o0 o1 o2 : Nat) (inb)
    (a : Fin m0) (b : Fin m1) (c : Fin m2) (a' : Fin n0) (b' : Fin n1) (c' : Fin n2)
    (ha : a'.val = o0 + a.val) (hb : b'.val = o1 + b.val) (hc : c'.val = o2 + c.val) :
    View.ld X (Rect.unit (s := ⟨3, ![n0, n1, n2]⟩) ![o0, o1, o2] ![m0, m1, m2] inb) (ix3 a b c) = X (ix3 a' b' c') :=
  ld_apply X _ _ _ fun ax => by
    match ax with
    | ⟨0, _⟩ => show a'.val = o0 + 1 * a.val; omega
    | ⟨1, _⟩ => show b'.val = o1 + 1 * b.val; omega
    | ⟨2, _⟩ => show c'.val = o2 + 1 * c.val; omega

end Loads

/-- The block the body's two stores leave is the decoder's block of the point's input blocks. -/
theorem out_eq_block (c : Dev nD) (i : grid0.Coords) (arg1 : Memref sig .tc .vmem S1x2x512 .i32) (harg1 : arg1.IsWhole) (arg2 : Memref sig .tc .vmem S1x2x512 .f32) (harg2 : arg2.IsWhole) (arg3 : Memref sig .tc .vmem S1x2x128 .f32) (harg3 : arg3.IsWhole) (arg4 : Memref sig .tc .vmem S22x512 .bf16) (harg4 : arg4.IsWhole) (arg5 : Memref sig .tc .vmem S512x2048 .bf16) (harg5 : arg5.IsWhole) (arg6 : Memref sig .tc .vmem S2048 .f32) (harg6 : arg6.IsWhole) (arg7 : Memref sig .tc .vmem S2048x128 .bf16) (harg7 : arg7.IsWhole) (arg8 : Memref sig .tc .vmem S128 .f32) (harg8 : arg8.IsWhole) (arg9 : Memref sig .tc .vmem S1x1024x128 .f32) (harg9 : arg9.IsWhole)
    (x0 : Vec Ideal S1x2x512 .i32) (x1 : Vec Ideal S1x2x512 .f32) (x2 : Vec Ideal S1x2x128 .f32) (x3 : Vec Ideal S22x512 .bf16) (x4 : Vec Ideal S512x2048 .bf16) (x5 : Vec Ideal S2048 .f32) (x6 : Vec Ideal S2048x128 .bf16) (x7 : Vec Ideal S128 .f32) :
    out0_A_8 (F := Ideal) c i arg1 harg1 arg2 harg2 arg3 harg3 arg4 harg4 arg5 harg5 arg6 harg6 arg7 harg7 arg8 harg8 arg9 harg9 x0 x1 x2 x3 x4 x5 x6 x7 = Cert.Decoder.block x0 x1 x2 x3 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread]
  funext y
  refine View.canon_apply_of_pieces (Val := Elt Ideal) (S := S1x1024x128) (e := .f32) (Cert.Decoder.block x0 x1 x2 x3 x4 x5 x6 x7) _ ?_ y ?_
  · intro p hp x
    rcases List.mem_cons.mp hp with rfl | hp
    · -- rows 512 to 1023
      obtain ⟨u, s, v, rfl⟩ : ∃ (u : Fin 1) (s : Fin 512) (v : Fin 128), x = ix3 u s v := ⟨x 0, x 1, x 2, eq_ix3 x⟩
      have hs := s.isLt
      have hu : u.val = 0 := by omega
      have he : ix3 (0 : Fin 1) (⟨512 + s.val, by omega⟩ : Fin 1024) v
          = (Rect.unit (s := S1x1024x128) ![0, 512, 0] ![1, 512, 128] inb_S1x1024x128_S1x512x128_0_512_0).emb (ix3 u s v) :=
        funext fun a => Fin.ext (by
          match a with
          | ⟨0, _⟩ => show 0 = 0 + 1 * u.val; omega
          | ⟨1, _⟩ => show 512 + s.val = 512 + 1 * s.val; omega
          | ⟨2, _⟩ => show v.val = 0 + 1 * v.val; omega)
      exact (piece_lower x0 x1 x2 x3 x4 x5 x6 x7
        (View.ld x0 (Rect.unit (s := S1x2x512) ![0, 0, 0] ![1, 2, 512] _))
        (View.ld x3 (Rect.unit (s := S22x512) ![0, 0] ![22, 512] _))
        (View.ld x1 (Rect.unit (s := S1x2x512) ![0, 0, 0] ![1, 1, 512] _))
        (View.ld x3 (Rect.unit (s := S22x512) ![0, 0] ![22, 512] _))
        (View.ld x1 (Rect.unit (s := S1x2x512) ![0, 1, 0] ![1, 1, 512] _))
        (FloatOps.ofBits (F := Ideal) .f32 0#32)
        (View.ld x4 (Rect.unit (s := S512x2048) ![0, 0] ![512, 512] _))
        (View.ld x5 (Rect.unit (s := S2048) ![0] ![512] _))
        (View.ld x6 (Rect.unit (s := S2048x128) ![0, 0] ![512, 128] _))
        (View.ld x4 (Rect.unit (s := S512x2048) ![0, 512] ![512, 512] _))
        (View.ld x5 (Rect.unit (s := S2048) ![512] ![512] _))
        (View.ld x6 (Rect.unit (s := S2048x128) ![512, 0] ![512, 128] _))
        (View.ld x4 (Rect.unit (s := S512x2048) ![0, 1024] ![512, 512] _))
        (View.ld x5 (Rect.unit (s := S2048) ![1024] ![512] _))
        (View.ld x6 (Rect.unit (s := S2048x128) ![1024, 0] ![512, 128] _))
        (View.ld x4 (Rect.unit (s := S512x2048) ![0, 1536] ![512, 512] _))
        (View.ld x5 (Rect.unit (s := S2048) ![1536] ![512] _))
        (View.ld x6 (Rect.unit (s := S2048x128) ![1536, 0] ![512, 128] _))
        (View.ld x7 (Rect.unit (s := S128) ![0] ![128] _))
        (fun g s => ld_ix3 x0 0 0 0 _ (0 : Fin 1) g s (0 : Fin 1) g s (by omega) (by omega) (by omega))
        (fun q d => ld_ix2 x3 0 0 _ q d q d (by omega) (by omega))
        (fun d => ld_ix3 x1 0 1 0 _ (0 : Fin 1) (0 : Fin 1) d (0 : Fin 1) (1 : Fin 2) d (by omega) (by show 1 = 1 + 0; omega) (by omega))
        Ideal.ofBits_zero_f32
        (fun d k => ld_ix2 x4 0 0 _ d k d (Cert.Decoder.chunk 0 k) (by omega) (by show 512 * 0 + k.val = 0 + k.val; omega))
        (fun k => ld_ix1 x5 0 _ k (Cert.Decoder.chunk 0 k) (by show 512 * 0 + k.val = 0 + k.val; omega))
        (fun k v => ld_ix2 x6 0 0 _ k v (Cert.Decoder.chunk 0 k) v (by show 512 * 0 + k.val = 0 + k.val; omega) (by omega))
        (fun d k => ld_ix2 x4 0 512 _ d k d (Cert.Decoder.chunk 1 k) (by omega) (by show 512 * 1 + k.val = 512 + k.val; omega))
        (fun k => ld_ix1 x5 512 _ k (Cert.Decoder.chunk 1 k) (by show 512 * 1 + k.val = 512 + k.val; omega))
        (fun k v => ld_ix2 x6 512 0 _ k v (Cert.Decoder.chunk 1 k) v (by show 512 * 1 + k.val = 512 + k.val; omega) (by omega))
        (fun d k => ld_ix2 x4 0 1024 _ d k d (Cert.Decoder.chunk 2 k) (by omega) (by show 512 * 2 + k.val = 1024 + k.val; omega))
        (fun k => ld_ix1 x5 1024 _ k (Cert.Decoder.chunk 2 k) (by show 512 * 2 + k.val = 1024 + k.val; omega))
        (fun k v => ld_ix2 x6 1024 0 _ k v (Cert.Decoder.chunk 2 k) v (by show 512 * 2 + k.val = 1024 + k.val; omega) (by omega))
        (fun d k => ld_ix2 x4 0 1536 _ d k d (Cert.Decoder.chunk 3 k) (by omega) (by show 512 * 3 + k.val = 1536 + k.val; omega))
        (fun k => ld_ix1 x5 1536 _ k (Cert.Decoder.chunk 3 k) (by show 512 * 3 + k.val = 1536 + k.val; omega))
        (fun k v => ld_ix2 x6 1536 0 _ k v (Cert.Decoder.chunk 3 k) v (by show 512 * 3 + k.val = 1536 + k.val; omega) (by omega))
        (fun v => ld_ix1 x7 0 _ v v (by omega))
        (View.ld x2 (Rect.unit (s := S1x2x128) ![0, 1, 0] ![1, 1, 128] _))
        (fun v => ld_ix3 x2 0 1 0 _ (0 : Fin 1) (0 : Fin 1) v (0 : Fin 1) (1 : Fin 2) v (by omega) (by show 1 = 1 + 0; omega) (by omega))
        u s v ⟨512 + s.val, by omega⟩ rfl).trans (congrArg (Cert.Decoder.block x0 x1 x2 x3 x4 x5 x6 x7) he)
    · -- rows 0 to 511
      obtain rfl := List.mem_singleton.mp hp
      obtain ⟨u, s, v, rfl⟩ : ∃ (u : Fin 1) (s : Fin 512) (v : Fin 128), x = ix3 u s v := ⟨x 0, x 1, x 2, eq_ix3 x⟩
      have hs := s.isLt
      have hu : u.val = 0 := by omega
      have he : ix3 (0 : Fin 1) (⟨s.val, by omega⟩ : Fin 1024) v
          = (Rect.unit (s := S1x1024x128) ![0, 0, 0] ![1, 512, 128] inb_S1x1024x128_S1x512x128_0_0_0).emb (ix3 u s v) :=
        funext fun a => Fin.ext (by
          match a with
          | ⟨0, _⟩ => show 0 = 0 + 1 * u.val; omega
          | ⟨1, _⟩ => show s.val = 0 + 1 * s.val; omega
          | ⟨2, _⟩ => show v.val = 0 + 1 * v.val; omega)
      exact (piece_upper x0 x1 x2 x3 x4 x5 x6 x7
        (View.ld x0 (Rect.unit (s := S1x2x512) ![0, 0, 0] ![1, 2, 512] _))
        (View.ld x3 (Rect.unit (s := S22x512) ![0, 0] ![22, 512] _))
        (View.ld x1 (Rect.unit (s := S1x2x512) ![0, 0, 0] ![1, 1, 512] _))
        (View.ld x3 (Rect.unit (s := S22x512) ![0, 0] ![22, 512] _))
        (View.ld x1 (Rect.unit (s := S1x2x512) ![0, 1, 0] ![1, 1, 512] _))
        (FloatOps.ofBits (F := Ideal) .f32 0#32)
        (View.ld x4 (Rect.unit (s := S512x2048) ![0, 0] ![512, 512] _))
        (View.ld x5 (Rect.unit (s := S2048) ![0] ![512] _))
        (View.ld x6 (Rect.unit (s := S2048x128) ![0, 0] ![512, 128] _))
        (View.ld x4 (Rect.unit (s := S512x2048) ![0, 512] ![512, 512] _))
        (View.ld x5 (Rect.unit (s := S2048) ![512] ![512] _))
        (View.ld x6 (Rect.unit (s := S2048x128) ![512, 0] ![512, 128] _))
        (View.ld x4 (Rect.unit (s := S512x2048) ![0, 1024] ![512, 512] _))
        (View.ld x5 (Rect.unit (s := S2048) ![1024] ![512] _))
        (View.ld x6 (Rect.unit (s := S2048x128) ![1024, 0] ![512, 128] _))
        (View.ld x4 (Rect.unit (s := S512x2048) ![0, 1536] ![512, 512] _))
        (View.ld x5 (Rect.unit (s := S2048) ![1536] ![512] _))
        (View.ld x6 (Rect.unit (s := S2048x128) ![1536, 0] ![512, 128] _))
        (View.ld x7 (Rect.unit (s := S128) ![0] ![128] _))
        (fun g s => ld_ix3 x0 0 0 0 _ (0 : Fin 1) g s (0 : Fin 1) g s (by omega) (by omega) (by omega))
        (fun q d => ld_ix2 x3 0 0 _ q d q d (by omega) (by omega))
        (fun d => ld_ix3 x1 0 0 0 _ (0 : Fin 1) (0 : Fin 1) d (0 : Fin 1) (0 : Fin 2) d (by omega) (by show 0 = 0 + 0; omega) (by omega))
        Ideal.ofBits_zero_f32
        (fun d k => ld_ix2 x4 0 0 _ d k d (Cert.Decoder.chunk 0 k) (by omega) (by show 512 * 0 + k.val = 0 + k.val; omega))
        (fun k => ld_ix1 x5 0 _ k (Cert.Decoder.chunk 0 k) (by show 512 * 0 + k.val = 0 + k.val; omega))
        (fun k v => ld_ix2 x6 0 0 _ k v (Cert.Decoder.chunk 0 k) v (by show 512 * 0 + k.val = 0 + k.val; omega) (by omega))
        (fun d k => ld_ix2 x4 0 512 _ d k d (Cert.Decoder.chunk 1 k) (by omega) (by show 512 * 1 + k.val = 512 + k.val; omega))
        (fun k => ld_ix1 x5 512 _ k (Cert.Decoder.chunk 1 k) (by show 512 * 1 + k.val = 512 + k.val; omega))
        (fun k v => ld_ix2 x6 512 0 _ k v (Cert.Decoder.chunk 1 k) v (by show 512 * 1 + k.val = 512 + k.val; omega) (by omega))
        (fun d k => ld_ix2 x4 0 1024 _ d k d (Cert.Decoder.chunk 2 k) (by omega) (by show 512 * 2 + k.val = 1024 + k.val; omega))
        (fun k => ld_ix1 x5 1024 _ k (Cert.Decoder.chunk 2 k) (by show 512 * 2 + k.val = 1024 + k.val; omega))
        (fun k v => ld_ix2 x6 1024 0 _ k v (Cert.Decoder.chunk 2 k) v (by show 512 * 2 + k.val = 1024 + k.val; omega) (by omega))
        (fun d k => ld_ix2 x4 0 1536 _ d k d (Cert.Decoder.chunk 3 k) (by omega) (by show 512 * 3 + k.val = 1536 + k.val; omega))
        (fun k => ld_ix1 x5 1536 _ k (Cert.Decoder.chunk 3 k) (by show 512 * 3 + k.val = 1536 + k.val; omega))
        (fun k v => ld_ix2 x6 1536 0 _ k v (Cert.Decoder.chunk 3 k) v (by show 512 * 3 + k.val = 1536 + k.val; omega) (by omega))
        (fun v => ld_ix1 x7 0 _ v v (by omega))
        (View.ld x2 (Rect.unit (s := S1x2x128) ![0, 0, 0] ![1, 1, 128] _))
        (FloatOps.ofBits (F := Ideal) .f32 1056964608#32) rfl
        (fun v => ld_ix3 x2 0 0 0 _ (0 : Fin 1) (0 : Fin 1) v (0 : Fin 1) (0 : Fin 2) v (by omega) (by show 0 = 0 + 0; omega) (by omega))
        u s v ⟨s.val, by omega⟩ rfl).trans (congrArg (Cert.Decoder.block x0 x1 x2 x3 x4 x5 x6 x7) he)
  · -- every row is in one of the two blocks
    have h0 : (y 0).val < 1 := (y 0).isLt
    have h1 : (y 1).val < 1024 := (y 1).isLt
    have h2 : (y 2).val < 128 := (y 2).isLt
    by_cases h : (y 1).val < 512
    · refine ⟨_, List.mem_cons_of_mem _ List.mem_cons_self, ?_⟩
      refine (Rect.mem_set_unit (inb := inb_S1x1024x128_S1x512x128_0_0_0)).mpr fun a => ?_
      match a with
      | ⟨0, _⟩ => exact ⟨Nat.zero_le _, by show (y 0).val < 0 + 1; omega⟩
      | ⟨1, _⟩ => exact ⟨Nat.zero_le _, by show (y 1).val < 0 + 512; omega⟩
      | ⟨2, _⟩ => exact ⟨Nat.zero_le _, by show (y 2).val < 0 + 128; omega⟩
    · refine ⟨_, List.mem_cons_self, ?_⟩
      refine (Rect.mem_set_unit (inb := inb_S1x1024x128_S1x512x128_0_512_0)).mpr fun a => ?_
      match a with
      | ⟨0, _⟩ => exact ⟨Nat.zero_le _, by show (y 0).val < 0 + 1; omega⟩
      | ⟨1, _⟩ => exact ⟨by show 512 ≤ (y 1).val; omega, by show (y 1).val < 512 + 512; omega⟩
      | ⟨2, _⟩ => exact ⟨Nat.zero_le _, by show (y 2).val < 0 + 128; omega⟩

end Cert.KernelIdeal.Body

end
-- ==== Proof.KernelHost.lean ====
/-
  What the kernel's region finds in the arrays its windows stage, in terms of the argument arrays: the token ids and
  the latent vectors re-laid as [16, 2, 512] (sequence `2 t + g` is row `g` of pair `t`), the grammar mask padded
  to 128 columns and re-laid as [16, 2, 128], the embedding table and the first layer's weights as given (a change of
  float format is the identity on extended reals), and the second layer's weights and bias padded to 128 columns.
-/
import proofs.«416070_j3427383902410_3_alg».proof.Proof.Gen.KernelIdeal.Frame
import proofs.«416070_j3427383902410_3_alg».proof.Proof.Decoder
import Idealize.ShloMosaic.Lib.Pipeline.Value
import Idealize.ShloMosaic.Lib.ValueLayout
import Idealize.ShloMosaic.Lib.KernelVsHost
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Host

open Cert.KernelIdeal Cert.KernelIdeal.Gen

variable (m : (ℓ : Loc nD τ sig) → Buf (Elt Ideal) ℓ) (ρ : Dev nD → PrngReg)

/-- The token ids re-laid: the array the first window stages. -/
theorem tok_arr (c : Dev nD) :
    V m c main_v23 = shapeCast S16x2x512 (m ((c.tc : Thread nD τ).loc main_arg0)) shapeCasts_S32x512_S16x2x512 := by
  dsimp only [V, V0]
  simp only [hostOps0, hostOps0_1, hostOps0_2, hostOps0_3, hostOps0_4, hostOps0_5, List.flatten_cons, List.flatten_nil, List.append_nil, List.cons_append, List.nil_append]
  after_results
  rfl

/-- Pair `t`, row `g`, position `s` of it is sequence `2 t + g`, position `s`. -/
theorem tok_at (c : Dev nD) (t : Fin 16) (g : Fin 2) (s : Fin 512) :
    (V m c main_v23 : S16x2x512.Idx → BitVec 32) (ix3 t g s)
      = (m ((c.tc : Thread nD τ).loc main_arg0)) (ix2 (⟨2 * t.val + g.val, by omega⟩ : Fin 32) s) := by
  rw [tok_arr]
  exact shapeCast_apply _ _ _ _ (by
    show ((⟨2, ![32, 512]⟩ : Shape).rowMajor (ix2 (⟨2 * t.val + g.val, by omega⟩ : Fin 32) s)).val
      = ((⟨3, ![16, 2, 512]⟩ : Shape).rowMajor (ix3 t g s)).val
    rw [Shape.rowMajor_val_two, Shape.rowMajor_val_three]
    show (2 * t.val + g.val) * 512 + s.val = (t.val * 2 + g.val) * 512 + s.val
    omega)

/-- The latent vectors re-laid: the array the second window stages. -/
theorem z_arr (c : Dev nD) :
    V m c main_v24 = shapeCast S16x2x512 (m ((c.tc : Thread nD τ).loc main_arg1)) shapeCasts_S32x512_S16x2x512 := by
  dsimp only [V, V0]
  simp only [hostOps0, hostOps0_1, hostOps0_2, hostOps0_3, hostOps0_4, hostOps0_5, List.flatten_cons, List.flatten_nil, List.append_nil, List.cons_append, List.nil_append]
  after_results
  rfl

theorem z_at (c : Dev nD) (t : Fin 16) (g : Fin 2) (d : Fin 512) :
    (V m c main_v24 : S16x2x512.Idx → EReal) (ix3 t g d)
      = (m ((c.tc : Thread nD τ).loc main_arg1)) (ix2 (⟨2 * t.val + g.val, by omega⟩ : Fin 32) d) := by
  rw [z_arr]
  exact shapeCast_apply _ _ _ _ (by
    show ((⟨2, ![32, 512]⟩ : Shape).rowMajor (ix2 (⟨2 * t.val + g.val, by omega⟩ : Fin 32) d)).val
      = ((⟨3, ![16, 2, 512]⟩ : Shape).rowMajor (ix3 t g d)).val
    rw [Shape.rowMajor_val_two, Shape.rowMajor_val_three]
    show (2 * t.val + g.val) * 512 + d.val = (t.val * 2 + g.val) * 512 + d.val
    omega)

/-- The embedding table as the region finds it is the argument. -/
theorem emb_arr (c : Dev nD) : (V m c main_v26 : S22x512.Idx → EReal) = (m ((c.tc : Thread nD τ).loc main_arg2)) := by
  dsimp only [V, V0]
  simp only [hostOps0, hostOps0_1, hostOps0_2, hostOps0_3, hostOps0_4, hostOps0_5, List.flatten_cons, List.flatten_nil, List.append_nil, List.cons_append, List.nil_append]
  after_results
  rfl

/-- The first layer's weights as the region finds them are the argument. -/
theorem w1_arr (c : Dev nD) : (V m c main_v27 : S512x2048.Idx → EReal) = (m ((c.tc : Thread nD τ).loc main_arg3)) := by
  dsimp only [V, V0]
  simp only [hostOps0, hostOps0_1, hostOps0_2, hostOps0_3, hostOps0_4, hostOps0_5, List.flatten_cons, List.flatten_nil, List.append_nil, List.cons_append, List.nil_append]
  after_results
  rfl

/-- The second layer's weights padded with zero columns: the array the seventh window stages. -/
theorem w2_arr (c : Dev nD) :
    (V m c main_v29 : S2048x128.Idx → EReal)
      = pad S2048x128 ![0, 0] ![0, 106] ![0, 0] (m ((c.tc : Thread nD τ).loc main_arg5)) (sitofp (F := Ideal) .f32 (constantI S_ 32 0#32))
          pads_S2048x22_S2048x128_000_01060 h_S_ := by
  dsimp only [V, V0]
  simp only [hostOps0, hostOps0_1, hostOps0_2, hostOps0_3, hostOps0_4, hostOps0_5, List.flatten_cons, List.flatten_nil, List.append_nil, List.cons_append, List.nil_append]
  after_results
  rfl

/-- Its first 22 columns are the argument's. -/
theorem w2_at (c : Dev nD) (f : Fin 2048) (v : Fin 128) (hv : v.val < 22) :
    (V m c main_v29 : S2048x128.Idx → EReal) (ix2 f v) = (m ((c.tc : Thread nD τ).loc main_arg5)) (ix2 f (⟨v.val, hv⟩ : Fin 22)) := by
  rw [w2_arr]
  exact pad_apply_of_inside _ _ _ _ _ _ _ _ _ (fun a => by
    match a with
    | ⟨0, _⟩ => show f.val = 0 + f.val * (0 + 1); omega
    | ⟨1, _⟩ => show v.val = 0 + v.val * (0 + 1); omega)

/-- The second layer's bias padded with zeros: the array the eighth window stages. -/
theorem b2_arr (c : Dev nD) :
    (V m c main_v30 : S128.Idx → EReal)
      = pad S128 ![0] ![106] ![0] (m ((c.tc : Thread nD τ).loc main_arg6)) (sitofp (F := Ideal) .f32 (constantI S_ 32 0#32)) pads_S22_S128_01060 h_S_ := by
  dsimp only [V, V0]
  simp only [hostOps0, hostOps0_1, hostOps0_2, hostOps0_3, hostOps0_4, hostOps0_5, List.flatten_cons, List.flatten_nil, List.append_nil, List.cons_append, List.nil_append]
  after_results
  rfl

theorem b2_at (c : Dev nD) (v : Fin 128) (hv : v.val < 22) :
    (V m c main_v30 : S128.Idx → EReal) (ix1 v) = (m ((c.tc : Thread nD τ).loc main_arg6)) (ix1 (⟨v.val, hv⟩ : Fin 22)) := by
  rw [b2_arr]
  exact pad_apply_of_inside _ _ _ _ _ _ _ _ _ (fun a => by
    match a with
    | ⟨0, _⟩ => show v.val = 0 + v.val * (0 + 1); omega)

/-- The device's buffers after the first stretch of host operations, the one that computes the grammar mask. -/
abbrev afterMask (c : Dev nD) : Valuation τ sig (Elt Ideal) := StableHlo.after hostOps0 (fun b => m (c, b))

/-- The grammar mask [32, 22] as that stretch leaves it. -/
abbrev maskArr (c : Dev nD) : S32x22.Idx → EReal := afterMask m c (Proc.devRef .tc main_v21)

/-- The region finds every buffer as the later stretches leave it from there. -/
theorem V0_split (c : Dev nD) :
    V0 m c = StableHlo.after (List.flatten [hostOps0_1, hostOps0_2, hostOps0_3, hostOps0_4, hostOps0_5]) (afterMask m c) := by
  dsimp only [V0, afterMask]
  rw [List.flatten_cons, StableHlo.after_append]

/-- The mask padded (with the word the first stretch leaves in the padding value's buffer) to 128 columns and re-laid:
    the array the third window stages. -/
theorem mask_arr (c : Dev nD) :
    (V m c main_v25 : S16x2x128.Idx → EReal)
      = shapeCast S16x2x128 (pad S32x128 ![0, 0] ![0, 106] ![0, 0] (maskArr m c)
          (sitofp (F := Ideal) .f32 (afterMask m c (Proc.devRef .tc main_c_5) : IVec S_ 32))
          pads_S32x22_S32x128_000_01060 h_S_) shapeCasts_S32x128_S16x2x128 := by
  dsimp only [maskArr, V]
  rw [V0_split]
  generalize afterMask m c = W
  simp only [hostOps0_1, hostOps0_2, hostOps0_3, hostOps0_4, hostOps0_5, List.flatten_cons, List.flatten_nil, List.append_nil, List.cons_append, List.nil_append]
  after_results
  rfl

/-- Pair `t`, row `g`, column `v < 22` of it is the mask of sequence `2 t + g` at `v`. -/
theorem mask_at (c : Dev nD) (t : Fin 16) (g : Fin 2) (v : Fin 128) (hv : v.val < 22) :
    (V m c main_v25 : S16x2x128.Idx → EReal) (ix3 t g v)
      = maskArr m c (ix2 (⟨2 * t.val + g.val, by omega⟩ : Fin 32) (⟨v.val, hv⟩ : Fin 22)) := by
  rw [mask_arr]
  refine (shapeCast_apply _ _ _ (ix2 (⟨2 * t.val + g.val, by omega⟩ : Fin 32) v) (by
    show ((⟨2, ![32, 128]⟩ : Shape).rowMajor (ix2 (⟨2 * t.val + g.val, by omega⟩ : Fin 32) v)).val
      = ((⟨3, ![16, 2, 128]⟩ : Shape).rowMajor (ix3 t g v)).val
    rw [Shape.rowMajor_val_two, Shape.rowMajor_val_three]
    show (2 * t.val + g.val) * 128 + v.val = (t.val * 2 + g.val) * 128 + v.val
    omega)).trans ?_
  exact pad_apply_of_inside _ _ _ _ _ _ _ _ _ (fun a => by
    match a with
    | ⟨0, _⟩ => show 2 * t.val + g.val = 0 + (2 * t.val + g.val) * (0 + 1); omega
    | ⟨1, _⟩ => show v.val = 0 + v.val * (0 + 1); omega)

end Cert.KernelIdeal.Host

end
-- ==== Proof.KernelArray.lean ====
/-
  The kernel's result array. Every grid point `t` writes back its block [1, 1024, 128] of the output [16, 1024, 128],
  and the sixteen blocks tile it, so the output ends as ONE function of the staged arrays (`padded`): row `r` of
  pair `t` is sequence `r / 512` of the pair at position `r % 512`. The two host operations after the region re-lay
  it as [32, 512, 128] and keep the first 22 columns; read through what the region found in its arrays
  (the re-laid ids and latent vectors, the padded weights, bias and mask), that is the decoder's `result` of the
  argument arrays, each position selecting the embedding row of its clamped token id.
-/
import proofs.«416070_j3427383902410_3_alg».proof.Proof.Gen.KernelIdeal.Frame
import proofs.«416070_j3427383902410_3_alg».proof.Proof.Decoder
import proofs.«416070_j3427383902410_3_alg».proof.Proof.KernelBody
import proofs.«416070_j3427383902410_3_alg».proof.Proof.KernelHost
import Idealize.ShloMosaic.Lib.Pipeline.Value
import Idealize.ShloMosaic.Lib.ValueLayout
import Idealize.ShloMosaic.Lib.KernelVsHost
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Array

open Cert.KernelIdeal Cert.KernelIdeal.Gen

variable (m : (ℓ : Loc nD τ sig) → Buf (Elt Ideal) ℓ) (ρ : Dev nD → PrngReg)

open Cert.Decoder (row out)

theorem lt16 (t : Fin cfg0.N) : t.val < 16 := by have h := t.isLt; have hN : cfg0.N = 16 := N_0; omega

/-! ## The point's input blocks, at their literal types -/

abbrev tokB (c : Dev nD) (t : Fin cfg0.N) : Vec Ideal S1x2x512 .i32 := iblk m c 0 t
abbrev zB (c : Dev nD) (t : Fin cfg0.N) : Vec Ideal S1x2x512 .f32 := iblk m c 1 t
abbrev maskB (c : Dev nD) (t : Fin cfg0.N) : Vec Ideal S1x2x128 .f32 := iblk m c 2 t
abbrev embB (c : Dev nD) (t : Fin cfg0.N) : Vec Ideal S22x512 .bf16 := iblk m c 3 t
abbrev w1B (c : Dev nD) (t : Fin cfg0.N) : Vec Ideal S512x2048 .bf16 := iblk m c 4 t
abbrev b1B (c : Dev nD) (t : Fin cfg0.N) : Vec Ideal S2048 .f32 := iblk m c 5 t
abbrev w2B (c : Dev nD) (t : Fin cfg0.N) : Vec Ideal S2048x128 .bf16 := iblk m c 6 t
abbrev b2B (c : Dev nD) (t : Fin cfg0.N) : Vec Ideal S128 .f32 := iblk m c 7 t

/-- The printed index maps, decided over the grid: the three paired windows and the output move with the point
    along their leading axis; the weights' windows stay at block zero. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_8.index t (0 : Fin 3) = t.val ∧ win0_8.index t (1 : Fin 3) = 0 ∧ win0_8.index t (2 : Fin 3) = 0) :=
  (by decide +kernel : ∀ t : Fin grid0.N, _)

/-! ## Each block read where it sits in its array -/

theorem tokB_at (c : Dev nD) (t : Fin cfg0.N) (g : Fin 2) (s : Fin 512) :
    tokB m c t (ix3 (0 : Fin 1) g s) = (V m c main_v23 : S16x2x512.Idx → BitVec 32) (ix3 (⟨t.val, lt16 t⟩ : Fin 16) g s) := by
  show V m c main_v23 (((cfg0.win 0).blk t).view.emb (ix3 (0 : Fin 1) g s)) = _
  congr 1
  funext a; apply Fin.ext
  obtain ⟨⟨e0, e1, e2⟩, -⟩ := idx_facts t
  match a with
  | ⟨0, _⟩ => show win0_0.index t (0 : Fin 3) * 1 + 1 * 0 = t.val; omega
  | ⟨1, _⟩ => show win0_0.index t (1 : Fin 3) * 2 + 1 * g.val = g.val; omega
  | ⟨2, _⟩ => show win0_0.index t (2 : Fin 3) * 512 + 1 * s.val = s.val; omega

theorem zB_at (c : Dev nD) (t : Fin cfg0.N) (g : Fin 2) (d : Fin 512) :
    zB m c t (ix3 (0 : Fin 1) g d) = (V m c main_v24 : S16x2x512.Idx → EReal) (ix3 (⟨t.val, lt16 t⟩ : Fin 16) g d) := by
  show V m c main_v24 (((cfg0.win 1).blk t).view.emb (ix3 (0 : Fin 1) g d)) = _
  congr 1
  funext a; apply Fin.ext
  obtain ⟨-, ⟨e0, e1, e2⟩, -⟩ := idx_facts t
  match a with
  | ⟨0, _⟩ => show win0_1.index t (0 : Fin 3) * 1 + 1 * 0 = t.val; omega
  | ⟨1, _⟩ => show win0_1.index t (1 : Fin 3) * 2 + 1 * g.val = g.val; omega
  | ⟨2, _⟩ => show win0_1.index t (2 : Fin 3) * 512 + 1 * d.val = d.val; omega

theorem maskB_at (c : Dev nD) (t : Fin cfg0.N) (g : Fin 2) (v : Fin 128) :
    maskB m c t (ix3 (0 : Fin 1) g v) = (V m c main_v25 : S16x2x128.Idx → EReal) (ix3 (⟨t.val, lt16 t⟩ : Fin 16) g v) := by
  show V m c main_v25 (((cfg0.win 2).blk t).view.emb (ix3 (0 : Fin 1) g v)) = _
  congr 1
  funext a; apply Fin.ext
  obtain ⟨-, -, ⟨e0, e1, e2⟩, -⟩ := idx_facts t
  match a with
  | ⟨0, _⟩ => show win0_2.index t (0 : Fin 3) * 1 + 1 * 0 = t.val; omega
  | ⟨1, _⟩ => show win0_2.index t (1 : Fin 3) * 2 + 1 * g.val = g.val; omega
  | ⟨2, _⟩ => show win0_2.index t (2 : Fin 3) * 128 + 1 * v.val = v.val; omega

theorem embB_at (c : Dev nD) (t : Fin cfg0.N) (q : Fin 22) (d : Fin 512) :
    embB m c t (ix2 q d) = (V m c main_v26 : S22x512.Idx → EReal) (ix2 q d) := by
  show V m c main_v26 (((cfg0.win 3).blk t).view.emb (ix2 q d)) = _
  congr 1
  funext a; apply Fin.ext
  obtain ⟨-, -, -, ⟨e0, e1⟩, -⟩ := idx_facts t
  match a with
  | ⟨0, _⟩ => show win0_3.index t (0 : Fin 2) * 22 + 1 * q.val = q.val; omega
  | ⟨1, _⟩ => show win0_3.index t (1 : Fin 2) * 512 + 1 * d.val = d.val; omega

theorem w1B_at (c : Dev nD) (t : Fin cfg0.N) (d : Fin 512) (f : Fin 2048) :
    w1B m c t (ix2 d f) = (V m c main_v27 : S512x2048.Idx → EReal) (ix2 d f) := by
  show V m c main_v27 (((cfg0.win 4).blk t).view.emb (ix2 d f)) = _
  congr 1
  funext a; apply Fin.ext
  obtain ⟨-, -, -, -, ⟨e0, e1⟩, -⟩ := idx_facts t
  match a with
  | ⟨0, _⟩ => show win0_4.index t (0 : Fin 2) * 512 + 1 * d.val = d.val; omega
  | ⟨1, _⟩ => show win0_4.index t (1 : Fin 2) * 2048 + 1 * f.val = f.val; omega

theorem b1B_at (c : Dev nD) (t : Fin cfg0.N) (f : Fin 2048) :
    b1B m c t (ix1 f) = (V m c main_arg4 : S2048.Idx → EReal) (ix1 f) := by
  show V m c main_arg4 (((cfg0.win 5).blk t).view.emb (ix1 f)) = _
  congr 1
  funext a; apply Fin.ext
  obtain ⟨-, -, -, -, -, e0, -⟩ := idx_facts t
  match a with
  | ⟨0, _⟩ => show win0_5.index t (0 : Fin 1) * 2048 + 1 * f.val = f.val; omega

theorem w2B_at (c : Dev nD) (t : Fin cfg0.N) (f : Fin 2048) (v : Fin 128) :
    w2B m c t (ix2 f v) = (V m c main_v29 : S2048x128.Idx → EReal) (ix2 f v) := by
  show V m c main_v29 (((cfg0.win 6).blk t).view.emb (ix2 f v)) = _
  congr 1
  funext a; apply Fin.ext
  obtain ⟨-, -, -, -, -, -, ⟨e0, e1⟩, -⟩ := idx_facts t
  match a with
  | ⟨0, _⟩ => show win0_6.index t (0 : Fin 2) * 2048 + 1 * f.val = f.val; omega
  | ⟨1, _⟩ => show win0_6.index t (1 : Fin 2) * 128 + 1 * v.val = v.val; omega

theorem b2B_at (c : Dev nD) (t : Fin cfg0.N) (v : Fin 128) :
    b2B m c t (ix1 v) = (V m c main_v30 : S128.Idx → EReal) (ix1 v) := by
  show V m c main_v30 (((cfg0.win 7).blk t).view.emb (ix1 v)) = _
  congr 1
  funext a; apply Fin.ext
  obtain ⟨-, -, -, -, -, -, -, e0, -⟩ := idx_facts t
  match a with
  | ⟨0, _⟩ => show win0_7.index t (0 : Fin 1) * 128 + 1 * v.val = v.val; omega

/-! ## The output array as one function of the staged arrays -/

/-- Entry (pair `t`, row `r`, column `v`) of the output: the decoder's `out` for sequence `r / 512` of the pair at
    position `r % 512`, over the arrays as the region finds them. -/
def paddedAt (c : Dev nD) (t : Fin 16) (r : Fin 1024) (v : Fin 128) : EReal :=
  out (fun (g : Fin 2) (s : Fin 512) => row ((V m c main_v23 : S16x2x512.Idx → BitVec 32) (ix3 t g s)))
    (fun g d => (V m c main_v24 : S16x2x512.Idx → EReal) (ix3 t g d))
    (fun q d => (V m c main_v26 : S22x512.Idx → EReal) (ix2 q d))
    (fun d f => (V m c main_v27 : S512x2048.Idx → EReal) (ix2 d f))
    (fun f => (V m c main_arg4 : S2048.Idx → EReal) (ix1 f))
    (fun f v => (V m c main_v29 : S2048x128.Idx → EReal) (ix2 f v))
    (fun v => (V m c main_v30 : S128.Idx → EReal) (ix1 v))
    (fun g v => (V m c main_v25 : S16x2x128.Idx → EReal) (ix3 t g v))
    (⟨r.val / 512, by have := r.isLt; omega⟩ : Fin 2) (⟨r.val % 512, Nat.mod_lt _ (by decide)⟩ : Fin 512) v

/-- The output array [16, 1024, 128]. -/
def padded (c : Dev nD) : S16x1024x128.Idx → EReal := fun i =>
  paddedAt m c (⟨(i 0).val, (i 0).isLt⟩ : Fin 16) (⟨(i 1).val, (i 1).isLt⟩ : Fin 1024) (⟨(i 2).val, (i 2).isLt⟩ : Fin 128)

/-- WHAT POINT `t` WRITES BACK is block `t` of `padded`. -/
theorem flushed_eq (c : Dev nD) (t : Fin cfg0.N) :
    (dats m 0 c).flushed 8 t = ((cfg0.win 8).blk t).view.read (Elt Ideal) (padded m c) := by
  show (cfg0.win 8).cut (grid0.coords t) ((dats m 0 c).after 8 t) = _
  rw [after0_8]
  unfold outsAt0
  refine (Cert.KernelIdeal.Body.out_eq_block c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) (ms0_8 t) (hs0_8 t)
    (tokB m c t) (zB m c t) (maskB m c t) (embB m c t) (w1B m c t) (b1B m c t) (w2B m c t) (b2B m c t)).trans ?_
  funext j
  obtain ⟨-, -, -, -, -, -, -, -, ⟨e0, e1, e2⟩⟩ := idx_facts t
  have hj0 : (j 0).val = 0 := by have h : (j 0).val < 1 := (j 0).isLt; omega
  have hj1 : (j 1).val < 1024 := (j 1).isLt
  have hj2 : (j 2).val < 128 := (j 2).isLt
  have h0 : ((((cfg0.win 8).blk t).view.emb j) 0).val = t.val := by
    show win0_8.index t (0 : Fin 3) * 1 + 1 * (j 0).val = t.val; omega
  have h1 : ((((cfg0.win 8).blk t).view.emb j) 1).val = (j 1).val := by
    show win0_8.index t (1 : Fin 3) * 1024 + 1 * (j 1).val = (j 1).val; omega
  have h2 : ((((cfg0.win 8).blk t).view.emb j) 2).val = (j 2).val := by
    show win0_8.index t (2 : Fin 3) * 128 + 1 * (j 2).val = (j 2).val; omega
  have hemb : ((cfg0.win 8).blk t).view.emb j
      = ix3 (⟨t.val, lt16 t⟩ : Fin 16) (⟨(j 1).val, hj1⟩ : Fin 1024) (⟨(j 2).val, hj2⟩ : Fin 128) := by
    funext a; apply Fin.ext
    match a with
    | ⟨0, _⟩ => exact h0
    | ⟨1, _⟩ => exact h1
    | ⟨2, _⟩ => exact h2
  show Cert.Decoder.block (tokB m c t) (zB m c t) (maskB m c t) (embB m c t) (w1B m c t) (b1B m c t) (w2B m c t) (b2B m c t) j
    = padded m c (((cfg0.win 8).blk t).view.emb j)
  rw [hemb]
  show _ = paddedAt m c (⟨t.val, lt16 t⟩ : Fin 16) (⟨(j 1).val, hj1⟩ : Fin 1024) (⟨(j 2).val, hj2⟩ : Fin 128)
  unfold Cert.Decoder.block paddedAt
  exact Cert.Decoder.out_congr (congrArg row (tokB_at m c t _ _)) (fun d => zB_at m c t _ d) (fun q d => embB_at m c t q d)
    (fun d f => w1B_at m c t d f) (fun f => b1B_at m c t f) (fun f => w2B_at m c t f _) (b2B_at m c t _) (maskB_at m c t _ _)

/-- An index of the output is in point `t`'s block iff each coordinate is in the block's range on its axis. -/
theorem mem_blk (t : Fin cfg0.N) (i : S16x1024x128.Idx) :
    i ∈ ((cfg0.win 8).blk t).view.set ↔ ∀ a : Fin 3, win0_8.index t a * S1x1024x128.size a ≤ (i a).val
      ∧ (i a).val < win0_8.index t a * S1x1024x128.size a + S1x1024x128.size a := by
  show i ∈ ((View.whole main_v31).slice (win0_8.rect t)).set ↔ _
  rw [View.set_slice_whole, Rect.mem_set_unit]
  exact Iff.rfl

/-- THE ARRAY after the run: the sixteen blocks tile it, so it is `padded`. -/
theorem final (c : Dev nD) : (dats m 0 c).arrAt 8 cfg0.N = padded m c :=
  (dats m 0 c).arrAt_eq_of_cover 8 (padded m c) (fun t _ => flushed_eq m c t) fun i => by
    have hi0 : (i 0).val < 16 := (i 0).isLt
    have hi1 : (i 1).val < 1024 := (i 1).isLt
    have hi2 : (i 2).val < 128 := (i 2).isLt
    have hN : cfg0.N = 16 := N_0
    refine ⟨⟨(i 0).val, by omega⟩, flush0_8 _, ?_⟩
    rw [mem_blk]
    obtain ⟨-, -, -, -, -, -, -, -, ⟨e0, e1, e2⟩⟩ := idx_facts (⟨(i 0).val, by omega⟩ : Fin cfg0.N)
    intro a
    match a with
    | ⟨0, _⟩ =>
      show win0_8.index _ (0 : Fin 3) * 1 ≤ (i 0).val ∧ (i 0).val < win0_8.index _ (0 : Fin 3) * 1 + 1
      rw [e0]; show (i 0).val * 1 ≤ (i 0).val ∧ (i 0).val < (i 0).val * 1 + 1; omega
    | ⟨1, _⟩ =>
      show win0_8.index _ (1 : Fin 3) * 1024 ≤ (i 1).val ∧ (i 1).val < win0_8.index _ (1 : Fin 3) * 1024 + 1024
      rw [e1]; omega
    | ⟨2, _⟩ =>
      show win0_8.index _ (2 : Fin 3) * 128 ≤ (i 2).val ∧ (i 2).val < win0_8.index _ (2 : Fin 3) * 128 + 128
      rw [e2]; omega

end Cert.KernelIdeal.Array

end
-- ==== Proof.KernelResult.lean ====
/-
  The kernel's run, read: the result buffer [32, 512, 22] ends at the decoder's `result` of the argument arrays, each
  position selecting the embedding row of its clamped token id, with the grammar mask the host operations before the
  region computed; the argument arrays end unchanged.
-/
import proofs.«416070_j3427383902410_3_alg».proof.Proof.Gen.KernelIdeal.Frame
import proofs.«416070_j3427383902410_3_alg».proof.Proof.Decoder
import proofs.«416070_j3427383902410_3_alg».proof.Proof.KernelArray
import Idealize.ShloMosaic.Lib.Pipeline.Value
import Idealize.ShloMosaic.Lib.ValueLayout
import Idealize.ShloMosaic.Lib.KernelVsHost
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

open Cert.Decoder (row out)
open Cert.KernelIdeal.Array Cert.KernelIdeal.Host

/-- The two host operations after the region re-lay the output as [32, 512, 128] and keep the first 22 columns. -/
theorem tail_eq (c : Dev nD) :
    (Pipeline.afterTail₀ cfgs (dats m) 0 (V0 m) [hostOps1] c main_v33 : S32x512x22.Idx → EReal)
      = extractStridedSlice S32x512x22 ![0, 0, 0]
          (shapeCast S32x512x128 (padded m c) shapeCasts_S16x1024x128_S32x512x128) slices_S32x512x128_S32x512x22_0_0_0 := by
  unfold Pipeline.afterTail₀
  show StableHlo.after hostOps1 _ (Proc.devRef .tc main_v33) = _
  after_results
  rw [show Pipeline.withArrays (cfgs 0).spec c (V0 m c) (fun w => (dats m 0 c).arrAt w (cfgs 0).N) (Proc.devRef .tc main_v31)
      = padded m c from (Pipeline.withArrays_arr spec0 launch0.win.arr_inj c _ _ 8).trans (final m c)]
  rfl

/-- The kept part read at an index: sequence `b` is row `b % 2` of pair `b / 2`, and through what the region found in
    its arrays the entry is the decoder's `out` of the argument arrays. -/
theorem result_at (c : Dev nD) (b : Fin 32) (s : Fin 512) (v : Fin 22) :
    extractStridedSlice S32x512x22 ![0, 0, 0]
        (shapeCast S32x512x128 (padded m c) shapeCasts_S16x1024x128_S32x512x128) slices_S32x512x128_S32x512x22_0_0_0 (ix3 b s v)
      = Cert.Decoder.result (fun i => row ((m ((c.tc : Thread nD τ).loc main_arg0)) i)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (maskArr m c) (ix3 b s v) := by
  have hb := b.isLt
  have hs := s.isLt
  have hv := v.isLt
  refine (extractStridedSlice_apply _ _ _ _ (ix3 b s (⟨v.val, by omega⟩ : Fin 128)) (fun a => by
    match a with
    | ⟨0, _⟩ => show b.val = 0 + b.val; omega
    | ⟨1, _⟩ => show s.val = 0 + s.val; omega
    | ⟨2, _⟩ => show v.val = 0 + v.val; omega)).trans ?_
  refine (shapeCast_apply _ _ _ (ix3 (⟨b.val / 2, by omega⟩ : Fin 16) (⟨(b.val % 2) * 512 + s.val, by omega⟩ : Fin 1024)
      (⟨v.val, by omega⟩ : Fin 128)) (by
    show ((⟨3, ![16, 1024, 128]⟩ : Shape).rowMajor _).val = ((⟨3, ![32, 512, 128]⟩ : Shape).rowMajor _).val
    rw [Shape.rowMajor_val_three, Shape.rowMajor_val_three]
    show ((b.val / 2) * 1024 + ((b.val % 2) * 512 + s.val)) * 128 + v.val = (b.val * 512 + s.val) * 128 + v.val
    omega)).trans ?_
  show paddedAt m c (⟨b.val / 2, by omega⟩ : Fin 16) (⟨(b.val % 2) * 512 + s.val, by omega⟩ : Fin 1024) (⟨v.val, by omega⟩ : Fin 128) = _
  have hrow : (⟨2 * (b.val / 2) + ((b.val % 2) * 512 + s.val) / 512, by omega⟩ : Fin 32) = b := Fin.ext (by show 2 * (b.val / 2) + ((b.val % 2) * 512 + s.val) / 512 = b.val; omega)
  have hpos : (⟨((b.val % 2) * 512 + s.val) % 512, Nat.mod_lt _ (by decide)⟩ : Fin 512) = s := Fin.ext (by show ((b.val % 2) * 512 + s.val) % 512 = s.val; omega)
  unfold paddedAt Cert.Decoder.result
  refine Cert.Decoder.out_congr ?_ ?_ ?_ ?_ ?_ ?_ ?_ ?_
  · show row _ = row _
    rw [tok_at]
    show row ((m ((c.tc : Thread nD τ).loc main_arg0)) (ix2 (⟨2 * (b.val / 2) + ((b.val % 2) * 512 + s.val) / 512, _⟩ : Fin 32) (⟨((b.val % 2) * 512 + s.val) % 512, _⟩ : Fin 512))) = _
    rw [hrow, hpos]
  · intro d
    show (V m c main_v24 : S16x2x512.Idx → EReal) (ix3 _ _ d) = _
    rw [z_at]
    show (m ((c.tc : Thread nD τ).loc main_arg1)) (ix2 (⟨2 * (b.val / 2) + ((b.val % 2) * 512 + s.val) / 512, _⟩ : Fin 32) d) = _
    rw [hrow]
  · intro q d; exact congrFun (emb_arr m c) _
  · intro d f; exact congrFun (w1_arr m c) _
  · intro f; exact congrFun (V_main_arg4 m c) _
  · intro f; exact w2_at m c f _ hv
  · exact b2_at m c _ hv
  · show (V m c main_v25 : S16x2x128.Idx → EReal) (ix3 _ _ _) = _
    rw [mask_at m c _ _ _ hv]
    show maskArr m c (ix2 (⟨2 * (b.val / 2) + ((b.val % 2) * 512 + s.val) / 512, _⟩ : Fin 32) (⟨v.val, _⟩ : Fin 22)) = _
    rw [hrow]

/-- The frame run re-posted: the result buffer at the decoder's result of the arguments, the arguments unchanged. -/
theorem run_value : θ_run defs (onTc (τ := τ) (main (F := Ideal))) ⟨m, fun _ => 0, ρ⟩ fun r => ∀ c : Dev nD,
      r.2.mem ((c.tc : Thread nD τ).loc main_v33) = Cert.Decoder.result (fun i => row ((m ((c.tc : Thread nD τ).loc main_arg0)) i)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (maskArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨
      (((h c).2 main_v33 (Pipeline.mem_restRefs_of main_v33 (by decide) (by decide))).trans (tail_eq m c)).trans
        (funext fun j => by
          obtain ⟨b, s, v, rfl⟩ : ∃ (b : Fin 32) (s : Fin 512) (v : Fin 22), j = ix3 b s v := ⟨j 0, j 1, j 2, eq_ix3 j⟩
          exact result_at m c b s v),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 5).trans (((dats m 0 c).arrAt_in 5 rfl _).trans ((A_eq m c 5).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Result

end
-- ==== Proof.RefOps.lean ====
import proofs.«416070_j3427383902410_3_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The reference's host operations, in order. -/
abbrev ops : List (HloOp τ sig (Elt F)) :=
  [ StableHlo.nullary main_cst (fun i => FloatOps.ofBits .f32 (lit0 (S22.rowMajor i))),
    StableHlo.nullary main_cst_0 (fun i => FloatOps.ofBits .f32 (lit1 (S22.rowMajor i))),
    StableHlo.nullary main_cst_1 (fun i => FloatOps.ofBits .f32 (lit2 (S22.rowMajor i))),
    StableHlo.nullary main_c (constantI S_ 32 0#32),
    StableHlo.unary main_c main_v0 (broadcastInDim S32x512 ![] bcast_S_S32x512 : (⟨S_, .i32⟩ : BufTy).Contents (Elt F) → (⟨S32x512, .i32⟩ : BufTy).Contents (Elt F)),
    StableHlo.binary main_arg0 main_v0 main_v1 (cmpi .slt : (⟨S32x512, .i32⟩ : BufTy).Contents (Elt F) → (⟨S32x512, .i32⟩ : BufTy).Contents (Elt F) → (⟨S32x512, .i1⟩ : BufTy).Contents (Elt F)),
    StableHlo.nullary main_c_2 (constantI S_ 32 22#32),
    StableHlo.unary main_c_2 main_v2 (broadcastInDim S32x512 ![] bcast_S_S32x512 : (⟨S_, .i32⟩ : BufTy).Contents (Elt F) → (⟨S32x512, .i32⟩ : BufTy).Contents (Elt F)),
    StableHlo.binary main_arg0 main_v2 main_v3 (addi : (⟨S32x512, .i32⟩ : BufTy).Contents (Elt F) → (⟨S32x512, .i32⟩ : BufTy).Contents (Elt F) → (⟨S32x512, .i32⟩ : BufTy).Contents (Elt F)),
    StableHlo.ternary main_v1 main_v3 main_arg0 main_v4 (select : (⟨S32x512, .i1⟩ : BufTy).Contents (Elt F) → (⟨S32x512, .i32⟩ : BufTy).Contents (Elt F) → (⟨S32x512, .i32⟩ : BufTy).Contents (Elt F) → (⟨S32x512, .i32⟩ : BufTy).Contents (Elt F)),
    StableHlo.unary main_v4 main_v5 (broadcastInDim S32x512x1 ![0, 1] bcast_S32x512_S32x512x1_0_1 : (⟨S32x512, .i32⟩ : BufTy).Contents (Elt F) → (⟨S32x512x1, .i32⟩ : BufTy).Contents (Elt F)),
    StableHlo.binary main_arg2 main_v5 main_v6 ((fun x i => Host.gather gather_S22x512_S32x512x1_S32x512x512_2_0_n_n_0_2_1512 x i) : (⟨S22x512, .f32⟩ : BufTy).Contents (Elt F) → (⟨S32x512x1, .i32⟩ : BufTy).Contents (Elt F) → (⟨S32x512x512, .f32⟩ : BufTy).Contents (Elt F)),
    StableHlo.unary main_arg1 main_v7 (broadcastInDim S32x1x512 ![0, 2] bcast_S32x512_S32x1x512_0_2 : (⟨S32x512, .f32⟩ : BufTy).Contents (Elt F) → (⟨S32x1x512, .f32⟩ : BufTy).Contents (Elt F)),
    StableHlo.unary main_v7 main_v8 (broadcastInDim S32x512x512 ![0, 1, 2] bcast_S32x1x512_S32x512x512_0_1_2 : (⟨S32x1x512, .f32⟩ : BufTy).Contents (Elt F) → (⟨S32x512x512, .f32⟩ : BufTy).Contents (Elt F)),
    StableHlo.binary main_v6 main_v8 main_v9 (addf : (⟨S32x512x512, .f32⟩ : BufTy).Contents (Elt F) → (⟨S32x512x512, .f32⟩ : BufTy).Contents (Elt F) → (⟨S32x512x512, .f32⟩ : BufTy).Contents (Elt F)),
    StableHlo.binary main_v9 main_arg3 main_v10 ((fun l r => Host.dotGeneral dot_S32x512x512_S512x2048_S32x512x2048_2_0_01_1_n_n none l r) : (⟨S32x512x512, .f32⟩ : BufTy).Contents (Elt F) → (⟨S512x2048, .f32⟩ : BufTy).Contents (Elt F) → (⟨S32x512x2048, .f32⟩ : BufTy).Contents (Elt F)),
    StableHlo.unary main_arg4 main_v11 (broadcastInDim S1x1x2048 ![2] bcast_S2048_S1x1x2048_2 : (⟨S2048, .f32⟩ : BufTy).Contents (Elt F) → (⟨S1x1x2048, .f32⟩ : BufTy).Contents (Elt F)),
    StableHlo.unary main_v11 main_v12 (broadcastInDim S32x512x2048 ![0, 1, 2] bcast_S1x1x2048_S32x512x2048_0_1_2 : (⟨S1x1x2048, .f32⟩ : BufTy).Contents (Elt F) → (⟨S32x512x2048, .f32⟩ : BufTy).Contents (Elt F)),
    StableHlo.binary main_v10 main_v12 main_v13 (addf : (⟨S32x512x2048, .f32⟩ : BufTy).Contents (Elt F) → (⟨S32x512x2048, .f32⟩ : BufTy).Contents (Elt F) → (⟨S32x512x2048, .f32⟩ : BufTy).Contents (Elt F)),
    StableHlo.TRef.nullary main_call0.cst (constant S_ .f32 0x00000000#32),
    StableHlo.TRef.unary main_call0.cst main_call0.v0 (broadcastInDim S32x512x2048 ![] bcast_S_S32x512x2048),
    StableHlo.TRef.binary (.of main_v13 : StableHlo.TRef sig ⟨S32x512x2048, .f32⟩) main_call0.v0 main_call0.v1 maximumf,
    StableHlo.binary main_v14 main_arg5 main_v15 ((fun l r => Host.dotGeneral dot_S32x512x2048_S2048x22_S32x512x22_2_0_01_1_n_n none l r) : (⟨S32x512x2048, .f32⟩ : BufTy).Contents (Elt F) → (⟨S2048x22, .f32⟩ : BufTy).Contents (Elt F) → (⟨S32x512x22, .f32⟩ : BufTy).Contents (Elt F)),
    StableHlo.unary main_arg6 main_v16 (broadcastInDim S1x1x22 ![2] bcast_S22_S1x1x22_2 : (⟨S22, .f32⟩ : BufTy).Contents (Elt F) → (⟨S1x1x22, .f32⟩ : BufTy).Contents (Elt F)),
    StableHlo.unary main_v16 main_v17 (broadcastInDim S32x512x22 ![0, 1, 2] bcast_S1x1x22_S32x512x22_0_1_2 : (⟨S1x1x22, .f32⟩ : BufTy).Contents (Elt F) → (⟨S32x512x22, .f32⟩ : BufTy).Contents (Elt F)),
    StableHlo.binary main_v15 main_v17 main_v18 (addf : (⟨S32x512x22, .f32⟩ : BufTy).Contents (Elt F) → (⟨S32x512x22, .f32⟩ : BufTy).Contents (Elt F) → (⟨S32x512x22, .f32⟩ : BufTy).Contents (Elt F)),
    StableHlo.unary main_arg0 main_v19 ((extractStridedSlice S32x511 ![0, 0] · slices_S32x512_S32x511_0_0) : (⟨S32x512, .i32⟩ : BufTy).Contents (Elt F) → (⟨S32x511, .i32⟩ : BufTy).Contents (Elt F)),
    StableHlo.nullary main_c_3 (constantI S_ 32 0#32),
    StableHlo.unary main_c_3 main_v20 (broadcastInDim S32x511 ![] bcast_S_S32x511 : (⟨S_, .i32⟩ : BufTy).Contents (Elt F) → (⟨S32x511, .i32⟩ : BufTy).Contents (Elt F)),
    StableHlo.binary main_v19 main_v20 main_v21 (cmpi .slt : (⟨S32x511, .i32⟩ : BufTy).Contents (Elt F) → (⟨S32x511, .i32⟩ : BufTy).Contents (Elt F) → (⟨S32x511, .i1⟩ : BufTy).Contents (Elt F)),
    StableHlo.nullary main_c_4 (constantI S_ 32 22#32),
    StableHlo.unary main_c_4 main_v22 (broadcastInDim S32x511 ![] bcast_S_S32x511 : (⟨S_, .i32⟩ : BufTy).Contents (Elt F) → (⟨S32x511, .i32⟩ : BufTy).Contents (Elt F)),
    StableHlo.binary main_v19 main_v22 main_v23 (addi : (⟨S32x511, .i32⟩ : BufTy).Contents (Elt F) → (⟨S32x511, .i32⟩ : BufTy).Contents (Elt F) → (⟨S32x511, .i32⟩ : BufTy).Contents (Elt F)),
    StableHlo.ternary main_v21 main_v23 main_v19 main_v24 (select : (⟨S32x511, .i1⟩ : BufTy).Contents (Elt F) → (⟨S32x511, .i32⟩ : BufTy).Contents (Elt F) → (⟨S32x511, .i32⟩ : BufTy).Contents (Elt F) → (⟨S32x511, .i32⟩ : BufTy).Contents (Elt F)),
    StableHlo.unary main_v24 main_v25 (broadcastInDim S32x511x1 ![0, 1] bcast_S32x511_S32x511x1_0_1 : (⟨S32x511, .i32⟩ : BufTy).Contents (Elt F) → (⟨S32x511x1, .i32⟩ : BufTy).Contents (Elt F)),
    StableHlo.binary main_cst main_v25 main_v26 ((fun x i => Host.gather gather_S22_S32x511x1_S32x511_n_0_n_n_0_2_1 x i) : (⟨S22, .f32⟩ : BufTy).Contents (Elt F) → (⟨S32x511x1, .i32⟩ : BufTy).Contents (Elt F) → (⟨S32x511, .f32⟩ : BufTy).Contents (Elt F)),
    StableHlo.nullary main_cst_5 (constant S_ .f32 0x00000000#32),
    StableHlo.binary main_v26 main_cst_5 main_v27 ((fun x v => Host.reduceAdd x v reducesTo_S32x511_S32_d1 h_S_) : (⟨S32x511, .f32⟩ : BufTy).Contents (Elt F) → (⟨S_, .f32⟩ : BufTy).Contents (Elt F) → (⟨S32, .f32⟩ : BufTy).Contents (Elt F)),
    StableHlo.nullary main_cst_6 (constant S_ .f32 0x43FF8000#32),
    StableHlo.unary main_cst_6 main_v28 (broadcastInDim S32 ![] bcast_S_S32 : (⟨S_, .f32⟩ : BufTy).Contents (Elt F) → (⟨S32, .f32⟩ : BufTy).Contents (Elt F)),
    StableHlo.binary main_v28 main_v27 main_v29 (subf : (⟨S32, .f32⟩ : BufTy).Contents (Elt F) → (⟨S32, .f32⟩ : BufTy).Contents (Elt F) → (⟨S32, .f32⟩ : BufTy).Contents (Elt F)),
    StableHlo.unary main_v27 main_v30 (broadcastInDim S32x1 ![0] bcast_S32_S32x1_0 : (⟨S32, .f32⟩ : BufTy).Contents (Elt F) → (⟨S32x1, .f32⟩ : BufTy).Contents (Elt F)),
    StableHlo.unary main_cst_0 main_v31 (broadcastInDim S1x22 ![1] bcast_S22_S1x22_1 : (⟨S22, .f32⟩ : BufTy).Contents (Elt F) → (⟨S1x22, .f32⟩ : BufTy).Contents (Elt F)),
    StableHlo.unary main_v30 main_v32 (broadcastInDim S32x22 ![0, 1] bcast_S32x1_S32x22_0_1 : (⟨S32x1, .f32⟩ : BufTy).Contents (Elt F) → (⟨S32x22, .f32⟩ : BufTy).Contents (Elt F)),
    StableHlo.unary main_v31 main_v33 (broadcastInDim S32x22 ![0, 1] bcast_S1x22_S32x22_0_1 : (⟨S1x22, .f32⟩ : BufTy).Contents (Elt F) → (⟨S32x22, .f32⟩ : BufTy).Contents (Elt F)),
    StableHlo.binary main_v32 main_v33 main_v34 (mulf : (⟨S32x22, .f32⟩ : BufTy).Contents (Elt F) → (⟨S32x22, .f32⟩ : BufTy).Contents (Elt F) → (⟨S32x22, .f32⟩ : BufTy).Contents (Elt F)),
    StableHlo.unary main_v29 main_v35 (broadcastInDim S32x1 ![0] bcast_S32_S32x1_0 : (⟨S32, .f32⟩ : BufTy).Contents (Elt F) → (⟨S32x1, .f32⟩ : BufTy).Contents (Elt F)),
    StableHlo.unary main_cst_1 main_v36 (broadcastInDim S1x22 ![1] bcast_S22_S1x22_1 : (⟨S22, .f32⟩ : BufTy).Contents (Elt F) → (⟨S1x22, .f32⟩ : BufTy).Contents (Elt F)),
    StableHlo.unary main_v35 main_v37 (broadcastInDim S32x22 ![0, 1] bcast_S32x1_S32x22_0_1 : (⟨S32x1, .f32⟩ : BufTy).Contents (Elt F) → (⟨S32x22, .f32⟩ : BufTy).Contents (Elt F)),
    StableHlo.unary main_v36 main_v38 (broadcastInDim S32x22 ![0, 1] bcast_S1x22_S32x22_0_1 : (⟨S1x22, .f32⟩ : BufTy).Contents (Elt F) → (⟨S32x22, .f32⟩ : BufTy).Contents (Elt F)),
    StableHlo.binary main_v37 main_v38 main_v39 (mulf : (⟨S32x22, .f32⟩ : BufTy).Contents (Elt F) → (⟨S32x22, .f32⟩ : BufTy).Contents (Elt F) → (⟨S32x22, .f32⟩ : BufTy).Contents (Elt F)),
    StableHlo.binary main_v34 main_v39 main_v40 (addf : (⟨S32x22, .f32⟩ : BufTy).Contents (Elt F) → (⟨S32x22, .f32⟩ : BufTy).Contents (Elt F) → (⟨S32x22, .f32⟩ : BufTy).Contents (Elt F)),
    StableHlo.unary main_v40 main_v41 (broadcastInDim S32x1x22 ![0, 2] bcast_S32x22_S32x1x22_0_2 : (⟨S32x22, .f32⟩ : BufTy).Contents (Elt F) → (⟨S32x1x22, .f32⟩ : BufTy).Contents (Elt F)),
    StableHlo.nullary main_cst_7 (constant S_ .f32 0x3F000000#32),
    StableHlo.unary main_cst_7 main_v42 (broadcastInDim S32x1x22 ![] bcast_S_S32x1x22 : (⟨S_, .f32⟩ : BufTy).Contents (Elt F) → (⟨S32x1x22, .f32⟩ : BufTy).Contents (Elt F)),
    StableHlo.binary main_v42 main_v41 main_v43 (mulf : (⟨S32x1x22, .f32⟩ : BufTy).Contents (Elt F) → (⟨S32x1x22, .f32⟩ : BufTy).Contents (Elt F) → (⟨S32x1x22, .f32⟩ : BufTy).Contents (Elt F)),
    StableHlo.unary main_v43 main_v44 (broadcastInDim S32x512x22 ![0, 1, 2] bcast_S32x1x22_S32x512x22_0_1_2 : (⟨S32x1x22, .f32⟩ : BufTy).Contents (Elt F) → (⟨S32x512x22, .f32⟩ : BufTy).Contents (Elt F)),
    StableHlo.binary main_v18 main_v44 main_v45 (subf : (⟨S32x512x22, .f32⟩ : BufTy).Contents (Elt F) → (⟨S32x512x22, .f32⟩ : BufTy).Contents (Elt F) → (⟨S32x512x22, .f32⟩ : BufTy).Contents (Elt F)) ]

/-- Each touches TensorCore references only. -/
theorem ops_sub : (ops : List (HloOp τ sig (Elt F))).Forall fun op => op.bufs ⊆ tcRefs τ sig :=
  ⟨nullary_bufs_sub .., nullary_bufs_sub .., nullary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., binary_bufs_sub .., nullary_bufs_sub .., unary_bufs_sub .., binary_bufs_sub .., unary_bufs_sub ..,
    unary_bufs_sub .., unary_bufs_sub .., unary_bufs_sub .., binary_bufs_sub .., unary_bufs_sub .., unary_bufs_sub ..,
    unary_bufs_sub .., unary_bufs_sub .., binary_bufs_sub .., binary_bufs_sub .., unary_bufs_sub .., nullary_bufs_sub ..,
    unary_bufs_sub .., binary_bufs_sub .., unary_bufs_sub .., binary_bufs_sub ..⟩

end Cert.ReferenceIdeal.Line

end
-- ==== Proof.RefRun.lean ====
/-
  The reference program's run read back: @main is the straight line of its host operations (the list
  `Line.ops`: the gather of the embedding rows at the wrapped token ids, the latent vector's broadcast and the sum,
  the first layer and its positive part, the second layer, the grammar mask from the digit counts, and the
  difference), so every weakly fair execution terminates and every buffer ends at the fold of those operations
  over the launch contents.
-/
import proofs.«416070_j3427383902410_3_alg».proof.Proof.RefOps

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

-- fifty-eight binds re-associated: one rewrite per statement under the chain
set_option maxRecDepth 2048 in
/-- @main is that straight line once `relu`'s body stands at its call and sequencing is re-associated. -/
theorem main_eq (c : Dev nD) : main (F := F) c = seq ops := by
  simp only [main, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, and every buffer of the
    device ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.LibGatherRows.lean ====
/-
  The gather of the ROWS of a rank-2 operand at a rank-2 array of row numbers, read at an index.

  A table `x : [N, D]` read at an integer array `idx : [R, C]` of row numbers: the gather with offset axes `[2]`,
  collapsed slice axes `[0]`, start index map `[0]`, slice sizes `[1, D]` and index vector axis 2 over the row
  numbers as `[R, C, 1]`. Result element `(r, c, d)` is `x` at the row `idx[r, c, 0]`, read as a signed integer and
  clamped into `[0, N − 1]` as a gather clamps every start index, and at the column `d`. The rank-1 form (a flat
  operand, no offset axis) is the library's `gather_take_apply`; this is the same argument with one offset axis: per
  operand axis the index read is the clamped start plus the batching coordinate plus the offset coordinate, and here
  axis 0 has the start alone and axis 1 the offset alone.
-/
import Idealize.ShloMosaic.Lib.ValueIdx

noncomputable section

namespace Idealize.ShloMosaic.ValueIdx

open Idealize.ShloMosaic

section Rows
variable {α : Type}

/-- Those dimension numbers for an operand `[N, D]`, start indices `[R, C, 1]` and result `[R, C, D]`; their
    conditions `wf` are decided on a program's literal shapes. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The column axis is not the row axis. -/
private theorem one_ne_zero_fin2 : (1 : Fin 2) ≠ 0 := by decide

/-- On the operand's row axis the index read is the start index `idx[r, c, 0]`, read signed and clamped into
    `[0, N − 1]`: the axis is collapsed (no offset coordinate) and not a batching axis. -/
theorem rowsDims_operandIdx_row {N D R C w : Nat}
    (wf : GatherDims.WF ⟨2, ![N, D]⟩ ⟨3, ![R, C, 1]⟩ ⟨3, ![R, C, D]⟩ [2] [0] [] [0] [] 2 ![1, D])
    (idx : IVec ⟨3, ![R, C, 1]⟩ w) (r : Fin R) (c : Fin C) (d : Fin D) :
    ((rowsDims N D R C wf).operandIdx (ix3 r c d) idx 0).val
      = min (idx (ix3 r c (0 : Fin 1))).toInt.toNat (N - 1) := by
  show (rowsDims N D R C wf).start (ix3 r c d) idx 0 + (rowsDims N D R C wf).batchCoord (ix3 r c d) 0
    + (rowsDims N D R C wf).offCoord (ix3 r c d) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N D R C wf).startIndexMap from List.mem_singleton.mpr rfl)]
  have hsi : (rowsDims N D R C wf).siIdx (ix3 r c d) ⟨List.idxOf (0 : Fin 2) (rowsDims N D R C wf).startIndexMap,
      List.idxOf_lt_length_iff.2 (List.mem_singleton.mpr rfl)⟩ = ix3 r c (0 : Fin 1) := by
    funext b; refine Fin.ext ?_
    match b with
    | ⟨0, _⟩ => rfl
    | ⟨1, _⟩ => rfl
    | ⟨2, _⟩ => rfl
  rw [hsi]
  rfl

/-- On the operand's column axis the index read is the result's last coordinate: the start index map does not name
    the axis (start `0`), it is not a batching axis, and it is the one axis the result's offset axis reads. -/
theorem rowsDims_operandIdx_col {N D R C w : Nat}
    (wf : GatherDims.WF ⟨2, ![N, D]⟩ ⟨3, ![R, C, 1]⟩ ⟨3, ![R, C, D]⟩ [2] [0] [] [0] [] 2 ![1, D])
    (idx : IVec ⟨3, ![R, C, 1]⟩ w) (r : Fin R) (c : Fin C) (d : Fin D) :
    ((rowsDims N D R C wf).operandIdx (ix3 r c d) idx 1).val = d.val := by
  show (rowsDims N D R C wf).start (ix3 r c d) idx 1 + (rowsDims N D R C wf).batchCoord (ix3 r c d) 1
    + (rowsDims N D R C wf).offCoord (ix3 r c d) 1 = _
  rw [GatherDims.batchCoord_eq_zero _ _ _ List.not_mem_nil]
  have hs : (rowsDims N D R C wf).start (ix3 r c d) idx 1 = 0 := by
    unfold GatherDims.start
    rw [dif_neg (fun h : (1 : Fin 2) ∈ (rowsDims N D R C wf).startIndexMap => absurd (List.mem_singleton.mp h) one_ne_zero_fin2)]
  have ho : (rowsDims N D R C wf).offCoord (ix3 r c d) 1 = d.val := by
    unfold GatherDims.offCoord
    rw [dif_pos ((GatherDims.mem_sKept _ _).mpr ⟨fun h : (1 : Fin 2) ∈ (rowsDims N D R C wf).collapsedSliceDims =>
      absurd (List.mem_singleton.mp h) one_ne_zero_fin2, List.not_mem_nil⟩)]
    rfl
  rw [hs, ho]
  simp only [Nat.add_zero, Nat.zero_add]

/-- THE GATHER READ AT `(r, c, d)`: the operand at the row `idx[r, c, 0]`, read signed and clamped into
    `[0, N − 1]`, and at the column `d`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (d : Fin D) :
    Host.gather (rowsDims N D R C wf) x idx (ix3 r c d)
      = x (ix2 (⟨min (idx (ix3 r c (0 : Fin 1))).toInt.toNat (N - 1), by omega⟩ : Fin N) d) := by
  unfold Host.gather
  congr 1
  funext a
  refine Fin.ext ?_
  match a with
  | ⟨0, _⟩ => exact rowsDims_operandIdx_row wf idx r c d
  | ⟨1, _⟩ => exact rowsDims_operandIdx_col wf idx r c d

end Rows

end Idealize.ShloMosaic.ValueIdx

end
-- ==== Proof.RefValue.lean ====
/-
  What the reference's straight line leaves in its result buffer, read at the ideal instance: the array [32, 512, 22]
  is the decoder's `result` of the argument arrays, each position selecting the embedding row of its token id as jnp
  reads an index (an id below zero counts from the end of the table, then the row is clamped into the table), and the
  mask being whatever the line's own mask chain leaves in its buffer.
-/
import proofs.«416070_j3427383902410_3_alg».proof.Proof.RefRun
import proofs.«416070_j3427383902410_3_alg».proof.Proof.Decoder
import Idealize.ShloMosaic.Lib.Pipeline.Value
import Idealize.ShloMosaic.Lib.ValueLayout
import Idealize.ShloMosaic.Lib.IdealHost
import proofs.«416070_j3427383902410_3_alg».proof.Proof.LibGatherRows

noncomputable section

namespace Cert.ReferenceIdeal.Line

open Cert.ReferenceIdeal Cert.ReferenceIdeal.Gen Idealize.ShloMosaic Idealize.ShloMosaic.TcCoe Idealize.SL.Sem Idealize.ShloMosaic.StableHlo
open Idealize.ShloMosaic.ValueIdx

open scoped BigOperators

/-! ## The line's value as one term

The operations from the wrapped token ids down to the final difference, composed layer by layer: the features
`[32, 512, 512]`, the hidden units `[32, 512, 2048]`, the logits `[32, 512, 22]` and the result. -/

/-- The features: the embedding rows gathered at the wrapped token ids, plus the latent vector broadcast over the
    positions. -/
def lineFeat (tok : IVec S32x512 32) (z : FVec Ideal S32x512 .f32) (emb : FVec Ideal S22x512 .f32) :
    FVec Ideal S32x512x512 .f32 :=
  addf
    (Host.gather gather_S22x512_S32x512x1_S32x512x512_2_0_n_n_0_2_1512 emb
      (broadcastInDim S32x512x1 ![0, 1] bcast_S32x512_S32x512x1_0_1
        (select (cmpi CmpIPredicate.slt tok (broadcastInDim S32x512 ![] bcast_S_S32x512 (constantI S_ 32 0#32)))
          (addi tok (broadcastInDim S32x512 ![] bcast_S_S32x512 (constantI S_ 32 22#32))) tok)))
    (broadcastInDim S32x512x512 ![0, 1, 2] bcast_S32x1x512_S32x512x512_0_1_2
      (broadcastInDim S32x1x512 ![0, 2] bcast_S32x512_S32x1x512_0_2 z))

/-- The hidden units: the first layer's product with its bias, compared with the zero splat. -/
def lineHidden (tok : IVec S32x512 32) (z : FVec Ideal S32x512 .f32) (emb : FVec Ideal S22x512 .f32)
    (W1 : FVec Ideal S512x2048 .f32) (b1 : FVec Ideal S2048 .f32) : FVec Ideal S32x512x2048 .f32 :=
  maximumf
    (addf (Host.dotGeneral dot_S32x512x512_S512x2048_S32x512x2048_2_0_01_1_n_n none (lineFeat tok z emb) W1)
      (broadcastInDim S32x512x2048 ![0, 1, 2] bcast_S1x1x2048_S32x512x2048_0_1_2
        (broadcastInDim S1x1x2048 ![2] bcast_S2048_S1x1x2048_2 b1)))
    (broadcastInDim S32x512x2048 ![] bcast_S_S32x512x2048 (constant (F := Ideal) S_ .f32 0x00000000#32))

/-- The logits: the second layer's product with its bias. -/
def lineLogit (tok : IVec S32x512 32) (z : FVec Ideal S32x512 .f32) (emb : FVec Ideal S22x512 .f32)
    (W1 : FVec Ideal S512x2048 .f32) (b1 : FVec Ideal S2048 .f32) (W2 : FVec Ideal S2048x22 .f32)
    (b2 : FVec Ideal S22 .f32) : FVec Ideal S32x512x22 .f32 :=
  addf (Host.dotGeneral dot_S32x512x2048_S2048x22_S32x512x22_2_0_01_1_n_n none (lineHidden tok z emb W1 b1) W2)
    (broadcastInDim S32x512x22 ![0, 1, 2] bcast_S1x1x22_S32x512x22_0_1_2
      (broadcastInDim S1x1x22 ![2] bcast_S22_S1x1x22_2 b2))

/-- The result: the logits less half the mask array `M`, broadcast over the positions. -/
def lineOut (tok : IVec S32x512 32) (z : FVec Ideal S32x512 .f32) (emb : FVec Ideal S22x512 .f32)
    (W1 : FVec Ideal S512x2048 .f32) (b1 : FVec Ideal S2048 .f32) (W2 : FVec Ideal S2048x22 .f32)
    (b2 : FVec Ideal S22 .f32) (M : FVec Ideal S32x22 .f32) : FVec Ideal S32x512x22 .f32 :=
  subf (lineLogit tok z emb W1 b1 W2 b2)
    (broadcastInDim S32x512x22 ![0, 1, 2] bcast_S32x1x22_S32x512x22_0_1_2
      (mulf (broadcastInDim S32x1x22 ![] bcast_S_S32x1x22 (constant (F := Ideal) S_ .f32 0x3F000000#32))
        (broadcastInDim S32x1x22 ![0, 2] bcast_S32x22_S32x1x22_0_2 M)))

/-! ## The layout operations of the line, each read at an index -/

/-- The wrapped token ids as a column `[32, 512, 1]`, read at `(b, s, 0)`: the id at `(b, s)`. -/
theorem column_apply (T : IVec S32x512 32) (b : Fin 32) (s : Fin 512) :
    broadcastInDim S32x512x1 ![0, 1] bcast_S32x512_S32x512x1_0_1 T (ix3 b s (0 : Fin 1)) = T (ix2 b s) :=
  broadcastInDim_apply _ _ _ _ (ix2 b s) (fun a => match a with | ⟨0, _⟩ => rfl | ⟨1, _⟩ => rfl)

/-- The comparison with zero, the sum with 22 and the choice between them, read at an index: the id wrapped. -/
theorem wrapped_apply (tok : IVec S32x512 32) (i : S32x512.Idx) :
    select (cmpi CmpIPredicate.slt tok (broadcastInDim S32x512 ![] bcast_S_S32x512 (constantI S_ 32 0#32)))
      (addi tok (broadcastInDim S32x512 ![] bcast_S_S32x512 (constantI S_ 32 22#32))) tok i
      = Cert.Decoder.wrap (tok i) := rfl

/-- The latent vector broadcast over the positions, read at `(b, s, d)`: entry `(b, d)`. -/
theorem latent_apply (z : FVec Ideal S32x512 .f32) (b : Fin 32) (s : Fin 512) (d : Fin 512) :
    broadcastInDim S32x512x512 ![0, 1, 2] bcast_S32x1x512_S32x512x512_0_1_2
      (broadcastInDim S32x1x512 ![0, 2] bcast_S32x512_S32x1x512_0_2 z) (ix3 b s d) = z (ix2 b d) :=
  (broadcastInDim_apply _ _ _ _ (ix3 b (0 : Fin 1) d)
    (fun a => match a with | ⟨0, _⟩ => rfl | ⟨1, _⟩ => rfl | ⟨2, _⟩ => rfl)).trans
    (broadcastInDim_apply _ _ _ _ (ix2 b d) (fun a => match a with | ⟨0, _⟩ => rfl | ⟨1, _⟩ => rfl))

/-- The first layer's bias broadcast over sequences and positions, read at `(b, s, f)`: entry `f`. -/
theorem bias1_apply (b1 : FVec Ideal S2048 .f32) (b : Fin 32) (s : Fin 512) (f : Fin 2048) :
    broadcastInDim S32x512x2048 ![0, 1, 2] bcast_S1x1x2048_S32x512x2048_0_1_2
      (broadcastInDim S1x1x2048 ![2] bcast_S2048_S1x1x2048_2 b1) (ix3 b s f) = b1 (ix1 f) :=
  (broadcastInDim_apply _ _ _ _ (ix3 (0 : Fin 1) (0 : Fin 1) f)
    (fun a => match a with | ⟨0, _⟩ => rfl | ⟨1, _⟩ => rfl | ⟨2, _⟩ => rfl)).trans
    (broadcastInDim_apply _ _ _ _ (ix1 f) (fun a => match a with | ⟨0, _⟩ => rfl))

/-- The second layer's bias broadcast over sequences and positions, read at `(b, s, v)`: entry `v`. -/
theorem bias2_apply (b2 : FVec Ideal S22 .f32) (b : Fin 32) (s : Fin 512) (v : Fin 22) :
    broadcastInDim S32x512x22 ![0, 1, 2] bcast_S1x1x22_S32x512x22_0_1_2
      (broadcastInDim S1x1x22 ![2] bcast_S22_S1x1x22_2 b2) (ix3 b s v) = b2 (ix1 v) :=
  (broadcastInDim_apply _ _ _ _ (ix3 (0 : Fin 1) (0 : Fin 1) v)
    (fun a => match a with | ⟨0, _⟩ => rfl | ⟨1, _⟩ => rfl | ⟨2, _⟩ => rfl)).trans
    (broadcastInDim_apply _ _ _ _ (ix1 v) (fun a => match a with | ⟨0, _⟩ => rfl))

/-- Half the mask broadcast over the positions, read at `(b, s, v)`: half of entry `(b, v)`. -/
theorem halfMask_apply (M : FVec Ideal S32x22 .f32) (b : Fin 32) (s : Fin 512) (v : Fin 22) :
    broadcastInDim S32x512x22 ![0, 1, 2] bcast_S32x1x22_S32x512x22_0_1_2
      (mulf (broadcastInDim S32x1x22 ![] bcast_S_S32x1x22 (constant (F := Ideal) S_ .f32 0x3F000000#32))
        (broadcastInDim S32x1x22 ![0, 2] bcast_S32x22_S32x1x22_0_2 M)) (ix3 b s v)
      = Cert.Decoder.half * M (ix2 b v) := by
  refine (broadcastInDim_apply _ _ _ _ (ix3 b (0 : Fin 1) v)
    (fun a => match a with | ⟨0, _⟩ => rfl | ⟨1, _⟩ => rfl | ⟨2, _⟩ => rfl)).trans ?_
  rw [mulf_apply, broadcastInDim_scalar_apply, constant_apply]
  exact congrArg (Cert.Decoder.half * ·)
    (broadcastInDim_apply _ _ _ _ (ix2 b v) (fun a => match a with | ⟨0, _⟩ => rfl | ⟨1, _⟩ => rfl))

/-! ## The two products and the gather, each read at an index -/

/-- A stack of matrices `[B, S, K]` times one matrix `[K, N]`, contracting the stack's last axis with the matrix's
    first, read at `(b, s, n)`: the sum over the contracted coordinate of the products of the entries. At the ideal
    values. -/
theorem dotGeneral_rows_apply {B S K N : Nat} {φ₁ φ₂ : FTy}
    (w : DotDims.WF ⟨3, ![B, S, K]⟩ ⟨2, ![K, N]⟩ ⟨3, ![B, S, N]⟩ [2] [0] [0, 1] [1] [] [])
    (prec : Option ContractPrecision) (A : FVec Ideal ⟨3, ![B, S, K]⟩ φ₁) (W : FVec Ideal ⟨2, ![K, N]⟩ φ₂)
    (b : Fin B) (s : Fin S) (n : Fin N) :
    Host.dotGeneral (⟨[2], [0], [0, 1], [1], [], [], w⟩ : DotDims _ _ _) prec A W (ix3 b s n)
      = ∑ c : Fin K, A (ix3 b s c) * W (ix2 c n) := by
  show FloatOps.dotGeneral _ prec _ A W (ix3 b s n) = _
  rw [Ideal.dotGeneral_apply,
    ← Equiv.sum_comp (contrEquiv1 (⟨[2], [0], [0, 1], [1], [], [], w⟩ : DotDims _ _ _) K rfl rfl).symm]
  refine Finset.sum_congr rfl fun c _ => ?_
  have hc := contrEquiv1_symm_val
    (⟨[2], [0], [0, 1], [1], [], [], w⟩ : DotDims ⟨3, ![B, S, K]⟩ ⟨2, ![K, N]⟩ ⟨3, ![B, S, N]⟩) K rfl rfl c
  have hl : (⟨[2], [0], [0, 1], [1], [], [], w⟩ : DotDims ⟨3, ![B, S, K]⟩ ⟨2, ![K, N]⟩ ⟨3, ![B, S, N]⟩).lhsIdx (ix3 b s n)
      ((contrEquiv1 _ K rfl rfl).symm c) = ix3 b s c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hc
  have hr : (⟨[2], [0], [0, 1], [1], [], [], w⟩ : DotDims ⟨3, ![B, S, K]⟩ ⟨2, ![K, N]⟩ ⟨3, ![B, S, N]⟩).rhsIdx (ix3 b s n)
      ((contrEquiv1 _ K rfl rfl).symm c) = ix2 c n := by
    funext ax; apply Fin.ext
    match ax with
    | ⟨0, _⟩ => simp [DotDims.rhsIdx]; exact hc
    | ⟨1, _⟩ => simp [DotDims.rhsIdx]; rfl
  rw [hl, hr]

/-- The first layer's product at `(b, s, f)`: the sum over the 512 features. -/
theorem dot1_apply (X : FVec Ideal S32x512x512 .f32) (W1 : FVec Ideal S512x2048 .f32) (b : Fin 32) (s : Fin 512)
    (f : Fin 2048) :
    Host.dotGeneral dot_S32x512x512_S512x2048_S32x512x2048_2_0_01_1_n_n none X W1 (ix3 b s f)
      = ∑ d : Fin 512, X (ix3 b s d) * W1 (ix2 d f) :=
  dotGeneral_rows_apply (B := 32) (S := 512) (K := 512) (N := 2048)
    dot_S32x512x512_S512x2048_S32x512x2048_2_0_01_1_n_n_wf none X W1 b s f

/-- The second layer's product at `(b, s, v)`: the sum over the 2048 hidden units. -/
theorem dot2_apply (H : FVec Ideal S32x512x2048 .f32) (W2 : FVec Ideal S2048x22 .f32) (b : Fin 32) (s : Fin 512)
    (v : Fin 22) :
    Host.dotGeneral dot_S32x512x2048_S2048x22_S32x512x22_2_0_01_1_n_n none H W2 (ix3 b s v)
      = ∑ f : Fin 2048, H (ix3 b s f) * W2 (ix2 f v) :=
  dotGeneral_rows_apply (B := 32) (S := 512) (K := 2048) (N := 22)
    dot_S32x512x2048_S2048x22_S32x512x22_2_0_01_1_n_n_wf none H W2 b s v

/-- The embedding rows gathered at a column of row numbers, read at `(b, s, d)`: the table at the row number read
    signed and clamped into the table, column `d`. -/
theorem rows_apply (emb : FVec Ideal S22x512 .f32) (idx : IVec S32x512x1 32) (b : Fin 32) (s : Fin 512) (d : Fin 512) :
    Host.gather gather_S22x512_S32x512x1_S32x512x512_2_0_n_n_0_2_1512 emb idx (ix3 b s d)
      = emb (ix2 (Cert.Decoder.row (idx (ix3 b s (0 : Fin 1)))) d) :=
  gather_rows_apply (N := 22) (D := 512) (R := 32) (C := 512) (by decide)
    gather_S22x512_S32x512x1_S32x512x512_2_0_n_n_0_2_1512_wf emb idx b s d

/-! ## The line's layers are the decoder's, index by index -/

section Layers

variable (tok : IVec S32x512 32) (z : FVec Ideal S32x512 .f32) (emb : FVec Ideal S22x512 .f32)
  (W1 : FVec Ideal S512x2048 .f32) (b1 : FVec Ideal S2048 .f32) (W2 : FVec Ideal S2048x22 .f32)
  (b2 : FVec Ideal S22 .f32) (M : FVec Ideal S32x22 .f32)

/-- Feature `d` at position `s` of sequence `b`: the row the wrapped, clamped token id selects, plus the latent
    vector's entry. -/
theorem lineFeat_apply (b : Fin 32) (s : Fin 512) (d : Fin 512) :
    lineFeat tok z emb (ix3 b s d)
      = Cert.Decoder.feat (fun b s => Cert.Decoder.row (Cert.Decoder.wrap (tok (ix2 b s)))) (fun b d => z (ix2 b d))
          (fun q d => emb (ix2 q d)) b s d := by
  unfold lineFeat Cert.Decoder.feat
  rw [addf_apply, rows_apply, column_apply, wrapped_apply, latent_apply]

/-- Hidden unit `f`: the maximum of the first layer's affine form of the features and zero. -/
theorem lineHidden_apply (b : Fin 32) (s : Fin 512) (f : Fin 2048) :
    lineHidden tok z emb W1 b1 (ix3 b s f)
      = Cert.Decoder.hidden (fun b s => Cert.Decoder.row (Cert.Decoder.wrap (tok (ix2 b s)))) (fun b d => z (ix2 b d))
          (fun q d => emb (ix2 q d)) (fun d f => W1 (ix2 d f)) (fun f => b1 (ix1 f)) b s f := by
  unfold lineHidden Cert.Decoder.hidden
  rw [maximumf_apply, addf_apply, dot1_apply, bias1_apply, broadcastInDim_scalar_apply, constant_apply]
  simp only [lineFeat_apply]

/-- Logit `v`: the second layer's affine form of the hidden units. -/
theorem lineLogit_apply (b : Fin 32) (s : Fin 512) (v : Fin 22) :
    lineLogit tok z emb W1 b1 W2 b2 (ix3 b s v)
      = Cert.Decoder.logit (fun b s => Cert.Decoder.row (Cert.Decoder.wrap (tok (ix2 b s)))) (fun b d => z (ix2 b d))
          (fun q d => emb (ix2 q d)) (fun d f => W1 (ix2 d f)) (fun f => b1 (ix1 f)) (fun f v => W2 (ix2 f v))
          (fun v => b2 (ix1 v)) b s v := by
  unfold lineLogit Cert.Decoder.logit
  rw [addf_apply, dot2_apply, bias2_apply]
  simp only [lineHidden_apply]

/-- The composed line is the decoder's result of its arguments, with the mask array as given. -/
theorem lineOut_eq :
    lineOut tok z emb W1 b1 W2 b2 M
      = Cert.Decoder.result (fun i => Cert.Decoder.row (Cert.Decoder.wrap (tok i))) z emb W1 b1 W2 b2 M := by
  funext j
  obtain ⟨b, s, v, rfl⟩ : ∃ (b : Fin 32) (s : Fin 512) (v : Fin 22), j = ix3 b s v := ⟨j 0, j 1, j 2, eq_ix3 j⟩
  show lineOut tok z emb W1 b1 W2 b2 M (ix3 b s v)
    = Cert.Decoder.out (fun b s => Cert.Decoder.row (Cert.Decoder.wrap (tok (ix2 b s)))) (fun b d => z (ix2 b d))
        (fun q d => emb (ix2 q d)) (fun d f => W1 (ix2 d f)) (fun f => b1 (ix1 f)) (fun f v => W2 (ix2 f v))
        (fun v => b2 (ix1 v)) (fun b v => M (ix2 b v)) b s v
  unfold lineOut Cert.Decoder.out
  rw [subf_apply, lineLogit_apply, halfMask_apply]

end Layers

/-! ## The fold at the buffers -/

attribute [local irreducible] Host.gather Host.reduceAdd in
/-- The argument buffers are written by no operation. -/
theorem arg0_eq (V : Valuation τ sig (Elt Ideal)) : after ops V (main_arg0 : DevRef τ sig) = V (main_arg0 : DevRef τ sig) := by
  simp only [after_cons, after_nil]
  rfl
attribute [local irreducible] Host.gather Host.reduceAdd in
theorem arg1_eq (V : Valuation τ sig (Elt Ideal)) : after ops V (main_arg1 : DevRef τ sig) = V (main_arg1 : DevRef τ sig) := by
  simp only [after_cons, after_nil]
  rfl
attribute [local irreducible] Host.gather Host.reduceAdd in
theorem arg2_eq (V : Valuation τ sig (Elt Ideal)) : after ops V (main_arg2 : DevRef τ sig) = V (main_arg2 : DevRef τ sig) := by
  simp only [after_cons, after_nil]
  rfl
attribute [local irreducible] Host.gather Host.reduceAdd in
theorem arg3_eq (V : Valuation τ sig (Elt Ideal)) : after ops V (main_arg3 : DevRef τ sig) = V (main_arg3 : DevRef τ sig) := by
  simp only [after_cons, after_nil]
  rfl
attribute [local irreducible] Host.gather Host.reduceAdd in
theorem arg4_eq (V : Valuation τ sig (Elt Ideal)) : after ops V (main_arg4 : DevRef τ sig) = V (main_arg4 : DevRef τ sig) := by
  simp only [after_cons, after_nil]
  rfl
attribute [local irreducible] Host.gather Host.reduceAdd in
theorem arg5_eq (V : Valuation τ sig (Elt Ideal)) : after ops V (main_arg5 : DevRef τ sig) = V (main_arg5 : DevRef τ sig) := by
  simp only [after_cons, after_nil]
  rfl
attribute [local irreducible] Host.gather Host.reduceAdd in
theorem arg6_eq (V : Valuation τ sig (Elt Ideal)) : after ops V (main_arg6 : DevRef τ sig) = V (main_arg6 : DevRef τ sig) := by
  simp only [after_cons, after_nil]
  rfl

attribute [local irreducible] Host.gather Host.reduceAdd in
/-- The fold at the result buffer is the composed line of the argument buffers' launch contents, with the mask array
    the fold leaves in the mask buffer: each operation's result is read at its own buffer and passed through at every
    other, and the mask chain's term stands on both sides as it is. The gather and the row sums are kept folded
    meanwhile: the equation never looks inside them. -/
theorem line_eq (V : Valuation τ sig (Elt Ideal)) :
    after ops V (main_v45 : DevRef τ sig)
      = lineOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (after ops V (main_v40 : DevRef τ sig)) := by
  after_results_simp
  rfl

/-- The result buffer holds the decoder's result of the arguments, with the line's own mask. -/
theorem result_eq (V : Valuation τ sig (Elt Ideal)) :
    after ops V (main_v45 : DevRef τ sig)
      = Cert.Decoder.result (fun i => Cert.Decoder.row (Cert.Decoder.wrap (V (main_arg0 : DevRef τ sig) i)))
          (V (main_arg1 : DevRef τ sig)) (V (main_arg2 : DevRef τ sig)) (V (main_arg3 : DevRef τ sig))
          (V (main_arg4 : DevRef τ sig)) (V (main_arg5 : DevRef τ sig)) (V (main_arg6 : DevRef τ sig))
          (after ops V (main_v40 : DevRef τ sig)) :=
  (line_eq V).trans (lineOut_eq _ _ _ _ _ _ _ _)

end Cert.ReferenceIdeal.Line

end
-- ==== Proof.TokenDomain.lean ====
/-
  The domain of the token ids. The precondition asks, beside finite float inputs, that every token id be at least
  zero; for such an id jnp's reading of an index (an id below zero counts from the end of the table) is the id
  itself, so the reference selects the same embedding row as the kernel's clamp.
-/
import proofs.«416070_j3427383902410_3_alg».proof.Defs
import proofs.«416070_j3427383902410_3_alg».proof.Proof.Gen.Pre_finite_inputs
import proofs.«416070_j3427383902410_3_alg».proof.Proof.Decoder
import Idealize.ShloMosaic.Lib.ReduceAll

noncomputable section

namespace Cert.TokenDomain

open Idealize.ShloMosaic Idealize.ShloMosaic.ValueIdx

theorem ofBool_eq_one (b : Bool) : BitVec.ofBool b = 1#1 ↔ b = true := by cases b <;> decide
theorem and1 : ∀ (a b : BitVec 1), IntOp.andi a b = 1#1 ↔ a = 1#1 ∧ b = 1#1 := by decide

/-- A word that compares `≥ 0` signed is a non-negative integer. -/
theorem nonneg_of_sge (t : BitVec 32) (h : IntOp.cmpi .sge t 0#32 = 1#1) : 0 ≤ t.toInt := by
  unfold IntOp.cmpi at h
  rw [ofBool_eq_one] at h
  simpa [BitVec.sle] using h

/-- For a non-negative id, counting from the end of the table does not apply: the id is read as it is. -/
theorem wrap_of_nonneg (t : BitVec 32) (h : 0 ≤ t.toInt) : Cert.Decoder.wrap t = t := by
  unfold Cert.Decoder.wrap Scalar.select IntOp.cmpi
  have : t.slt 0#32 = false := by
    simp only [BitVec.slt, BitVec.toInt_zero, decide_eq_false_iff_not, not_lt]; exact h
  rw [this]; rfl

instance : Subsingleton Cert.Pre_finite_inputs.S_.Idx := ⟨fun a b => funext fun d => d.elim0⟩

/-- THE PRECONDITION DECODED: where it evaluates to all ones, every token id is non-negative. -/
theorem nonneg_of_pre [Cert.Pre_finite_inputs.Facts] (tok : IVec Cert.Pre_finite_inputs.S32x512 32)
    (z : FVec Ideal Cert.Pre_finite_inputs.S32x512 .f32) (emb : FVec Ideal Cert.Pre_finite_inputs.S22x512 .f32)
    (W1 : FVec Ideal Cert.Pre_finite_inputs.S512x2048 .f32) (b1 : FVec Ideal Cert.Pre_finite_inputs.S2048 .f32)
    (W2 : FVec Ideal Cert.Pre_finite_inputs.S2048x22 .f32) (b2 : FVec Ideal Cert.Pre_finite_inputs.S22 .f32)
    (h : Cert.Pre_finite_inputs.fn (F := Ideal) tok z emb W1 b1 W2 b2 = fun _ => 1#1)
    (i : Cert.Pre_finite_inputs.S32x512.Idx) : 0 ≤ (tok i).toInt := by
  have e := congrFun h ix0
  unfold Cert.Pre_finite_inputs.fn at e
  dsimp only at e
  unfold Cert.Pre_finite_inputs.fn_part1 at e
  dsimp only at e
  have e2 := ((and1 _ _).mp e).2
  exact nonneg_of_sge _ (Host.reduce_andi_all _ _ _ _ _ e2 i)

end Cert.TokenDomain

end
-- ==== Proof.MaskAgree.lean ====
/-
  The two programs compute the grammar mask by the same host operations of the token ids.
-/
import proofs.«416070_j3427383902410_3_alg».proof.Proof.KernelHost
import proofs.«416070_j3427383902410_3_alg».proof.Proof.RefRun

set_option maxRecDepth 16384

noncomputable section

open Idealize.ShloMosaic Idealize.ShloMosaic.TcCoe Idealize.SL.Sem Idealize.ShloMosaic.ValueIdx Idealize.ShloMosaic.StableHlo

namespace Cert.Proof

/-- The table of digits (1.0 at the ids of '1' to '9'): the same 22 words in both programs. -/
theorem isDigit_eq : Cert.ReferenceIdeal.lit0 = Cert.KernelIdeal.lit2 := by funext i; fin_cases i <;> rfl
/-- The mask added per digit predecessor: the same 22 words in both programs. -/
theorem digitMask_eq : Cert.ReferenceIdeal.lit1 = Cert.KernelIdeal.lit0 := by funext i; fin_cases i <;> rfl
/-- The mask added per other predecessor: the same 22 words in both programs. -/
theorem otherMask_eq : Cert.ReferenceIdeal.lit2 = Cert.KernelIdeal.lit1 := by funext i; fin_cases i <;> rfl

set_option maxHeartbeats 1000000 in
attribute [local irreducible] Host.gather Host.reduceAdd in
/-- Both programs slice the first 511 ids of each sequence, read each as jnp reads an index, gather the digit table
    there, count the digits of each sequence, and combine the two mask rows with the counts: the two chains are the
    same operations of the same token ids over the same tables, so the two mask arrays are equal. -/
theorem mask_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    (after (Cert.ReferenceIdeal.Line.ops (F := Ideal)) (launchContents m' c) (Cert.ReferenceIdeal.main_v40 : DevRef Cert.ReferenceIdeal.τ Cert.ReferenceIdeal.sig) : Cert.ReferenceIdeal.S32x22.Idx → EReal)
      = Cert.KernelIdeal.Host.maskArr m c := by
  dsimp only [Cert.KernelIdeal.Host.maskArr, Cert.KernelIdeal.Host.afterMask]
  simp only [Cert.KernelIdeal.Gen.hostOps0, Cert.ReferenceIdeal.Line.ops]
  after_results_simp
  have h0' : launchContents m' c (Proc.devRef .tc Cert.ReferenceIdeal.main_arg0) = m (c, Proc.devRef .tc Cert.KernelIdeal.main_arg0) := h0
  rw [h0', isDigit_eq, digitMask_eq, otherMask_eq]
  rfl

end Cert.Proof

end
-- ==== Proof.lean ====
/-
  The proof of `Cert.Claim`.

  Both programs compute a two-layer decoder — the embedding row of each token id plus the sequence's latent vector,
  an affine layer with its positive part, a second affine layer — and subtract half of a per-sequence grammar mask
  that both compute from the token ids by the same host operations. The kernel selects the embedding row by a one-hot
  product over the id clamped into the table and adds the second layer's 2048 products up in four runs of 512; the
  reference gathers the row at the id as jnp reads an index and adds the products up in one sum. Over the extended
  reals the two sums agree (addition is commutative and associative), and for a token id that is at least zero — the
  precondition's domain of the ids — both selections are the id clamped into the table. So the two result arrays are
  ONE function of the arguments, `Cert.Decoder.result`.

  The frames of the two kernel programs are the generated ones; the reference's is its straight-line run with the
  result dropped; `preserves` is trivial (the ideal pass rewrote nothing).
-/
import proofs.«416070_j3427383902410_3_alg».proof.Defs
import proofs.«416070_j3427383902410_3_alg».proof.Proof.Gen.Kernel
import proofs.«416070_j3427383902410_3_alg».proof.Proof.Gen.Kernel.Skeleton
import proofs.«416070_j3427383902410_3_alg».proof.Proof.Gen.Kernel.Launch
import proofs.«416070_j3427383902410_3_alg».proof.Proof.Gen.Kernel.Points
import proofs.«416070_j3427383902410_3_alg».proof.Proof.Gen.Kernel.Frame
import proofs.«416070_j3427383902410_3_alg».proof.Proof.Gen.KernelIdeal
import proofs.«416070_j3427383902410_3_alg».proof.Proof.Gen.KernelIdeal.Skeleton
import proofs.«416070_j3427383902410_3_alg».proof.Proof.Gen.KernelIdeal.Launch
import proofs.«416070_j3427383902410_3_alg».proof.Proof.Gen.KernelIdeal.Points
import proofs.«416070_j3427383902410_3_alg».proof.Proof.Gen.KernelIdeal.Frame
import proofs.«416070_j3427383902410_3_alg».proof.Proof.Gen.ReferenceIdeal
import proofs.«416070_j3427383902410_3_alg».proof.Proof.Gen.Pre_finite_inputs
import proofs.«416070_j3427383902410_3_alg».proof.Proof.KernelResult
import proofs.«416070_j3427383902410_3_alg».proof.Proof.RefValue
import proofs.«416070_j3427383902410_3_alg».proof.Proof.TokenDomain
import proofs.«416070_j3427383902410_3_alg».proof.Proof.MaskAgree
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's frame: its straight-line run, read at the argument buffers, which no operation writes. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Line.arg0_eq _), (h c Cert.ReferenceIdeal.main_arg1).trans (Cert.ReferenceIdeal.Line.arg1_eq _),
     (h c Cert.ReferenceIdeal.main_arg2).trans (Cert.ReferenceIdeal.Line.arg2_eq _), (h c Cert.ReferenceIdeal.main_arg3).trans (Cert.ReferenceIdeal.Line.arg3_eq _),
     (h c Cert.ReferenceIdeal.main_arg4).trans (Cert.ReferenceIdeal.Line.arg4_eq _), (h c Cert.ReferenceIdeal.main_arg5).trans (Cert.ReferenceIdeal.Line.arg5_eq _),
     (h c Cert.ReferenceIdeal.main_arg6).trans (Cert.ReferenceIdeal.Line.arg6_eq _)⟩)
    (Cert.ReferenceIdeal.Line.run_main (F := Ideal) m ρ)

theorem preserves : Cert.preserves_Kernel_KernelIdeal := trivial

/-- Both runs end with the result buffer at `Cert.Decoder.result` of the arguments: the kernel's by its run read back,
    the reference's by its straight line read at an index, the two selections of an embedding row meeting on the
    precondition's domain and the two masks being one chain of host operations of the token ids. -/
theorem algebraic : Cert.algebraic_KernelIdeal_ReferenceIdeal := by
  intro m ρ m' ρ' hpre hagree
  refine ⟨fun c => Cert.Decoder.result (fun i => Cert.Decoder.row (m ((c.tc : Thread Cert.KernelIdeal.nD Cert.KernelIdeal.τ).loc Cert.KernelIdeal.main_arg0) i)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (Cert.KernelIdeal.Host.maskArr m c),
    Cert.KernelIdeal.Result.run_value m ρ, ?_⟩
  refine (θ_run Cert.ReferenceIdeal.defs _ _).mono (fun _ h c =>
    ⟨(h c Cert.ReferenceIdeal.main_v45).trans ?_, (h c Cert.ReferenceIdeal.main_arg0).trans (Cert.ReferenceIdeal.Line.arg0_eq _), (h c Cert.ReferenceIdeal.main_arg1).trans (Cert.ReferenceIdeal.Line.arg1_eq _),
     (h c Cert.ReferenceIdeal.main_arg2).trans (Cert.ReferenceIdeal.Line.arg2_eq _), (h c Cert.ReferenceIdeal.main_arg3).trans (Cert.ReferenceIdeal.Line.arg3_eq _),
     (h c Cert.ReferenceIdeal.main_arg4).trans (Cert.ReferenceIdeal.Line.arg4_eq _), (h c Cert.ReferenceIdeal.main_arg5).trans (Cert.ReferenceIdeal.Line.arg5_eq _),
     (h c Cert.ReferenceIdeal.main_arg6).trans (Cert.ReferenceIdeal.Line.arg6_eq _)⟩)
    (Cert.ReferenceIdeal.Line.run_main (F := Ideal) m' ρ')
  obtain ⟨h0, h1, h2, h3, h4, h5, h6⟩ := hagree c
  have hnn : ∀ i, 0 ≤ (m ((c.tc : Thread Cert.KernelIdeal.nD Cert.KernelIdeal.τ).loc Cert.KernelIdeal.main_arg0) i).toInt :=
    Cert.TokenDomain.nonneg_of_pre _ _ _ _ _ _ _ (hpre c)
  rw [Cert.ReferenceIdeal.Line.result_eq, Cert.Proof.mask_agree m m' c h0]
  show Cert.Decoder.result (fun i => Cert.Decoder.row (Cert.Decoder.wrap (m' ((c.tc : Thread Cert.ReferenceIdeal.nD Cert.ReferenceIdeal.τ).loc Cert.ReferenceIdeal.main_arg0) i))) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (Cert.KernelIdeal.Host.maskArr m c) = _
  rw [h0, h1, h2, h3, h4, h5, h6]
  congr 1
  funext i
  rw [Cert.TokenDomain.wrap_of_nonneg _ (hnn i)]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
